-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S8192 : Shape := ⟨1, ![8192]⟩
abbrev S12x768 : Shape := ⟨2, ![12, 768]⟩
abbrev S12 : Shape := ⟨1, ![12]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S12x768 : S_.BroadcastsInDim S12x768 (![] : Fin 0 → Fin S12x768.rank)
  reducesTo_S12x768_S_d0_1 : S12x768.ReducesTo [0, 1] S_
  bcast_S_S12 : S_.BroadcastsInDim S12 (![] : Fin 0 → Fin S12.rank)
  reducesTo_S12_S_d0 : S12.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg2 : IVec S8192 32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg2 main_v19
  let main_c_7 : IVec S_ 32 := constantI S_ 32 12#32
  let main_v21 : IVec S8192 32 := broadcastInDim S8192 ![] bcast_S_S8192 main_c_7
  let main_v22 : IVec S8192 1 := cmpi .slt main_arg2 main_v21
  let main_v23 : IVec S8192 1 := andi main_v20 main_v22
  let main_c_8 : IVec S_ 1 := constantI S_ 1 1#1
  let main_v24 : IVec S_ 1 := (fun x v => Host.reduce IntOp.andi x v reducesTo_S8192_S_d0 h_S_) main_v23 main_c_8
  let main_v25 : IVec S_ 1 := andi main_v18 main_v24
  main_v25

def fn {F : FTy → Type} [FloatOps F] (main_arg0 : FVec F S8192x768 .f32) (main_arg1 : FVec F S8192x768 .f32) (main_arg2 : IVec S8192 32) (main_arg3 : FVec F S12x768 .f32) (main_arg4 : FVec F S12 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S12x768 .f32 := Host.absf main_arg3
  let main_cst_2 : FVec F S_ .f32 := constant S_ .f32 0x7F800000#32
  let main_v10 : FVec F S12x768 .f32 := broadcastInDim S12x768 ![] bcast_S_S12x768 main_cst_2
  let main_v11 : IVec S12x768 1 := cmpf .olt main_v9 main_v10
  let main_c_3 : IVec S_ 1 := constantI S_ 1 1#1
  let main_v12 : IVec S_ 1 := (fun x v => Host.reduce IntOp.andi x v reducesTo_S12x768_S_d0_1 h_S_) main_v11 main_c_3
  let main_v13 : IVec S_ 1 := andi main_v8 main_v12
  let main_v14 : FVec F S12 .f32 := Host.absf main_arg4
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg2 main_v13 main_v16
-- ==== Kernel.lean ====
abbrev S8192x768 : Shape := ⟨2, ![8192, 768]⟩
abbrev S8192 : Shape := ⟨1, ![8192]⟩
abbrev S12x768 : Shape := ⟨2, ![12, 768]⟩
abbrev S12 : Shape := ⟨1, ![12]⟩
abbrev S1x12 : Shape := ⟨2, ![1, 12]⟩
abbrev S8192x1 : Shape := ⟨2, ![8192, 1]⟩
abbrev S8192x12 : Shape := ⟨2, ![8192, 12]⟩
abbrev S64x128 : Shape := ⟨2, ![64, 128]⟩
abbrev S1024x768 : Shape := ⟨2, ![1024, 768]⟩
abbrev S1024x1 : Shape := ⟨2, ![1024, 1]⟩
abbrev S1024x12 : Shape := ⟨2, ![1024, 12]⟩
abbrev S8x128 : Shape := ⟨2, ![8, 128]⟩
abbrev S1024 : Shape := ⟨1, ![1024]⟩
abbrev S1 : Shape := ⟨1, ![1]⟩
abbrev S1x1 : Shape := ⟨2, ![1, 1]⟩
abbrev S_ : Shape := ⟨0, ![]⟩
abbrev S1x8192 : Shape := ⟨2, ![1, 8192]⟩
abbrev S1x1024 : Shape := ⟨2, ![1, 1024]⟩
abbrev S1024x1024 : Shape := ⟨2, ![1024, 1024]⟩

abbrev nBuf : Space → Nat
  | .hbm => 30
  | .vmem => 30
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192, .i32⟩
  | .hbm, ⟨3, _⟩ => ⟨S12x768, .f32⟩
  | .hbm, ⟨4, _⟩ => ⟨S12, .f32⟩
  | .hbm, ⟨5, _⟩ => ⟨S1x12, .f32⟩
  | .hbm, ⟨6, _⟩ => ⟨S8192x1, .i32⟩
  | .hbm, ⟨7, _⟩ => ⟨S8192x12, .f32⟩
  | .hbm, ⟨8, _⟩ => ⟨S64x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x768, .bf16⟩
  | .hbm, ⟨16, _⟩ => ⟨S8192x1, .f32⟩
  | .hbm, ⟨17, _⟩ => ⟨S1x8192, .f32⟩
  | .hbm, ⟨18, _⟩ => ⟨S8192x1, .i32⟩
  | .hbm, ⟨19, _⟩ => ⟨S1x8192, .i32⟩
  | .hbm, ⟨20, _⟩ => ⟨S64x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S12x768, .f32⟩
  | .local _ .vmem, ⟨3, _⟩ => ⟨S1x12, .f32⟩
  | .local _ .vmem, ⟨4, _⟩ => ⟨S1024x1, .i32⟩
  | .local _ .vmem, ⟨5, _⟩ => ⟨S1024x1, .i32⟩
  | .local _ .vmem, ⟨6, _⟩ => ⟨S1024x12, .f32⟩
  | .local _ .vmem, ⟨7, _⟩ => ⟨S1024x12, .f32⟩
  | .local _ .vmem, ⟨8, _⟩ => ⟨S8x128, .f32⟩
  | .local _ .vmem, ⟨9, _⟩ => ⟨S8x128, .f32⟩
  | .local _ .vmem, ⟨10, _⟩ => ⟨S1024x768, .f32⟩
  | .local _ .vmem, ⟨11, _⟩ => ⟨S1024x768, .f32⟩
  | .local _ .vmem, ⟨12, _⟩ => ⟨S1024x768, .bf16⟩
  | .local _ .vmem, ⟨13, _⟩ => ⟨S1024x768, .bf16⟩
  | .local _ .vmem, ⟨14, _⟩ => ⟨S1024x1, .f32⟩
  | .local _ .vmem, ⟨15, _⟩ => ⟨S1024x1, .f32⟩
  | .local _ .vmem, ⟨16, _⟩ => ⟨S1024x768, .bf16⟩
  | .local _ .vmem, ⟨17, _⟩ => ⟨S1024x768, .bf16⟩
  | .local _ .vmem, ⟨18, _⟩ => ⟨S8192x768, .bf16⟩
  | .local _ .vmem, ⟨19, _⟩ => ⟨S1024x1, .f32⟩
  | .local _ .vmem, ⟨20, _⟩ => ⟨S1024x1, .f32⟩
  | .local _ .vmem, ⟨21, _⟩ => ⟨S1x1024, .f32⟩
  | .local _ .vmem, ⟨22, _⟩ => ⟨S1x1024, .f32⟩
  | .local _ .vmem, ⟨23, _⟩ => ⟨S1024x1, .i32⟩
  | .local _ .vmem, ⟨24, _⟩ => ⟨S1024x1, .i32⟩
  | .local _ .vmem, ⟨25, _⟩ => ⟨S1x1024, .i32⟩
  | .local _ .vmem, ⟨26, _⟩ => ⟨S1x1024, .i32⟩
  | .local _ .vmem, ⟨27, _⟩ => ⟨S8x128, .f32⟩
  | .local _ .vmem, ⟨28, _⟩ => ⟨S8x128, .f32⟩
  | .local _ .vmem, ⟨29, _⟩ => ⟨S1x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def k2_mult1 (i : grid2.Coords) : BitVec 32 :=
  let arg1 : BitVec 32 := BitVec.ofNat 32 (i 1).val
  let c1024_i32 : BitVec 32 := 1024#32
  let v5 : BitVec 32 := Scalar.muli arg1 c1024_i32
  v5
def k2_off1 (i : grid2.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k2_cond4 (i : grid2.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_17 : BitVec 32 := 0#32
  let v44 : BitVec 1 := Scalar.cmpi .ne v43 c0_i32_17
  v44

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S8192x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1024 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S12_S1x12 : S12.ShapeCasts S1x12
  shapeCasts_S8192_S8192x1 : S8192.ShapeCasts S8192x1
  inb_S1024x768_S1024x768_0_0 : ∀ a, (![0, 0] : Fin 2 → Nat) a + S1024x768.size a ≤ S1024x768.size a
  h_S1024x768 : 0 < S1024x768.numel
  inb_S12x768_S12x768_0_0 : ∀ a, (![0, 0] : Fin 2 → Nat) a + S12x768.size a ≤ S12x768.size a
  h_S12x768 : 0 < S12x768.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S1024x12 : S1x12.Broadcasts S1024x12
  inb_S1024x12_S1024x12_0_0 : ∀ a, (![0, 0] : Fin 2 → Nat) a + S1024x12.size a ≤ S1024x12.size a
  h_S1024x12 : 0 < S1024x12.numel
  reduces_S1024x12_S1024 : S1024x12.Reduces [1] S1024
  shapeCasts_S1024_S1024x1 : S1024.ShapeCasts S1024x1
  broadcasts_S1024x1_S1024x12 : S1024x1.Broadcasts S1024x12
  iota_S1024x12_d1_w32 : S1024x12.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  h_S_ : 0 < S_.numel
  bitsLt_bf16_f32 : FTy.bits .bf16 < FTy.bits .f32
  packedbf16_S1024x768_S1024x768_0_0 : (Rect.unit (s := S1024x768) ![0, 0] S1024x768.size inb_S1024x768_S1024x768_0_0).PackedRows (EltTy.packing .bf16)
  reduces_S1024x768_S1024 : S1024x768.Reduces [1] S1024
  shapeCasts_S8192x1_S1x8192 : S8192x1.ShapeCasts S1x8192
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1024x768_S1024x768 : S1024x768.ShapeCasts S1024x768
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  dot_S1024x768_S12x768_S1024x12_1_1_0_0_n_n_wf : DotDims.WF S1024x768 S12x768 S1024x12 [1] [1] [0] [0] [] []
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x768.size a ≤ S12x768.size a
  hwx0_1 : ∀ i : grid0.Coords, EltTy.bits .f32 = 32 ∨ (Rect.block (s := S12x768) S12x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12.size a ≤ S1x12.size a
  hwx0_2 : ∀ i : grid0.Coords, EltTy.bits .f32 = 32 ∨ (Rect.block (s := S1x12) S1x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x12.size a ≤ S8192x12.size a
  hwx0_4 : ∀ i : grid0.Coords, EltTy.bits .f32 = 32 ∨ (Rect.block (s := S8192x12) S1024x12.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x128.size a
  hwx0_5 : ∀ i : grid0.Coords, EltTy.bits .f32 = 32 ∨ (Rect.block (s := S64x128) S8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S8192x768.size a
  hwx1_0 : ∀ i : grid1.Coords, EltTy.bits .f32 = 32 ∨ (Rect.block (s := S8192x768) S1024x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S8192x768.size a
  hwx1_1 : ∀ i : grid1.Coords, EltTy.bits .bf16 = 32 ∨ (Rect.block (s := S8192x768) S1024x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hrank2 : 0 < grid2.rank
  k2_mult1_dvd : ∀ i : grid2.Coords, 1024 ∣ (k2_mult1 i).toNat
  k2_off1_inb : ∀ i : grid2.Coords, ∀ a, (k2_off1 i) a + S1024x768.size a ≤ S8192x768.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S8192x768.size a
  hwx2_0 : ∀ i : grid2.Coords, EltTy.bits .bf16 = 32 ∨ (Rect.block (s := S8192x768) S1024x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x768.size a ≤ S8192x768.size a
  hwx2_1 : ∀ i : grid2.Coords, EltTy.bits .bf16 = 32 ∨ (Rect.block (s := S8192x768) S8192x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .i32 = 32 ∨ (Rect.block (s := S8192x1) S1024x1.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x8192.size a
  hwx2_5 : ∀ i : grid2.Coords, EltTy.bits .i32 = 32 ∨ (Rect.block (s := S1x8192) S1x1024.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S64x128.size a
  hwx2_6 : ∀ i : grid2.Coords, EltTy.bits .f32 = 32 ∨ (Rect.block (s := S64x128) S8x128.size (cc2_transform_6 i) (hinb2_6 i)).WholeWords (EltTy.packing .f32)

variable [Facts₀]

def dot_S1024x768_S12x768_S1024x12_1_1_0_0_n_n : DotDims S1024x768 S12x768 S1024x12 where
  lhsContracting := [1]
  rhsContracting := [1]
  lhsNonContracting := [0]
  rhsNonContracting := [0]
  lhsBatch := []
  rhsBatch := []
  wf := dot_S1024x768_S12x768_S1024x12_1_1_0_0_n_n_wf
def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S12x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x12.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S1024x768.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6_0) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_0) S8192x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1024x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v10) S8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond4 i == 1#1) | ⟨_ + 7, h⟩ => absurd h (Nat.not_lt.2 (Nat.le_add_left _ _))

class Facts : Prop extends Facts₀ where

variable [Facts]
-- ==== ReferenceIdeal.lean ====
abbrev S8192x768 : Shape := ⟨2, ![8192, 768]⟩
abbrev S8192 : Shape := ⟨1, ![8192]⟩
abbrev S12x768 : Shape := ⟨2, ![12, 768]⟩
abbrev S12 : Shape := ⟨1, ![12]⟩
abbrev S768x12 : Shape := ⟨2, ![768, 12]⟩
abbrev S8192x12 : Shape := ⟨2, ![8192, 12]⟩
abbrev S1x12 : Shape := ⟨2, ![1, 12]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S1x8192 : Shape := ⟨2, ![1, 8192]⟩
abbrev S8192x8192 : Shape := ⟨2, ![8192, 8192]⟩
abbrev S768x8192 : Shape := ⟨2, ![768, 8192]⟩

abbrev nBuf : Space → Nat
  | .hbm => 101
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192, .i32⟩
  | .hbm, ⟨3, _⟩ => ⟨S12x768, .f32⟩
  | .hbm, ⟨4, _⟩ => ⟨S12, .f32⟩
  | .hbm, ⟨5, _⟩ => ⟨S768x12, .f32⟩
  | .hbm, ⟨6, _⟩ => ⟨S8192x12, .f32⟩
  | .hbm, ⟨7, _⟩ => ⟨S1x12, .f32⟩
  | .hbm, ⟨8, _⟩ => ⟨S8192x12, .f32⟩
  | .hbm, ⟨9, _⟩ => ⟨S8192x12, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x12, .f32⟩
  | .hbm, ⟨17, _⟩ => ⟨S8192x12, .f32⟩
  | .hbm, ⟨18, _⟩ => ⟨S8192x12, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S8192x12, .f32⟩
  | .hbm, ⟨24, _⟩ => ⟨S8192x12, .f32⟩
  | .hbm, ⟨25, _⟩ => ⟨S8192x1, .i32⟩
  | .hbm, ⟨26, _⟩ => ⟨S_, .i32⟩
  | .hbm, ⟨27, _⟩ => ⟨S8192x1, .i32⟩
  | .hbm, ⟨28, _⟩ => ⟨S8192x1, .i1⟩
  | .hbm, ⟨29, _⟩ => ⟨S_, .i32⟩
  | .hbm, ⟨30, _⟩ => ⟨S8192x1, .i32⟩
  | .hbm, ⟨31, _⟩ => ⟨S8192x1, .i32⟩
  | .hbm, ⟨32, _⟩ => ⟨S8192x1, .i32⟩
  | .hbm, ⟨33, _⟩ => ⟨S8192x1x1, .i32⟩
  | .hbm, ⟨34, _⟩ => ⟨S1, .i32⟩
  | .hbm, ⟨35, _⟩ => ⟨S_, .i32⟩
  | .hbm, ⟨36, _⟩ => ⟨S8192x1x1, .i32⟩
  | .hbm, ⟨37, _⟩ => ⟨S8192x1x1, .i1⟩
  | .hbm, ⟨38, _⟩ => ⟨S1x1x1, .i32⟩
  | .hbm, ⟨39, _⟩ => ⟨S8192x1x1, .i32⟩
  | .hbm, ⟨40, _⟩ => ⟨S8192x1x1, .i1⟩
  | .hbm, ⟨41, _⟩ => ⟨S8192x1x1, .i1⟩
  | .hbm, ⟨42, _⟩ => ⟨S_, .i1⟩
  | .hbm, ⟨43, _⟩ => ⟨S8192x1, .i1⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x768, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S1x8192, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S768x8192, .f32⟩
  | .hbm, ⟨62, _⟩ => ⟨S8192x8192, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S8192x8192, .i32⟩
  | .hbm, ⟨72, _⟩ => ⟨S8192x8192, .i32⟩
  | .hbm, ⟨73, _⟩ => ⟨S_, .i32⟩
  | .hbm, ⟨74, _⟩ => ⟨S8192x8192, .i32⟩
  | .hbm, ⟨75, _⟩ => ⟨S8192x8192, .i32⟩
  | .hbm, ⟨76, _⟩ => ⟨S8192x8192, .i1⟩
  | .hbm, ⟨77, _⟩ => ⟨S8192x8192, .i1⟩
  | .hbm, ⟨78, _⟩ => ⟨S8192x1, .i32⟩
  | .hbm, ⟨79, _⟩ => ⟨S1x8192, .i32⟩
  | .hbm, ⟨80, _⟩ => ⟨S8192x8192, .i32⟩
  | .hbm, ⟨81, _⟩ => ⟨S8192x8192, .i32⟩
  | .hbm, ⟨82, _⟩ => ⟨S8192x8192, .i1⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S_, .f32⟩
  | .hbm, ⟨91, _⟩ => ⟨S_, .f32⟩
  | .hbm, ⟨92, _⟩ => ⟨S8192x8192, .f32⟩
  | .hbm, ⟨93, _⟩ => ⟨S8192x8192, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v5 : Ref sig .tc := ⟨.hbm, 24, rfl⟩
abbrev main_v6 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v7 : Ref sig .tc := ⟨.hbm, 47, rfl⟩
abbrev main_cst : Ref sig .tc := ⟨.hbm, 48, rfl⟩
abbrev main_v8 : Ref sig .tc := ⟨.hbm, 49, rfl⟩
abbrev main_cst_0 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_1 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_3 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_4 : Ref sig .tc := ⟨.hbm, 83, rfl⟩
abbrev main_v37 : Ref sig .tc := ⟨.hbm, 84, rfl⟩
abbrev main_v38 : Ref sig .tc := ⟨.hbm, 85, rfl⟩
abbrev main_cst_5 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_6 : Ref sig .tc := ⟨.hbm, 90, rfl⟩
abbrev main_call3_v0 : Ref sig .tc := ⟨.hbm, 91, rfl⟩
abbrev main_call3_v1 : Ref sig .tc := ⟨.hbm, 92, rfl⟩
abbrev main_v42 : Ref sig .tc := ⟨.hbm, 93, rfl⟩
abbrev main_cst_7 : Ref sig .tc := ⟨.hbm, 94, rfl⟩
abbrev main_v43 : Ref sig .tc := ⟨.hbm, 95, rfl⟩
abbrev main_cst_8 : Ref sig .tc := ⟨.hbm, 96, rfl⟩
abbrev main_v44 : Ref sig .tc := ⟨.hbm, 97, rfl⟩
abbrev main_cst_9 : Ref sig .tc := ⟨.hbm, 98, rfl⟩
abbrev main_v45 : Ref sig .tc := ⟨.hbm, 99, rfl⟩
abbrev main_v46 : Ref sig .tc := ⟨.hbm, 100, rfl⟩

abbrev nD : Nat := 1
abbrev τ : Topo := Topo.v7x

variable {F : FTy → Type} [FloatOps F]

class Facts₀ : Prop where
  transposes_S12x768_S768x12_1_0 : S12x768.Transposes [1, 0] S768x12
  bcast_S12_S1x12_1 : S12.BroadcastsInDim S1x12 (![1] : Fin 1 → Fin S1x12.rank)
  bcast_S1x12_S8192x12_0_1 : S1x12.BroadcastsInDim S8192x12 (![0, 1] : Fin 2 → Fin S8192x12.rank)
  reducesTo_S8192x12_S8192_d1 : S8192x12.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x12_0_1 : S8192x1.BroadcastsInDim S8192x12 (![0, 1] : Fin 2 → Fin S8192x12.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  reducesTo_S8192x768_S8192_d1 : S8192x768.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x768_S768x8192_1_0 : S8192x768.Transposes [1, 0] S768x8192
  bcast_S_S8192x8192 : S_.BroadcastsInDim S8192x8192 (![] : Fin 0 → Fin S8192x8192.rank)
  reducesTo_S8192x8192_S_d0_1 : S8192x8192.ReducesTo [0, 1] S_
  dot_S8192x768_S768x12_S8192x12_1_0_0_1_n_n_wf : DotDims.WF S8192x768 S768x12 S8192x12 [1] [0] [0] [1] [] []
  gather_S8192x12_S8192x1x1_S8192x1_n_1_0_0_1_2_11_wf : GatherDims.WF S8192x12 S8192x1x1 S8192x1 [] [1] [0] [1] [0] 2 ![1, 1]
  dot_S8192x768_S768x8192_S8192x8192_1_0_0_1_n_n_wf : DotDims.WF S8192x768 S768x8192 S8192x8192 [1] [0] [0] [1] [] []

variable [Facts₀]

def dot_S8192x768_S768x12_S8192x12_1_0_0_1_n_n : DotDims S8192x768 S768x12 S8192x12 where
  lhsContracting := [1]
  rhsContracting := [0]
  lhsNonContracting := [0]
  rhsNonContracting := [1]
  lhsBatch := []
  rhsBatch := []
  wf := dot_S8192x768_S768x12_S8192x12_1_0_0_1_n_n_wf
def gather_S8192x12_S8192x1x1_S8192x1_n_1_0_0_1_2_11 : GatherDims S8192x12 S8192x1x1 S8192x1 where
  offsetDims := []
  collapsedSliceDims := [1]
  operandBatchingDims := [0]
  startIndicesBatchingDims := [0]
  startIndexMap := [1]
  indexVectorDim := 2
  sliceSizes := ![1, 1]
  wf := gather_S8192x12_S8192x1x1_S8192x1_n_1_0_0_1_2_11_wf
def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf

class Facts : Prop extends Facts₀ where

variable [Facts]
-- ==== Proof.KDefs.lean ====
/-
  What each of the three pallas_calls leaves in its output blocks, as plain functions of its input blocks, and
  the pipelines' proof data at entry contents `V`.
  Call 0, point t: rows [1024 t, 1024 t + 1024) of the logits, and one 8 x 128 block filled with minus the sum over
  those rows of the log-softmax entry the row's label selects.
  Call 1, point t: the same rows of the second feature matrix re-encoded, and their squared norms.
  Call 2, point (i, j): the 1024 x 1024 tile of pair terms of row block i against row block j (the second
  operand is the whole table, read at rows [1024 j, 1024 j + 1024)); a one-element accumulator is cleared at
  j = 0, receives the tile's sum (its diagonal left out when i = j), and is written out as an 8 x 128 block at j = 7.
-/
import proofs.«427818_j27788438405734_3_alg».proof.Proof.Gen.KernelIdeal.Launch
import proofs.«427818_j27788438405734_3_alg».proof.Proof.Gen.KernelIdeal.Skeleton
import proofs.«427818_j27788438405734_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Defs

variable (V : (c : Dev nD) → (b : Ref sig .tc) → Buf (Elt F) ((c : Thread nD τ).loc b))

/-! ## Call 0 -/

/-- Window `w`'s block at point `t`, read off its array as the region finds it. -/
def xblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits block: the body's first store, over the blocks it loads. -/
def logitBlk (x0 : Vec F S1024x768 .f32) (x1 : Vec F S12x768 .f32) (x2 : Vec F S1x12 .f32) : Vec F S1024x12 .f32 :=
  k0_pay1 x0 x1 x2

/-- The partial-sum block: the body's second store. -/
def partBlk (x0 : Vec F S1024x768 .f32) (x1 : Vec F S12x768 .f32) (x2 : Vec F S1x12 .f32) (x3 : Vec F S1024x1 .i32) : Vec F S8x128 .f32 :=
  k0_pay2 x0 x1 x2 x3

/-- The proof data of call 0: the arrays as found; each input's buffer keeps its block, the two outputs' buffers
    hold the two blocks above; nothing carried between points. -/
def dat0 (c : Dev nD) : Dat τ (Elt F) Unit ℕ (UR sig nD τ) ℕ cfg0 c where
  A w := V c (Pipeline.arrRef spec0 w)
  after w t := match w with
    | ⟨0, _⟩ => xblk V c 0 t
    | ⟨1, _⟩ => xblk V c 1 t
    | ⟨2, _⟩ => xblk V c 2 t
    | ⟨3, _⟩ => xblk V c 3 t
    | ⟨4, _⟩ => logitBlk (xblk V c 0 t) (xblk V c 1 t) (xblk V c 2 t)
    | ⟨5, _⟩ => partBlk (xblk V c 0 t) (xblk V c 1 t) (xblk V c 2 t) (xblk V c 3 t)
  Φ _ := Pipeline.ΦA spec0 c
  q _ := fullShare
  owed _ := 0

/-! ## Call 1 -/

def pblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The re-encoded rows. -/
def castBlk (x0 : Vec F S1024x768 .f32) : Vec F S1024x768 .bf16 := k1_pay1 x0

/-- The rows' squared norms. -/
def sqBlk (x0 : Vec F S1024x768 .f32) : Vec F S1024x1 .f32 := k1_pay2 x0

def dat1 (c : Dev nD) : Dat τ (Elt F) Unit ℕ (UR sig nD τ) ℕ cfg1 c where
  A w := V c (Pipeline.arrRef spec1 w)
  after w t := match w with
    | ⟨0, _⟩ => pblk V c 0 t
    | ⟨1, _⟩ => castBlk (pblk V c 0 t)
    | ⟨2, _⟩ => sqBlk (pblk V c 0 t)
  Φ _ := Pipeline.ΦA spec1 c
  q _ := fullShare
  owed _ := 0

/-! ## Call 2 -/

def cblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's four branch conditions, from the grid coordinates (i, j): j = 0; i = j; i ≠ j; j = 7. -/
abbrev condReset (i : grid2.Coords) : Prop := (Scalar.cmpi .ne (Scalar.extui (Scalar.cmpi .eq (BitVec.ofNat 32 (i 1).val) 0#32)) 0#32) = 1#1
abbrev condDiag (i : grid2.Coords) : Prop := (Scalar.cmpi .ne (Scalar.extui (Scalar.cmpi .eq (BitVec.ofNat 32 (i 0).val) (BitVec.ofNat 32 (i 1).val))) 0#32) = 1#1
abbrev condOff (i : grid2.Coords) : Prop := (Scalar.cmpi .ne (Scalar.extui (Scalar.cmpi .ne (BitVec.ofNat 32 (i 0).val) (BitVec.ofNat 32 (i 1).val))) 0#32) = 1#1
abbrev condFlush (i : grid2.Coords) : Prop := k2_cond4 i = 1#1

/-- The rows of the whole table the body loads at point `i`: 1024 rows from row 1024 j. -/
abbrev rTab (i : grid2.Coords) : Rect S8192x768 := Rect.unit (s := S8192x768) (k2_off1 i) S1024x768.size (k2_off1_inb i)

/-- The tile of pair terms at point `i`, over the six input blocks (the second the whole table). -/
def tileAt (i : grid2.Coords) (x0 : Vec F S1024x768 .bf16) (x1 : Vec F S8192x768 .bf16) (x2 : Vec F S1024x1 .f32) (x3 : Vec F S1x1024 .f32)
    (x4 : Vec F S1024x1 .i32) (x5 : Vec F S1x1024 .i32) : Vec F S1024x1024 .f32 :=
  k2_pay5 x0 (View.ld x1 (rTab i)) x2 x3 x4 x5

/-- The accumulator after the clearing branch: zero at j = 0, else what it held. -/
def accStart (i : grid2.Coords) (xs : Vec F S1x1 .f32) : Vec F S1x1 .f32 :=
  open Classical in if condReset i then k2_pay4 else xs

/-- The accumulator after the point: the tile's sum added, the diagonal left out when i = j. -/
def accNext (i : grid2.Coords) (x0 : Vec F S1024x768 .bf16) (x1 : Vec F S8192x768 .bf16) (x2 : Vec F S1024x1 .f32) (x3 : Vec F S1x1024 .f32)
    (x4 : Vec F S1024x1 .i32) (x5 : Vec F S1x1024 .i32) (xs : Vec F S1x1 .f32) : Vec F S1x1 .f32 :=
  open Classical in
  if condDiag i then k2_pay1 (tileAt i x0 x1 x2 x3 x4 x5) (accStart i xs)
  else if condOff i then k2_pay2 (tileAt i x0 x1 x2 x3 x4 x5) (accStart i xs)
  else accStart i xs

/-- The 8 x 128 block written at j = 7: the accumulator everywhere. -/
def outBlk (xs : Vec F S1x1 .f32) : Vec F S8x128 .f32 := k2_pay3 xs

/-- The accumulator after point `n`, by recursion on the point (at point 0 the clearing branch runs, so the value
    the recursion starts from is never read). -/
def accAt (c : Dev nD) : (n : ℕ) → n < cfg2.N → Vec F S1x1 .f32
  | 0, hn => accNext (grid2.coords ⟨0, hn⟩) (cblk V c 0 ⟨0, hn⟩) (cblk V c 1 ⟨0, hn⟩) (cblk V c 2 ⟨0, hn⟩) (cblk V c 3 ⟨0, hn⟩)
      (cblk V c 4 ⟨0, hn⟩) (cblk V c 5 ⟨0, hn⟩) k2_pay4
  | n + 1, hn => accNext (grid2.coords ⟨n + 1, hn⟩) (cblk V c 0 ⟨n + 1, hn⟩) (cblk V c 1 ⟨n + 1, hn⟩) (cblk V c 2 ⟨n + 1, hn⟩)
      (cblk V c 3 ⟨n + 1, hn⟩) (cblk V c 4 ⟨n + 1, hn⟩) (cblk V c 5 ⟨n + 1, hn⟩) (accAt c n (Nat.lt_of_succ_lt hn))

/-- The one scratch operand, a whole one-element buffer of the kernel's own. -/
abbrev scrM : Memref sig .tc .vmem S1x1 .f32 := Memref.whole cc2_scratch0

/-- The other two calls' staging buffers, each whole at some contents, followed by `R` (the place of the scratch
    operand): call 2's scoped buffers that are no staging buffer of its own. -/
def othersThen (c : Dev nD) (R : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ R)

/-- The region invariant before position `n`: before the first point every scoped buffer that is no staging buffer
    at anything; afterwards the accumulator at what the point before left, and the generator register at some state. -/
def PhiC (c : Dev nD) : (n : ℕ) → n ≤ cfg2.N → sProp 𝕄
  | 0, _ => Pipeline.ΦA spec2 c
  | n + 1, hn => iprop(othersThen c (owns (c : Thread nD τ) scrM fullShare (accAt V c n hn)) ∗ (∃ r, prngReg c r))

def dat2 (c : Dev nD) : Dat τ (Elt F) Unit ℕ (UR sig nD τ) ℕ cfg2 c where
  A w := V c (Pipeline.arrRef spec2 w)
  after w t := match w with
    | ⟨0, _⟩ => cblk V c 0 t
    | ⟨1, _⟩ => cblk V c 1 t
    | ⟨2, _⟩ => cblk V c 2 t
    | ⟨3, _⟩ => cblk V c 3 t
    | ⟨4, _⟩ => cblk V c 4 t
    | ⟨5, _⟩ => cblk V c 5 t
    | ⟨6, _⟩ => outBlk (accAt V c t.val t.isLt)
  Φ t := PhiC V c t.val (Nat.le_of_lt_succ t.isLt)
  q w := match w with
    | ⟨0, _⟩ => fullShare.left
    | ⟨1, _⟩ => fullShare.right
    | _ => fullShare
  owed _ := 0

end Defs

end Cert.KernelIdeal.Hand

end
-- ==== Proof.KFold.lean ====
/-
  The contents of every unscoped buffer at each boundary between a stretch of host operations and a pallas_call,
  from the launch memory to the return. Each call changes only its result arrays, to what its write-backs leave;
  every other buffer passes a call unchanged. Also stated here: what the three calls owe the run (their body
  obligations, and for call 2, which reads one array through two windows, the split and the join of its arrays).
-/
import proofs.«427818_j27788438405734_3_alg».proof.Proof.KDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The entry contents a call's proof data are stated at. -/
abbrev Ent : Type := (c : Dev nD) → (b : Ref sig .tc) → Buf (Elt F) ((c : Thread nD τ).loc b)

/-- What the three calls owe the run: their body obligations, call 2's invariant entered from and returned to the
    plain one, and call 2's arrays split out of and joined back into the unscoped buffers. -/
structure Owed : Prop where
  body0 : ∀ (V : Ent (F := F)) (c : Dev nD), BodyObligation (dat0 (F := F) V c) (defs₀ (F := F)) Variants.none () Set.univ
  body1 : ∀ (V : Ent (F := F)) (c : Dev nD), BodyObligation (dat1 (F := F) V c) (defs₀ (F := F)) Variants.none () Set.univ
  body2 : ∀ (V : Ent (F := F)) (c : Dev nD), BodyObligation (dat2 (F := F) V c) (defs₀ (F := F)) Variants.none () Set.univ
  out2 : ∀ (V : Ent (F := F)) (c : Dev nD), ((dat2 (F := F) V c).Φ (Fin.last cfg2.N) : sProp 𝕄) ⊢ Pipeline.ΦA spec2 c
  split2 : ∀ (V : Ent (F := F)) (c : Dev nD) (U : (b : Ref sig .tc) → Buf (Elt F) ((c : Thread nD τ).loc b)),
    (∀ w, (dat2 V c).A w = U (Pipeline.arrRef spec2 w)) →
    ((unscopedBufs c U : sProp 𝕄) ⊢ iprop((dat2 V c).arrays ((dat2 V c).arrAt · 0)
      ∗ Pipeline.unscopedRest (Ix := Unit) (Name := ℕ) (U := UR sig nD τ) (Lvl := ℕ) spec2 c U))
  join2 : ∀ (V : Ent (F := F)) (c : Dev nD) (U U' : (b : Ref sig .tc) → Buf (Elt F) ((c : Thread nD τ).loc b))
    (G : (w : Fin cfg2.W) → Buf (Elt F) ((cfg2.win w).arr.view.loc (c : Thread nD τ))),
    (∀ w, G w = U' (Pipeline.arrRef spec2 w)) → (∀ b, b ∉ Finset.univ.image (Pipeline.arrRef spec2) → U' b = U b) →
    (iprop((dat2 V c).arrays G ∗ Pipeline.unscopedRest (Ix := Unit) (Name := ℕ) (U := UR sig nD τ) (Lvl := ℕ) spec2 c U)
      ⊢ (unscopedBufs c U' : sProp 𝕄))

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (call 0's entry). -/
abbrev W1 : Dev nD → Valuation τ sig (Elt F) := fun c => StableHlo.after hostOps0 (W0 m c)
abbrev V1 : Ent (F := F) := fun c b => W1 m c b
/-- At call 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : Ent (F := F) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (call 1's entry). -/
abbrev W3 : Dev nD → Valuation τ sig (Elt F) := fun c => StableHlo.after hostOps1 (W2 m c)
abbrev V3 : Ent (F := F) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : Ent (F := F) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (call 2's entry). -/
abbrev W5 : Dev nD → Valuation τ sig (Elt F) := fun c => StableHlo.after hostOps2 (W4 m c)
abbrev V5 : Ent (F := F) := fun c b => W5 m c b
/-- At call 2's exit: only its result array has changed. -/
def W6 (c : Dev nD) : Valuation τ sig (Elt F) :=
  Function.update (W5 m c) (Proc.devRef .tc main_v10) ((dat2 (V5 m) c).arrAt 6 cfg2.N)
abbrev V6 : Ent (F := F) := fun c b => W6 m c b
theorem W6_out (c : Dev nD) : W6 m c (Proc.devRef .tc main_v10) = (dat2 (V5 m) c).arrAt 6 cfg2.N := by
  unfold W6; exact Function.update_self ..
theorem W6_of_ne (c : Dev nD) (b : Ref sig .tc) (hb : b ≠ main_v10) :
    W6 m c (Proc.devRef .tc b) = W5 m c (Proc.devRef .tc b) := by
  unfold W6; exact Function.update_of_ne (StableHlo.devRef_ne_of_ne hb) ..
/-- After the last host stretch. -/
abbrev W7 : Dev nD → Valuation τ sig (Elt F) := fun c => StableHlo.after hostOps3 (W6 m c)

end Cert.KernelIdeal.Hand

end
-- ==== Proof.KRun.lean ====
/-
  The whole program's run: the launch of the seven segments (four stretches of host operations, three
  pallas_calls) over the boundary contents, ending with every unscoped buffer at the last boundary's contents.
-/
import proofs.«427818_j27788438405734_3_alg».proof.Proof.KFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No call has a prefetched table. -/
abbrev adm : (p : Fin 3) → (pcfgs (F := F) p).Adm := fun p => (cfgs p).toPCfg_adm
/-- Each call's proof data at its own entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem hostOps1_noalloc : (hostOps1 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem hostOps3_noalloc : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- Call 0 over the thread state: entered from every unscoped buffer at the boundary before it, left at the one
    after it; its arrays split out of the unscoped buffers and put back at their exit contents; the generator
    register into the plain invariant and out; nothing owed; no semaphore of the kernel's own. -/
def reg0 (ow : Owed (F := F)) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (ow.body0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the boundary before it, left at the one
    after it; its arrays split out of the unscoped buffers and put back at their exit contents; the generator
    register into the plain invariant and out; nothing owed; no semaphore of the kernel's own. -/
def reg1 (ow : Owed (F := F)) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (ow.body1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Call 2's arrays at its exit: the six inputs as entered, the result at what the write-backs leave. -/
theorem hF2 (c : Dev nD) (w : Fin cfg2.W) : (dat2 (V5 m) c).arrAt w cfg2.N = V6 m c (Pipeline.arrRef spec2 w) :=
  match w with
  | ⟨0, _⟩ => ((dat2 (V5 m) c).arrAt_in 0 rfl _).trans ((show (dat2 (V5 m) c).A 0 = V5 m c (Pipeline.arrRef spec2 0) from by dsimp only [dat2]).trans (W6_of_ne m c _ (by decide)).symm)
  | ⟨1, _⟩ => ((dat2 (V5 m) c).arrAt_in 1 rfl _).trans ((show (dat2 (V5 m) c).A 1 = V5 m c (Pipeline.arrRef spec2 1) from by dsimp only [dat2]).trans (W6_of_ne m c _ (by decide)).symm)
  | ⟨2, _⟩ => ((dat2 (V5 m) c).arrAt_in 2 rfl _).trans ((show (dat2 (V5 m) c).A 2 = V5 m c (Pipeline.arrRef spec2 2) from by dsimp only [dat2]).trans (W6_of_ne m c _ (by decide)).symm)
  | ⟨3, _⟩ => ((dat2 (V5 m) c).arrAt_in 3 rfl _).trans ((show (dat2 (V5 m) c).A 3 = V5 m c (Pipeline.arrRef spec2 3) from by dsimp only [dat2]).trans (W6_of_ne m c _ (by decide)).symm)
  | ⟨4, _⟩ => ((dat2 (V5 m) c).arrAt_in 4 rfl _).trans ((show (dat2 (V5 m) c).A 4 = V5 m c (Pipeline.arrRef spec2 4) from by dsimp only [dat2]).trans (W6_of_ne m c _ (by decide)).symm)
  | ⟨5, _⟩ => ((dat2 (V5 m) c).arrAt_in 5 rfl _).trans ((show (dat2 (V5 m) c).A 5 = V5 m c (Pipeline.arrRef spec2 5) from by dsimp only [dat2]).trans (W6_of_ne m c _ (by decide)).symm)
  | ⟨6, _⟩ => (W6_out m c).symm
theorem hrest2 (c : Dev nD) : ∀ b, b ∉ Finset.univ.image (Pipeline.arrRef spec2) → V6 m c b = V5 m c b :=
  fun b hb => W6_of_ne m c b fun e => hb (Finset.mem_image.mpr ⟨6, Finset.mem_univ _, e.symm⟩)

set_option backward.isDefEq.respectTransparency.types false in
/-- Call 2 over the thread state. One array is read through two windows, each at half of it: the split and the join
    of its arrays are the hypotheses `split2` / `join2`; its invariant tracks the accumulator and returns to the plain
    one at the end (`out2`). -/
def reg2 (ow : Owed (F := F)) : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (ow.body2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := ow.split2 (V5 m) c (V5 m c) (fun w => by dsimp only [dat2])
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (ow.out2 (V5 m) c).trans ?_
    unfold Pipeline.ΦA
    iintro ⟨Hr, Hp⟩
    isplitl [Hp]; · iexact Hp
    isplitr; · iempintro
    iexact Hr
  hexit c := by
    have hjoin := ow.join2 (V5 m) c (V5 m c) (V6 m c) ((dat2 (V5 m) c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

/-! ## The program as segments, and the launch -/

abbrev segs (ow : Owed (F := F)) : List (Pipeline.Seg (pcfgs (F := F)) adm (pdats m) () defs₀ 𝒱₀ L lv) :=
  [ .host (hseg hostOps0 hostOps0_sub hostOps0_noalloc (W0 m)),
    .region (reg0 m ow),
    .host (hseg hostOps1 hostOps1_sub hostOps1_noalloc (W2 m)),
    .region (reg1 m ow),
    .host (hseg hostOps2 hostOps2_sub hostOps2_noalloc (W4 m)),
    .region (reg2 m ow),
    .host (hseg hostOps3 hostOps3_sub hostOps3_noalloc (W6 m)) ]
theorem main_run (ow : Owed (F := F)) (c : Dev nD) : main (F := F) c = Pipeline.Seg.run (segs m ow) := (main_chain c).trans (by chain_rfl)

set_option backward.isDefEq.respectTransparency.types false in
/-- THE RUN. From any memory with zero counters every weakly fair execution of the program terminates, nothing
    faulting, and the final memory holds every unscoped buffer at the last boundary's contents. -/
theorem run_all (ow : Owed (F := F)) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m ow)
    (fun c Q => by rw [main_run m ow c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (StableHlo.after hostOps3 (W6 m c)) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.KArgs.lean ====
/-
  The five argument arrays at the last boundary hold their launch contents: no host operation writes one, and a
  call either reads it through an input window or does not touch it.
-/
import proofs.«427818_j27788438405734_3_alg».proof.Proof.KFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- `main_arg0` reaches the end as launched: no host operation writes it and no call changes it. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (by dsimp only [dat0]))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it and no call changes it. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := (W4_arr m c 0).trans (((dat1 (V3 m) c).arrAt_in 0 rfl _).trans (by dsimp only [dat1]))
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it and no call changes it. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it and no call changes it. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg3) := W6_of_ne m c main_arg3 (by decide)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 1).trans (((dat0 (V1 m) c).arrAt_in 1 rfl _).trans (by dsimp only [dat0]))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` reaches the end as launched: no host operation writes it and no call changes it. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg4) := W6_of_ne m c main_arg4 (by decide)
    _ = W4 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

end Cert.KernelIdeal.Hand

end
-- ==== Proof.Body01.lean ====
/-
  The first two kernel calls at one grid point. Call 0 reads rows [1024 t, 1024 t + 1024) of the features and of the
  labels, the whole weight matrix and the bias, and writes the same rows of the logits and one 8 x 128 block of the
  partial cross-entropy sum; call 1 reads the same rows of the second feature matrix and writes them re-encoded
  together with their squared norms. Each body loads whole buffers and stores whole buffers, so what it leaves in an
  output buffer is the stored value as a function of the loaded blocks, with no trace of the buffer's earlier
  contents; an input buffer holds its block at every point, whether the block was moved in there or earlier. From
  these two facts: the body's triple on whole buffers, and the pipeline's obligation at every point.
-/
import proofs.«427818_j27788438405734_3_alg».proof.Proof.KDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bodies

variable (V : (c : Dev nD) → (b : Ref sig .tc) → Buf (Elt F) ((c : Thread nD τ).loc b))

/-- Zero offsets, as the bodies spell them. -/
theorem hz : (![0, 0] : Fin 2 → ℕ) = fun _ => 0 := by funext a; fin_cases a <;> rfl

/-! ## Call 0: the classifier and its partial sums -/

/-- The proof data's arrays are the entry contents. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = xblk V c 0 t := by dsimp only [dat0]
theorem after0_1 (c : Dev nD) (t : Fin cfg0.N) : (dat0 V c).after 1 t = xblk V c 1 t := by dsimp only [dat0]
theorem after0_2 (c : Dev nD) (t : Fin cfg0.N) : (dat0 V c).after 2 t = xblk V c 2 t := by dsimp only [dat0]
theorem after0_3 (c : Dev nD) (t : Fin cfg0.N) : (dat0 V c).after 3 t = xblk V c 3 t := by dsimp only [dat0]
theorem after0_4 (c : Dev nD) (t : Fin cfg0.N) :
    (dat0 V c).after 4 t = logitBlk (xblk V c 0 t) (xblk V c 1 t) (xblk V c 2 t) := by dsimp only [dat0]
theorem after0_5 (c : Dev nD) (t : Fin cfg0.N) :
    (dat0 V c).after 5 t = partBlk (xblk V c 0 t) (xblk V c 1 t) (xblk V c 2 t) (xblk V c 3 t) := by dsimp only [dat0]

/-- An input window's current buffer holds its block at every point, fetched there or not: the body leaves it in
    place, and a window that is not fetched again has not moved. One statement per window. -/
theorem found0_0 (c : Dev nD) (t : Fin cfg0.N) (d) : (dat0 V c).before 0 t d = xblk V c 0 t :=
  ((dat0 V c).before_in_eq_fetched 0 rfl (fun _ => rfl) (fun _ _ _ => rfl)
    (fun t => by rw [after0_0]; unfold Dat.blockOf xblk; rw [A_eq0]; try rfl) t d).trans
    (by unfold Dat.fetched Dat.blockOf xblk; rw [A_eq0]; try rfl)
theorem found0_1 (c : Dev nD) (t : Fin cfg0.N) (d) : (dat0 V c).before 1 t d = xblk V c 1 t :=
  ((dat0 V c).before_in_eq_fetched 1 rfl (fun _ => rfl) (fun _ _ _ => rfl)
    (fun t => by rw [after0_1]; unfold Dat.blockOf xblk; rw [A_eq0]; try rfl) t d).trans
    (by unfold Dat.fetched Dat.blockOf xblk; rw [A_eq0]; try rfl)
theorem found0_2 (c : Dev nD) (t : Fin cfg0.N) (d) : (dat0 V c).before 2 t d = xblk V c 2 t :=
  ((dat0 V c).before_in_eq_fetched 2 rfl (fun _ => rfl) (fun _ _ _ => rfl)
    (fun t => by rw [after0_2]; unfold Dat.blockOf xblk; rw [A_eq0]; try rfl) t d).trans
    (by unfold Dat.fetched Dat.blockOf xblk; rw [A_eq0]; try rfl)
theorem found0_3 (c : Dev nD) (t : Fin cfg0.N) (d) : (dat0 V c).before 3 t d = xblk V c 3 t :=
  ((dat0 V c).before_in_eq_fetched 3 rfl (fun _ => rfl) (fun _ _ _ => rfl)
    (fun t => by rw [after0_3]; unfold Dat.blockOf xblk; rw [A_eq0]; try rfl) t d).trans
    (by unfold Dat.fetched Dat.blockOf xblk; rw [A_eq0]; try rfl)

/-- The whole-buffer rectangles the two stores go through. -/
abbrev rLogit : Rect S1024x12 := Rect.unit (s := S1024x12) ![0, 0] S1024x12.size inb_S1024x12_S1024x12_0_0
abbrev rPart : Rect S8x128 := Rect.unit (s := S8x128) ![0, 0] S8x128.size inb_S8x128_S8x128_0_0

/-- Each store covers its buffer. -/
theorem coverLogit (p0 : Vec F S1024x12 .f32) (y : S1024x12.Idx) :
    ∃ pc ∈ ([⟨rLogit, p0⟩] : List (View.Piece (Elt F) S1024x12 .f32)), y ∈ pc.1.set :=
  ⟨_, List.mem_singleton_self _, View.mem_set_unit_zero hz inb_S1024x12_S1024x12_0_0 y⟩
theorem coverPart (p0 : Vec F S8x128 .f32) (y : S8x128.Idx) :
    ∃ pc ∈ ([⟨rPart, p0⟩] : List (View.Piece (Elt F) S8x128 .f32)), y ∈ pc.1.set :=
  ⟨_, List.mem_singleton_self _, View.mem_set_unit_zero hz inb_S8x128_S8x128_0_0 y⟩

set_option maxHeartbeats 4000000 in
/-- The body on whole buffers: the four inputs at read contents, the two outputs at anything, ends with the inputs as
    they were and the outputs at the logits block and the partial-sum block of the inputs. -/
theorem xent_run (c : Dev nD) (E : Set ℕ) (i : grid0.Coords)
    (arg1 : Memref sig .tc .vmem S1024x768 .f32) (harg1 : arg1.IsWhole) (arg2 : Memref sig .tc .vmem S12x768 .f32) (harg2 : arg2.IsWhole)
    (arg3 : Memref sig .tc .vmem S1x12 .f32) (harg3 : arg3.IsWhole) (arg4 : Memref sig .tc .vmem S1024x1 .i32) (harg4 : arg4.IsWhole)
    (arg5 : Memref sig .tc .vmem S1024x12 .f32) (harg5 : arg5.IsWhole) (arg6 : Memref sig .tc .vmem S8x128 .f32) (harg6 : arg6.IsWhole)
    (x0 : Vec F S1024x768 .f32) (x1 : Vec F S12x768 .f32) (x2 : Vec F S1x12 .f32) (x3 : Vec F S1024x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (logitBlk x0 x1 x2)
            ∗ owns (c : Thread nD τ) arg6 fullShare (partBlk x0 x1 x2 x3)) -∗ K ⟨⟩))
      ⊢ wp frame (wpE (defs₀ (F := F)) Variants.none c none) E (cc0__xent_kernel i arg1 harg1 arg2 harg2 arg3 harg3 arg4 harg4 arg5 harg5 arg6 harg6) K := by
  simp only [cc0__xent_kernel_eq_skeleton]; unfold cc0__xent_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverLogit _), View.canon_unit_zero hz]
    unfold logitBlk
    simp only [View.readAt_eq_ld, View.ld_unit_zero (S := S1024x768) hz, View.ld_unit_zero (S := S12x768) hz,
      View.ld_unit_zero (S := S1x12) hz]
  · iexists _; isplitr
    swap; · iexact H5
    ipureintro
    rw [View.read_writes_eq_canon _ _ _ (coverPart _), View.canon_unit_zero hz]
    unfold partBlk
    simp only [View.readAt_eq_ld, View.ld_unit_zero (S := S1024x768) hz, View.ld_unit_zero (S := S12x768) hz,
      View.ld_unit_zero (S := S1x12) hz, View.ld_unit_zero (S := S1024x1) hz]

/-- What the body is handed at point `t`: the invariant, the core's debts, and each window's current buffer at what
    it then holds, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def left0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the run above applies at them; the invariant and
    the debts are not touched. -/
theorem body0 (c : Dev nD) (t : Fin cfg0.N) :
    handed0 V c t ⊢ wp frame (wpE (defs₀ (F := F)) Variants.none c none) Set.univ (bodyAt0 t) (fun _ => left0 V c t) := by
  unfold handed0 left0 bodyAt0
  simp only [found0_0, found0_1, found0_2, found0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (xent_run c Set.univ _ _ _ _ _ _ _ _ _ _ _ _ _ (xblk V c 0 t) (xblk V c 1 t) (xblk V c 2 t) (xblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for call 0, at every point. -/
theorem body_obligation0 (c : Dev nD) : BodyObligation (dat0 (F := F) V c) (defs₀ (F := F)) Variants.none () Set.univ := fun t => by
  rw [bigSep_W0, bigSep_W0]
  exact body0 V c t

/-! ## Call 1: the rows re-encoded and their squared norms -/

/-- The proof data's arrays are the entry contents. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = pblk V c 0 t := by dsimp only [dat1]
theorem after1_1 (c : Dev nD) (t : Fin cfg1.N) : (dat1 V c).after 1 t = castBlk (pblk V c 0 t) := by dsimp only [dat1]
theorem after1_2 (c : Dev nD) (t : Fin cfg1.N) : (dat1 V c).after 2 t = sqBlk (pblk V c 0 t) := by dsimp only [dat1]

/-- The input window's current buffer holds its block at every point. -/
theorem found1_0 (c : Dev nD) (t : Fin cfg1.N) (d) : (dat1 V c).before 0 t d = pblk V c 0 t :=
  ((dat1 V c).before_in_eq_fetched 0 rfl (fun _ => rfl) (fun _ _ _ => rfl)
    (fun t => by rw [after1_0]; unfold Dat.blockOf pblk; rw [A_eq1]; try rfl) t d).trans
    (by unfold Dat.fetched Dat.blockOf pblk; rw [A_eq1]; try rfl)

/-- The whole-buffer rectangles the two stores go through. -/
abbrev rCast : Rect S1024x768 := Rect.unit (s := S1024x768) ![0, 0] S1024x768.size inb_S1024x768_S1024x768_0_0
abbrev rSq : Rect S1024x1 := Rect.unit (s := S1024x1) ![0, 0] S1024x1.size inb_S1024x1_S1024x1_0_0

/-- Each store covers its buffer. -/
theorem coverCast (p0 : Vec F S1024x768 .bf16) (y : S1024x768.Idx) :
    ∃ pc ∈ ([⟨rCast, p0⟩] : List (View.Piece (Elt F) S1024x768 .bf16)), y ∈ pc.1.set :=
  ⟨_, List.mem_singleton_self _, View.mem_set_unit_zero hz inb_S1024x768_S1024x768_0_0 y⟩
theorem coverSq (p0 : Vec F S1024x1 .f32) (y : S1024x1.Idx) :
    ∃ pc ∈ ([⟨rSq, p0⟩] : List (View.Piece (Elt F) S1024x1 .f32)), y ∈ pc.1.set :=
  ⟨_, List.mem_singleton_self _, View.mem_set_unit_zero hz inb_S1024x1_S1024x1_0_0 y⟩

set_option maxHeartbeats 4000000 in
/-- The body on whole buffers: the input at read contents, the two outputs at anything, ends with the input as it was
    and the outputs at the re-encoded rows and the rows' squared norms. -/
theorem prepass_run (c : Dev nD) (E : Set ℕ) (i : grid1.Coords)
    (arg1 : Memref sig .tc .vmem S1024x768 .f32) (harg1 : arg1.IsWhole) (arg2 : Memref sig .tc .vmem S1024x768 .bf16) (harg2 : arg2.IsWhole)
    (arg3 : Memref sig .tc .vmem S1024x1 .f32) (harg3 : arg3.IsWhole)
    (x0 : Vec F S1024x768 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (castBlk x0)
            ∗ owns (c : Thread nD τ) arg3 fullShare (sqBlk x0)) -∗ K ⟨⟩))
      ⊢ wp frame (wpE (defs₀ (F := F)) Variants.none c none) E (cc1__prepass_kernel i arg1 harg1 arg2 harg2 arg3 harg3) K := by
  simp only [cc1__prepass_kernel_eq_skeleton]; unfold cc1__prepass_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (coverCast _), View.canon_unit_zero hz]
    unfold castBlk
    simp only [View.readAt_eq_ld, View.ld_unit_zero (S := S1024x768) hz]
  · iexists _; isplitr
    swap; · iexact H2
    ipureintro
    rw [View.read_writes_eq_canon _ _ _ (coverSq _), View.canon_unit_zero hz]
    unfold sqBlk
    simp only [View.readAt_eq_ld, View.ld_unit_zero (S := S1024x768) hz]

/-- What the body is handed at point `t`, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def left1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. -/
theorem body1 (c : Dev nD) (t : Fin cfg1.N) :
    handed1 V c t ⊢ wp frame (wpE (defs₀ (F := F)) Variants.none c none) Set.univ (bodyAt1 t) (fun _ => left1 V c t) := by
  unfold handed1 left1 bodyAt1
  simp only [found1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (prepass_run c Set.univ _ _ _ _ _ _ _ (pblk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for call 1, at every point. -/
theorem body_obligation1 (c : Dev nD) : BodyObligation (dat1 (F := F) V c) (defs₀ (F := F)) Variants.none () Set.univ := fun t => by
  rw [bigSep_W1, bigSep_W1]
  exact body1 V c t

end Bodies

end Cert.KernelIdeal.Hand

end
-- ==== Proof.Body2A.lean ====
/-
  The third pallas_call's body at one grid point (i, j), on whole staging memrefs at given contents: it ends with
  the six inputs as they were, the one-element accumulator at `accNext` of the point (cleared first when j = 0,
  then the tile's sum added, the diagonal left out when i = j), and the output block at the accumulator broadcast
  when j = 7, untouched otherwise. The four branch conditions are functions of (i, j); the two middle ones are
  complementary, so eight assignments can occur, and the body is run once under each.
-/
import proofs.«427818_j27788438405734_3_alg».proof.Proof.KDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reads

variable {sig' : RefSig} {κ : Kind} {sp : Space} {Val : EltTy → Type} {S : Shape} {e : EltTy}

/-- The two zero offsets, however spelt. -/
theorem c2_zeros : (![0, 0] : Fin 2 → ℕ) = fun _ => 0 := by
  funext a; fin_cases a <;> rfl

/-- After a store through the whole-shape rectangle, LAST, the buffer reads that store's payload, whatever the
    earlier stores and the contents before them. -/
theorem c2_read_writes_last [∀ e, Nonempty (Val e)] (v : View sig' κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

end Reads

section Conditions

/-- The body's third branch (i ≠ j) is taken exactly when the second (i = j) is not. -/
theorem condOff_iff (i : grid2.Coords) : condOff i ↔ ¬ condDiag i := by
  show (Scalar.cmpi .ne (Scalar.extui (Scalar.cmpi .ne (BitVec.ofNat 32 (i 0).val) (BitVec.ofNat 32 (i 1).val))) 0#32) = 1#1
    ↔ ¬ (Scalar.cmpi .ne (Scalar.extui (Scalar.cmpi .eq (BitVec.ofNat 32 (i 0).val) (BitVec.ofNat 32 (i 1).val))) 0#32) = 1#1
  generalize (BitVec.ofNat 32 (i 0).val) = a
  generalize (BitVec.ofNat 32 (i 1).val) = b
  simp only [Scalar.cmpi, IntOp.cmpi, Scalar.extui, bne]
  cases (a == b) <;> decide

end Conditions

section Triple

/-- The body's triple at grid point `i`: from the eight operands whole at contents `x0 … x5`, `xo`, `xs`, the body
    runs to the inputs as they were, the accumulator at `accNext`, the output block at the accumulator's broadcast
    if j = 7 and as it was otherwise. -/
def Triple2 (c : Dev nD) (i : grid2.Coords) : Prop :=
  open Classical in
  ∀ (E : Set ℕ) (arg2 : Memref sig .tc .vmem S1024x768 .bf16) (harg2 : arg2.IsWhole) (arg3 : Memref sig .tc .vmem S8192x768 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .i32) (harg6 : arg6.IsWhole) (arg7 : Memref sig .tc .vmem S1x1024 .i32) (harg7 : arg7.IsWhole)
    (arg8 : Memref sig .tc .vmem S8x128 .f32) (harg8 : arg8.IsWhole) (arg9 : Memref sig .tc .vmem S1x1 .f32) (harg9 : arg9.IsWhole)
    (x0 : Vec F S1024x768 .bf16) (x1 : Vec F S8192x768 .bf16) (x2 : Vec F S1024x1 .f32) (x3 : Vec F S1x1024 .f32)
    (x4 : Vec F S1024x1 .i32) (x5 : Vec F S1x1024 .i32) (xo : Vec F S8x128 .f32) (xs : Vec F S1x1 .f32) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg9 fullShare (accNext i x0 x1 x2 x3 x4 x5 xs)
            ∗ owns (c : Thread nD τ) arg8 fullShare (if condFlush i then outBlk (accNext i x0 x1 x2 x3 x4 x5 xs) else xo)) -∗ K ⟨⟩))
      ⊢ wp frame (wpE (defs₀ (F := F)) Variants.none c none) E
          (cc2__contrastive_kernel i arg2 harg2 arg3 harg3 arg4 harg4 arg5 harg5 arg6 harg6 arg7 harg7 arg8 harg8 arg9 harg9) K

/-- One run of the body under an assignment of the four conditions: `r`, `d`, `o`, `fl` decide them; `er`, `ed`,
    `eo`, `efl` are the matching `if` equations. -/
local macro "contr_case " r:term ", " d:term ", " o:term ", " fl:term ", " er:term ", " ed:term ", " eo:term ", " efl:term : tactic => `(tactic| (
  intro E arg2 harg2 arg3 harg3 arg4 harg4 arg5 harg5 arg6 harg6 arg7 harg7 arg8 harg8 arg9 harg9 x0 x1 x2 x3 x4 x5 xo xs K
  simp only [$efl:term]
  simp only [cc2__contrastive_kernel_eq_skeleton]; unfold cc2__contrastive_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%fs, %hfs, Hs⟩, Hk⟩
  subst hf0; subst hf1; subst hf2; subst hf3; subst hf4; subst hf5; subst hfo; subst hfs
  sl_exec (disch := first | exact $r | exact $d | exact $o | exact $fl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [Hs]
  · iexists _; isplitr
    swap; · iexact Hs
    ipureintro
    try sl_unfold_run_names
    simp only [accNext, accStart, tileAt, $er:term, $ed:term, $eo:term]
    try simp only [c2_read_writes_last (S := S1x1) _ _ c2_zeros, View.readCov_cons_toLoadRect, View.readAt_eq_ld,
      View.ld_unit_zero (S := S1024x768) c2_zeros, View.ld_unit_zero (S := S1024x1) c2_zeros, View.ld_unit_zero (S := S1x1024) c2_zeros,
      View.ld_unit_zero (S := S1x1) c2_zeros]
    try rfl
  · iexists _; isplitr
    swap; · iexact Ho
    ipureintro
    try sl_unfold_run_names
    try simp only [accNext, accStart, tileAt, outBlk, $er:term, $ed:term, $eo:term]
    try simp only [c2_read_writes_last (S := S8x128) _ _ c2_zeros, View.readCov_cons_toLoadRect, View.readAt_eq_ld,
      View.ld_unit_zero (S := S1024x768) c2_zeros, View.ld_unit_zero (S := S1024x1) c2_zeros, View.ld_unit_zero (S := S1x1024) c2_zeros,
      View.ld_unit_zero (S := S1x1) c2_zeros]
    try rfl))

set_option maxHeartbeats 4000000 in
/-- The run where j = 0, i = j, j = 7. -/
theorem triple2_rdf (c : Dev nD) (i : grid2.Coords) (h1 : condReset i) (h2 : condDiag i) (h3 : ¬ condOff i) (h4 : condFlush i) :
    Triple2 (F := F) c i := by
  contr_case h1, h2, h3, h4, if_pos h1, if_pos h2, if_neg h3, if_pos h4

set_option maxHeartbeats 4000000 in
/-- The run where j = 0, i = j, j ≠ 7. -/
theorem triple2_rdk (c : Dev nD) (i : grid2.Coords) (h1 : condReset i) (h2 : condDiag i) (h3 : ¬ condOff i) (h4 : ¬ condFlush i) :
    Triple2 (F := F) c i := by
  contr_case h1, h2, h3, h4, if_pos h1, if_pos h2, if_neg h3, if_neg h4

set_option maxHeartbeats 4000000 in
/-- The run where j = 0, i ≠ j, j = 7. -/
theorem triple2_rof (c : Dev nD) (i : grid2.Coords) (h1 : condReset i) (h2 : ¬ condDiag i) (h3 : condOff i) (h4 : condFlush i) :
    Triple2 (F := F) c i := by
  contr_case h1, h2, h3, h4, if_pos h1, if_neg h2, if_pos h3, if_pos h4

set_option maxHeartbeats 4000000 in
/-- The run where j = 0, i ≠ j, j ≠ 7. -/
theorem triple2_rok (c : Dev nD) (i : grid2.Coords) (h1 : condReset i) (h2 : ¬ condDiag i) (h3 : condOff i) (h4 : ¬ condFlush i) :
    Triple2 (F := F) c i := by
  contr_case h1, h2, h3, h4, if_pos h1, if_neg h2, if_pos h3, if_neg h4

set_option maxHeartbeats 4000000 in
/-- The run where j ≠ 0, i = j, j = 7. -/
theorem triple2_ndf (c : Dev nD) (i : grid2.Coords) (h1 : ¬ condReset i) (h2 : condDiag i) (h3 : ¬ condOff i) (h4 : condFlush i) :
    Triple2 (F := F) c i := by
  contr_case h1, h2, h3, h4, if_neg h1, if_pos h2, if_neg h3, if_pos h4

set_option maxHeartbeats 4000000 in
/-- The run where j ≠ 0, i = j, j ≠ 7. -/
theorem triple2_ndk (c : Dev nD) (i : grid2.Coords) (h1 : ¬ condReset i) (h2 : condDiag i) (h3 : ¬ condOff i) (h4 : ¬ condFlush i) :
    Triple2 (F := F) c i := by
  contr_case h1, h2, h3, h4, if_neg h1, if_pos h2, if_neg h3, if_neg h4

set_option maxHeartbeats 4000000 in
/-- The run where j ≠ 0, i ≠ j, j = 7. -/
theorem triple2_nof (c : Dev nD) (i : grid2.Coords) (h1 : ¬ condReset i) (h2 : ¬ condDiag i) (h3 : condOff i) (h4 : condFlush i) :
    Triple2 (F := F) c i := by
  contr_case h1, h2, h3, h4, if_neg h1, if_neg h2, if_pos h3, if_pos h4

set_option maxHeartbeats 4000000 in
/-- The run where j ≠ 0, i ≠ j, j ≠ 7. -/
theorem triple2_nok (c : Dev nD) (i : grid2.Coords) (h1 : ¬ condReset i) (h2 : ¬ condDiag i) (h3 : condOff i) (h4 : ¬ condFlush i) :
    Triple2 (F := F) c i := by
  contr_case h1, h2, h3, h4, if_neg h1, if_neg h2, if_pos h3, if_neg h4

/-- The body's triple at every grid point: one of the eight runs applies. -/
theorem triple2 (c : Dev nD) (i : grid2.Coords) : Triple2 (F := F) c i := by
  by_cases h1 : condReset i <;> by_cases h2 : condDiag i <;> by_cases h4 : condFlush i
  · exact triple2_rdf c i h1 h2 (fun h => (condOff_iff i).mp h h2) h4
  · exact triple2_rdk c i h1 h2 (fun h => (condOff_iff i).mp h h2) h4
  · exact triple2_rof c i h1 h2 ((condOff_iff i).mpr h2) h4
  · exact triple2_rok c i h1 h2 ((condOff_iff i).mpr h2) h4
  · exact triple2_ndf c i h1 h2 (fun h => (condOff_iff i).mp h h2) h4
  · exact triple2_ndk c i h1 h2 (fun h => (condOff_iff i).mp h h2) h4
  · exact triple2_nof c i h1 h2 ((condOff_iff i).mpr h2) h4
  · exact triple2_nok c i h1 h2 ((condOff_iff i).mpr h2) h4

open Classical in
/-- The same, written out: the body on whole memrefs at contents `x0 … x5` (inputs), `xo` (output block), `xs`
    (accumulator). -/
theorem contr_triple (c : Dev nD) (E : Set ℕ) (i : grid2.Coords)
    (arg2 : Memref sig .tc .vmem S1024x768 .bf16) (harg2 : arg2.IsWhole) (arg3 : Memref sig .tc .vmem S8192x768 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .i32) (harg6 : arg6.IsWhole) (arg7 : Memref sig .tc .vmem S1x1024 .i32) (harg7 : arg7.IsWhole)
    (arg8 : Memref sig .tc .vmem S8x128 .f32) (harg8 : arg8.IsWhole) (arg9 : Memref sig .tc .vmem S1x1 .f32) (harg9 : arg9.IsWhole)
    (x0 : Vec F S1024x768 .bf16) (x1 : Vec F S8192x768 .bf16) (x2 : Vec F S1024x1 .f32) (x3 : Vec F S1x1024 .f32)
    (x4 : Vec F S1024x1 .i32) (x5 : Vec F S1x1024 .i32) (xo : Vec F S8x128 .f32) (xs : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg9 fullShare (accNext i x0 x1 x2 x3 x4 x5 xs)
            ∗ owns (c : Thread nD τ) arg8 fullShare (if condFlush i then outBlk (accNext i x0 x1 x2 x3 x4 x5 xs) else xo)) -∗ K ⟨⟩))
      ⊢ wp frame (wpE (defs₀ (F := F)) Variants.none c none) E
          (cc2__contrastive_kernel i arg2 harg2 arg3 harg3 arg4 harg4 arg5 harg5 arg6 harg6 arg7 harg7 arg8 harg8 arg9 harg9) K :=
  triple2 c i E arg2 harg2 arg3 harg3 arg4 harg4 arg5 harg5 arg6 harg6 arg7 harg7 arg8 harg8 arg9 harg9 x0 x1 x2 x3 x4 x5 xo xs K

end Triple

end Cert.KernelIdeal.Hand

end
-- ==== Proof.Body2.lean ====
/-
  The third pallas_call as a region: the body obligation of its 64 grid points (point t is (i, j) = (t / 8, t % 8)).
  A one-element accumulator is carried from point to point: cleared where j = 0, the point's tile sum added (without
  its diagonal where i = j), and broadcast into the output block where j = 7; elsewhere the output window is idle and
  its buffer is handed back as found. The invariant before point t + 1 holds the accumulator at `accAt` of point t;
  before the first point it is the class's, with the accumulator at anything, which the first point clears. The
  sixteen staging buffers of the other two calls, the generator register and what the core owes pass through.
-/
import proofs.«427818_j27788438405734_3_alg».proof.Proof.KDefs
import proofs.«427818_j27788438405734_3_alg».proof.Proof.Body2A
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Grid

/-! ## The conditions and window 6's idleness, in closed form over the 64 points (point t is (i, j) = (t / 8, t % 8)) -/

theorem hcondReset : ∀ t : Fin cfg2.N, condReset (grid2.coords t) ↔ t.val % 8 = 0 :=
  (by decide +kernel : ∀ t : Fin grid2.N, condReset (grid2.coords t) ↔ t.val % 8 = 0)
theorem hcondFlush : ∀ t : Fin cfg2.N, condFlush (grid2.coords t) ↔ t.val % 8 = 7 :=
  (by decide +kernel : ∀ t : Fin grid2.N, condFlush (grid2.coords t) ↔ t.val % 8 = 7)
theorem hcondDiag : ∀ t : Fin cfg2.N, condDiag (grid2.coords t) ↔ t.val / 8 = t.val % 8 :=
  (by decide +kernel : ∀ t : Fin grid2.N, condDiag (grid2.coords t) ↔ t.val / 8 = t.val % 8)
theorem hcondOff : ∀ t : Fin cfg2.N, condOff (grid2.coords t) ↔ ¬ (t.val / 8 = t.val % 8) :=
  (by decide +kernel : ∀ t : Fin grid2.N, condOff (grid2.coords t) ↔ ¬ (t.val / 8 = t.val % 8))

/-- The output window is idle exactly at the points that do not store it (j ≠ 7), -/
theorem idle2_6_iff : ∀ t : Fin cfg2.N, cfg2.idle 6 (grid2.coords t) = true ↔ ¬ condFlush (grid2.coords t) :=
  (by decide +kernel : ∀ t : Fin grid2.N, cfg2.idle 6 (grid2.coords t) = true ↔ ¬ condFlush (grid2.coords t))
/-- live where it is stored, -/
theorem live2_6 : ∀ t : Fin cfg2.N, condFlush (grid2.coords t) → cfg2.idle 6 (grid2.coords t) = false :=
  (by decide +kernel : ∀ t : Fin grid2.N, condFlush (grid2.coords t) → cfg2.idle 6 (grid2.coords t) = false)
/-- written back exactly there, -/
theorem flush2_6_iff : ∀ t : Fin cfg2.N, (cfg2.win 6).flush t = true ↔ condFlush (grid2.coords t) :=
  (by decide +kernel : ∀ t : Fin grid2.N, (cfg2.win 6).flush t = true ↔ condFlush (grid2.coords t))
/-- and not elsewhere. -/
theorem noFlush2_6 : ∀ t : Fin cfg2.N, ¬ condFlush (grid2.coords t) → (cfg2.win 6).flush t = false :=
  (by decide +kernel : ∀ t : Fin grid2.N, ¬ condFlush (grid2.coords t) → (cfg2.win 6).flush t = false)

/-- The six input windows are never idle. -/
theorem live2_0 (i : grid2.Coords) : cfg2.idle 0 i = false := rfl
theorem live2_1 (i : grid2.Coords) : cfg2.idle 1 i = false := rfl
theorem live2_2 (i : grid2.Coords) : cfg2.idle 2 i = false := rfl
theorem live2_3 (i : grid2.Coords) : cfg2.idle 3 i = false := rfl
theorem live2_4 (i : grid2.Coords) : cfg2.idle 4 i = false := rfl
theorem live2_5 (i : grid2.Coords) : cfg2.idle 5 i = false := rfl

end Grid

section Others

/-- The invariant of the class with the scratch operand as a memref owned at some contents, after the sixteen staging
    buffers of the other two calls. -/
theorem PhiA2_eq (c : Dev nD) :
    (Pipeline.ΦA spec2 c : sProp 𝕄)
      = iprop(othersThen c iprop(∃ d, owns (c : Thread nD τ) scrM fullShare d) ∗ (∃ r, prngReg c r)) := by
  unfold Pipeline.ΦA othersThen; rw [scopedRest2_eq]; simp only [scrM, owns_whole]; try rfl

/-- The other calls' buffers stay as they are while the last place changes. -/
theorem othersThen_mono (c : Dev nD) {R R' : sProp 𝕄} (h : R ⊢ R') : othersThen (F := F) c R ⊢ othersThen c R' := by
  unfold othersThen
  iterate 16 refine sep_mono .rfl ?_
  exact h

/-- The last place taken out, the rest waiting for whatever is put back. -/
theorem othersThen_open (c : Dev nD) (R R' : sProp 𝕄) :
    othersThen (F := F) c R ⊢ iprop(R ∗ (R' -∗ othersThen c R')) := by
  unfold othersThen
  iintro ⟨B1, B2, B3, B4, B5, B6, B7, B8, B9, B10, B11, B12, B13, B14, B15, B16, HR⟩
  isplitl [HR]; · iexact HR
  iintro HR'
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  iexact HR'

end Others

section Frame

variable (V : (c : Dev nD) → (b : Ref sig .tc) → Buf (Elt F) ((c : Thread nD τ).loc b))

/-! ## The proof data, projected -/

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = cblk V c 0 t := by dsimp only [dat2]
theorem after2_1 (c : Dev nD) (t : Fin cfg2.N) : (dat2 V c).after 1 t = cblk V c 1 t := by dsimp only [dat2]
theorem after2_2 (c : Dev nD) (t : Fin cfg2.N) : (dat2 V c).after 2 t = cblk V c 2 t := by dsimp only [dat2]
theorem after2_3 (c : Dev nD) (t : Fin cfg2.N) : (dat2 V c).after 3 t = cblk V c 3 t := by dsimp only [dat2]
theorem after2_4 (c : Dev nD) (t : Fin cfg2.N) : (dat2 V c).after 4 t = cblk V c 4 t := by dsimp only [dat2]
theorem after2_5 (c : Dev nD) (t : Fin cfg2.N) : (dat2 V c).after 5 t = cblk V c 5 t := by dsimp only [dat2]
theorem after2_6 (c : Dev nD) (t : Fin cfg2.N) : (dat2 V c).after 6 t = outBlk (accAt V c t.val t.isLt) := by dsimp only [dat2]

/-- Each input window's current buffer holds its block at every point, fetched there or not: the body never writes
    it, and a window that is not fetched again has not moved (windows 0, 2, 4 move with i only, window 1 never,
    windows 3, 5 with j). -/
theorem before2_0 (c : Dev nD) (t : Fin cfg2.N) (d) : (dat2 V c).before 0 t d = cblk V c 0 t :=
  ((dat2 V c).before_in_eq_fetched 0 rfl (fun _ => rfl) (fun _ _ _ => rfl)
    (fun t => by rw [after2_0]; unfold Dat.blockOf cblk; rw [A_eq2]; try rfl) t d).trans
    (by unfold Dat.fetched Dat.blockOf cblk; rw [A_eq2]; try rfl)
theorem before2_1 (c : Dev nD) (t : Fin cfg2.N) (d) : (dat2 V c).before 1 t d = cblk V c 1 t :=
  ((dat2 V c).before_in_eq_fetched 1 rfl (fun _ => rfl) (fun _ _ _ => rfl)
    (fun t => by rw [after2_1]; unfold Dat.blockOf cblk; rw [A_eq2]; try rfl) t d).trans
    (by unfold Dat.fetched Dat.blockOf cblk; rw [A_eq2]; try rfl)
theorem before2_2 (c : Dev nD) (t : Fin cfg2.N) (d) : (dat2 V c).before 2 t d = cblk V c 2 t :=
  ((dat2 V c).before_in_eq_fetched 2 rfl (fun _ => rfl) (fun _ _ _ => rfl)
    (fun t => by rw [after2_2]; unfold Dat.blockOf cblk; rw [A_eq2]; try rfl) t d).trans
    (by unfold Dat.fetched Dat.blockOf cblk; rw [A_eq2]; try rfl)
theorem before2_3 (c : Dev nD) (t : Fin cfg2.N) (d) : (dat2 V c).before 3 t d = cblk V c 3 t :=
  ((dat2 V c).before_in_eq_fetched 3 rfl (fun _ => rfl) (fun _ _ _ => rfl)
    (fun t => by rw [after2_3]; unfold Dat.blockOf cblk; rw [A_eq2]; try rfl) t d).trans
    (by unfold Dat.fetched Dat.blockOf cblk; rw [A_eq2]; try rfl)
theorem before2_4 (c : Dev nD) (t : Fin cfg2.N) (d) : (dat2 V c).before 4 t d = cblk V c 4 t :=
  ((dat2 V c).before_in_eq_fetched 4 rfl (fun _ => rfl) (fun _ _ _ => rfl)
    (fun t => by rw [after2_4]; unfold Dat.blockOf cblk; rw [A_eq2]; try rfl) t d).trans
    (by unfold Dat.fetched Dat.blockOf cblk; rw [A_eq2]; try rfl)
theorem before2_5 (c : Dev nD) (t : Fin cfg2.N) (d) : (dat2 V c).before 5 t d = cblk V c 5 t :=
  ((dat2 V c).before_in_eq_fetched 5 rfl (fun _ => rfl) (fun _ _ _ => rfl)
    (fun t => by rw [after2_5]; unfold Dat.blockOf cblk; rw [A_eq2]; try rfl) t d).trans
    (by unfold Dat.fetched Dat.blockOf cblk; rw [A_eq2]; try rfl)

/-! ## The accumulator, point by point -/

/-- Where the clearing branch runs, what the accumulator held before does not matter. -/
theorem accNext_of_reset {i : grid2.Coords} (h : condReset i) (x0 : Vec F S1024x768 .bf16) (x1 : Vec F S8192x768 .bf16)
    (x2 : Vec F S1024x1 .f32) (x3 : Vec F S1x1024 .f32) (x4 : Vec F S1024x1 .i32) (x5 : Vec F S1x1024 .i32) (xs xs' : Vec F S1x1 .f32) :
    accNext i x0 x1 x2 x3 x4 x5 xs = accNext i x0 x1 x2 x3 x4 x5 xs' := by
  simp only [accNext, accStart, if_pos h]

/-- At the first point the accumulator ends at `accNext` of anything (the point clears it). -/
theorem accAt_first (c : Dev nD) (t : Fin cfg2.N) (hz : t.val = 0) (xs : Vec F S1x1 .f32) :
    accAt V c t.val t.isLt
      = accNext (grid2.coords t) (cblk V c 0 t) (cblk V c 1 t) (cblk V c 2 t) (cblk V c 3 t) (cblk V c 4 t) (cblk V c 5 t) xs := by
  have hr : condReset (grid2.coords t) := (hcondReset t).mpr (by rw [hz])
  obtain ⟨n, hn⟩ := t
  cases n with
  | zero => exact accNext_of_reset hr _ _ _ _ _ _ _ _
  | succ n => exact absurd hz (Nat.succ_ne_zero n)

/-- At a later point, at `accNext` of what the point before left. -/
theorem accAt_later (c : Dev nD) (t : Fin cfg2.N) (hz : t.val ≠ 0) :
    accAt V c t.val t.isLt
      = accNext (grid2.coords t) (cblk V c 0 t) (cblk V c 1 t) (cblk V c 2 t) (cblk V c 3 t) (cblk V c 4 t) (cblk V c 5 t)
          (accAt V c (t.val - 1) (Nat.lt_of_le_of_lt (Nat.sub_le _ _) t.isLt)) := by
  obtain ⟨n, hn⟩ := t
  cases n with
  | zero => exact absurd rfl hz
  | succ n => rfl

/-! ## The region invariant, position by position -/

theorem PhiC_zero (c : Dev nD) (n : ℕ) (h : n ≤ cfg2.N) (hz : n = 0) : PhiC V c n h = Pipeline.ΦA spec2 c := by
  subst hz; rfl

theorem PhiC_succ (c : Dev nD) (n : ℕ) (hn : n < cfg2.N) :
    PhiC V c (n + 1) hn = iprop(othersThen c (owns (c : Thread nD τ) scrM fullShare (accAt V c n hn)) ∗ (∃ r, prngReg c r)) := rfl

theorem PhiC_pos (c : Dev nD) (n : ℕ) (h : n ≤ cfg2.N) (hz : n ≠ 0) :
    PhiC V c n h = iprop(othersThen c (owns (c : Thread nD τ) scrM fullShare (accAt V c (n - 1) (by omega))) ∗ (∃ r, prngReg c r)) := by
  cases n with
  | zero => exact absurd rfl hz
  | succ n => rfl

/-- The invariant at a point's start, restated at the point's number. -/
theorem Phi2_castSucc (c : Dev nD) (t : Fin cfg2.N) :
    (dat2 V c).Φ t.castSucc = PhiC V c t.val (Nat.le_of_lt t.isLt) := by
  dsimp only [dat2]; simp only [Fin.coe_castSucc]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem leaves2_0 (c : Dev nD) (t : Fin cfg2.N) :
    (dat2 V c).leavesExact 0 t = owns (c : Thread nD τ) (st2_0 t) fullShare (cblk V c 0 t) := by
  rw [show (dat2 V c).leavesExact 0 t = owns (c : Thread nD τ) (st2_0 t) fullShare ((dat2 V c).after 0 t) from by
    unfold Dat.leavesExact; rw [live2_0], after2_0]
theorem leaves2_1 (c : Dev nD) (t : Fin cfg2.N) :
    (dat2 V c).leavesExact 1 t = owns (c : Thread nD τ) (st2_1 t) fullShare (cblk V c 1 t) := by
  rw [show (dat2 V c).leavesExact 1 t = owns (c : Thread nD τ) (st2_1 t) fullShare ((dat2 V c).after 1 t) from by
    unfold Dat.leavesExact; rw [live2_1], after2_1]
theorem leaves2_2 (c : Dev nD) (t : Fin cfg2.N) :
    (dat2 V c).leavesExact 2 t = owns (c : Thread nD τ) (st2_2 t) fullShare (cblk V c 2 t) := by
  rw [show (dat2 V c).leavesExact 2 t = owns (c : Thread nD τ) (st2_2 t) fullShare ((dat2 V c).after 2 t) from by
    unfold Dat.leavesExact; rw [live2_2], after2_2]
theorem leaves2_3 (c : Dev nD) (t : Fin cfg2.N) :
    (dat2 V c).leavesExact 3 t = owns (c : Thread nD τ) (st2_3 t) fullShare (cblk V c 3 t) := by
  rw [show (dat2 V c).leavesExact 3 t = owns (c : Thread nD τ) (st2_3 t) fullShare ((dat2 V c).after 3 t) from by
    unfold Dat.leavesExact; rw [live2_3], after2_3]
theorem leaves2_4 (c : Dev nD) (t : Fin cfg2.N) :
    (dat2 V c).leavesExact 4 t = owns (c : Thread nD τ) (st2_4 t) fullShare (cblk V c 4 t) := by
  rw [show (dat2 V c).leavesExact 4 t = owns (c : Thread nD τ) (st2_4 t) fullShare ((dat2 V c).after 4 t) from by
    unfold Dat.leavesExact; rw [live2_4], after2_4]
theorem leaves2_5 (c : Dev nD) (t : Fin cfg2.N) :
    (dat2 V c).leavesExact 5 t = owns (c : Thread nD τ) (st2_5 t) fullShare (cblk V c 5 t) := by
  rw [show (dat2 V c).leavesExact 5 t = owns (c : Thread nD τ) (st2_5 t) fullShare ((dat2 V c).after 5 t) from by
    unfold Dat.leavesExact; rw [live2_5], after2_5]

/-- The output window at a point that stores it: the accumulator's broadcast. -/
theorem leaves2_6_flush (c : Dev nD) (t : Fin cfg2.N) (h : condFlush (grid2.coords t)) :
    (dat2 V c).leavesExact 6 t = owns (c : Thread nD τ) (st2_6 t) fullShare (outBlk (accAt V c t.val t.isLt)) := by
  rw [show (dat2 V c).leavesExact 6 t = owns (c : Thread nD τ) (st2_6 t) fullShare ((dat2 V c).after 6 t) from by
    unfold Dat.leavesExact; rw [live2_6 t h], after2_6]

/-- At the other points it is idle and not written back: handed back as found. -/
theorem leaves2_6_idle (c : Dev nD) (t : Fin cfg2.N) (h : ¬ condFlush (grid2.coords t)) :
    (dat2 V c).leavesExact 6 t = iprop(∃ d, owns (c : Thread nD τ) (st2_6 t) fullShare ((dat2 V c).before 6 t d)) :=
  Dat.leavesExact_idle (dat2 V c) 6 t ((idle2_6_iff t).mpr h) (noFlush2_6 t h)

set_option maxHeartbeats 4000000 in
/-- The body at any point: the inputs' memrefs hold their blocks; the invariant hands the accumulator at what the point
    before left (at anything at the first point, which clears it) and takes it back at this point's; the output block is
    stored where j = 7 and handed back untouched elsewhere; the other calls' buffers, the generator register and what
    the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiC V c (t.val + 1) t.isLt from rfl, PhiC_succ]
  rw [leaves2_0, leaves2_1, leaves2_2, leaves2_3, leaves2_4, leaves2_5]
  have hN : t.val < 64 := lt_of_lt_of_eq t.isLt (show cfg2.N = 64 from N_2)
  by_cases hz : t.val = 0
  · have hR : condReset (grid2.coords t) := (hcondReset t).mpr (by rw [hz])
    have hF : ¬ condFlush (grid2.coords t) := fun h => by have := (hcondFlush t).mp h; omega
    rw [leaves2_6_idle V c t hF, Phi2_castSucc V c t, PhiC_zero V c _ _ hz, PhiA2_eq, accAt_first V c t hz k2_pay4]
    iintro ⟨⟨HO, Hg⟩, Hw, ⟨%d0, H0⟩, ⟨%d1, H1⟩, ⟨%d2, H2⟩, ⟨%d3, H3⟩, ⟨%d4, H4⟩, ⟨%d5, H5⟩, ⟨%d6, H6⟩⟩
    icases (othersThen_open c _ (owns (c : Thread nD τ) scrM fullShare
      (accNext (grid2.coords t) (cblk V c 0 t) (cblk V c 1 t) (cblk V c 2 t) (cblk V c 3 t) (cblk V c 4 t) (cblk V c 5 t) k2_pay4))) $$ HO with ⟨⟨%xs, HS⟩, Hback⟩
    iapply (triple2 (F := F) c (grid2.coords t) Set.univ _ (hstage2_0 ((cfg2.slots t 0).cast nbuf2_0)) _ (hstage2_1 ((cfg2.slots t 1).cast nbuf2_1))
      _ (hstage2_2 ((cfg2.slots t 2).cast nbuf2_2)) _ (hstage2_3 ((cfg2.slots t 3).cast nbuf2_3)) _ (hstage2_4 ((cfg2.slots t 4).cast nbuf2_4))
      _ (hstage2_5 ((cfg2.slots t 5).cast nbuf2_5)) _ (hstage2_6 ((cfg2.slots t 6).cast nbuf2_6)) scrM (Memref.isWhole_whole _)
      (cblk V c 0 t) (cblk V c 1 t) (cblk V c 2 t) (cblk V c 3 t) (cblk V c 4 t) (cblk V c 5 t) ((dat2 V c).before 6 t d6) xs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    rw [if_neg hF, accNext_of_reset hR _ _ _ _ _ _ xs k2_pay4]
    iintro ⟨H0, H1, H2, H3, H4, H5, HS, H6⟩
    isplitl [HS Hback Hg]
    · isplitl [HS Hback]
      · iapply Hback; iexact HS
      iexact Hg
    isplitl [Hw]; · iexact Hw
    isplitl [H0]; · iexact H0
    isplitl [H1]; · iexact H1
    isplitl [H2]; · iexact H2
    isplitl [H3]; · iexact H3
    isplitl [H4]; · iexact H4
    isplitl [H5]; · iexact H5
    iexists d6; iexact H6
  · rw [Phi2_castSucc V c t, PhiC_pos V c _ _ hz, accAt_later V c t hz]
    by_cases hF : condFlush (grid2.coords t)
    · rw [leaves2_6_flush V c t hF, accAt_later V c t hz]
      iintro ⟨⟨HO, Hg⟩, Hw, ⟨%d0, H0⟩, ⟨%d1, H1⟩, ⟨%d2, H2⟩, ⟨%d3, H3⟩, ⟨%d4, H4⟩, ⟨%d5, H5⟩, ⟨%d6, H6⟩⟩
      icases (othersThen_open c _ (owns (c : Thread nD τ) scrM fullShare
        (accNext (grid2.coords t) (cblk V c 0 t) (cblk V c 1 t) (cblk V c 2 t) (cblk V c 3 t) (cblk V c 4 t) (cblk V c 5 t)
          (accAt V c (t.val - 1) (Nat.lt_of_le_of_lt (Nat.sub_le _ _) t.isLt))))) $$ HO with ⟨HS, Hback⟩
      iapply (triple2 (F := F) c (grid2.coords t) Set.univ _ (hstage2_0 ((cfg2.slots t 0).cast nbuf2_0)) _ (hstage2_1 ((cfg2.slots t 1).cast nbuf2_1))
        _ (hstage2_2 ((cfg2.slots t 2).cast nbuf2_2)) _ (hstage2_3 ((cfg2.slots t 3).cast nbuf2_3)) _ (hstage2_4 ((cfg2.slots t 4).cast nbuf2_4))
        _ (hstage2_5 ((cfg2.slots t 5).cast nbuf2_5)) _ (hstage2_6 ((cfg2.slots t 6).cast nbuf2_6)) scrM (Memref.isWhole_whole _)
        (cblk V c 0 t) (cblk V c 1 t) (cblk V c 2 t) (cblk V c 3 t) (cblk V c 4 t) (cblk V c 5 t) ((dat2 V c).before 6 t d6) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      rw [if_pos hF]
      iintro ⟨H0, H1, H2, H3, H4, H5, HS, H6⟩
      isplitl [HS Hback Hg]
      · isplitl [HS Hback]
        · iapply Hback; iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexact H6
    · rw [leaves2_6_idle V c t hF]
      iintro ⟨⟨HO, Hg⟩, Hw, ⟨%d0, H0⟩, ⟨%d1, H1⟩, ⟨%d2, H2⟩, ⟨%d3, H3⟩, ⟨%d4, H4⟩, ⟨%d5, H5⟩, ⟨%d6, H6⟩⟩
      icases (othersThen_open c _ (owns (c : Thread nD τ) scrM fullShare
        (accNext (grid2.coords t) (cblk V c 0 t) (cblk V c 1 t) (cblk V c 2 t) (cblk V c 3 t) (cblk V c 4 t) (cblk V c 5 t)
          (accAt V c (t.val - 1) (Nat.lt_of_le_of_lt (Nat.sub_le _ _) t.isLt))))) $$ HO with ⟨HS, Hback⟩
      iapply (triple2 (F := F) c (grid2.coords t) Set.univ _ (hstage2_0 ((cfg2.slots t 0).cast nbuf2_0)) _ (hstage2_1 ((cfg2.slots t 1).cast nbuf2_1))
        _ (hstage2_2 ((cfg2.slots t 2).cast nbuf2_2)) _ (hstage2_3 ((cfg2.slots t 3).cast nbuf2_3)) _ (hstage2_4 ((cfg2.slots t 4).cast nbuf2_4))
        _ (hstage2_5 ((cfg2.slots t 5).cast nbuf2_5)) _ (hstage2_6 ((cfg2.slots t 6).cast nbuf2_6)) scrM (Memref.isWhole_whole _)
        (cblk V c 0 t) (cblk V c 1 t) (cblk V c 2 t) (cblk V c 3 t) (cblk V c 4 t) (cblk V c 5 t) ((dat2 V c).before 6 t d6) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      rw [if_neg hF]
      iintro ⟨H0, H1, H2, H3, H4, H5, HS, H6⟩
      isplitl [HS Hback Hg]
      · isplitl [HS Hback]
        · iapply Hback; iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexists d6; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiC V c 0 (Nat.zero_le _) from rfl, PhiC_zero V c 0 _ rfl]
  try exact Idealize.SL.BI.Entails.refl _

/-- After any point the invariant gives it back: the accumulator's named contents are forgotten. -/
theorem Phi2_out (c : Dev nD) (t : Fin (cfg2.N + 1)) (ht : t.val ≠ 0) : (dat2 V c).Φ t ⊢ Pipeline.ΦA spec2 c := by
  rw [show (dat2 V c).Φ t = PhiC V c t.val (Nat.le_of_lt_succ t.isLt) from rfl, PhiC_pos V c _ _ ht, PhiA2_eq]
  refine sep_mono (othersThen_mono c ?_) .rfl
  iintro HS; iexists _; iexact HS

/-- The same after the last point. -/
theorem hout2 (c : Dev nD) : (dat2 V c).Φ (Fin.last cfg2.N) ⊢ Pipeline.ΦA spec2 c :=
  Phi2_out V c _ (by rw [Fin.val_last]; have : cfg2.N = 64 := N_2; omega)

end Frame

end Cert.KernelIdeal.Hand

end
-- ==== Proof.Shares2.lean ====
/-
  The third call's arrays among the core's unscoped buffers. Its first two windows read ONE array, the re-encoded
  table, window 0 by blocks of 1024 rows and window 1 whole; the other five windows have an array each. The proof
  data holds the shared array's left half share for window 0 and its right half share for window 1, and every other
  array at the full share. Since the two halves of the full share compose to it, the seven windows' points-tos are
  exactly the full-share points-tos of the six distinct buffers behind them. Hence the core's unscoped buffers at a
  valuation split into the region's arrays, as the proof data holds them on entry, and the buffers that are no
  window's array; and the arrays at any contents rejoin that rest into the unscoped buffers at a valuation that has
  those contents at the arrays and is unchanged elsewhere.
-/
import proofs.«427818_j27788438405734_3_alg».proof.Proof.KDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares

variable (V : (c : Dev nD) → (b : Ref sig .tc) → Buf (Elt F) ((c : Thread nD τ).loc b))

/-- The distinct buffers behind the seven windows' arrays, one by one: six, the first behind windows 0 and 1. -/
theorem arrBufs2_eq (c : Dev nD) (U : (b : Ref sig .tc) → Buf (Elt F) ((c : Thread nD τ).loc b)) :
    (Pipeline.arrBufs (Ix := Unit) (Name := ℕ) (U := UR sig nD τ) (Lvl := ℕ) spec2 c U : sProp 𝕄)
      = iprop((((c : Thread nD τ).loc main_v6_0) ↦{fullShare} U main_v6_0) ∗ (((c : Thread nD τ).loc main_v6_1) ↦{fullShare} U main_v6_1)
          ∗ (((c : Thread nD τ).loc main_v7) ↦{fullShare} U main_v7) ∗ (((c : Thread nD τ).loc main_v8) ↦{fullShare} U main_v8)
          ∗ (((c : Thread nD τ).loc main_v9) ↦{fullShare} U main_v9) ∗ (((c : Thread nD τ).loc main_v10) ↦{fullShare} U main_v10)) := by
  unfold Pipeline.arrBufs
  exact bigSep_eq_bigSepL_of_eq [main_v6_0, main_v6_1, main_v7, main_v8, main_v9, main_v10] (by decide) (by decide) _

/-- Window 0 holds the shared array at the left half of the full share, window 1 at the right half; an array of its own
    is held at the full share, the output's too. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl
theorem share2_6 (c : Dev nD) : (dat2 V c).share 6 = fullShare := rfl

/-- The core's unscoped buffers are the buffers behind the windows' arrays and the rest, the arrays distinct or not. -/
theorem unscopedBufs_split2 (c : Dev nD) (U : (b : Ref sig .tc) → Buf (Elt F) ((c : Thread nD τ).loc b)) :
    (unscopedBufs c U : sProp 𝕄) = iprop(Pipeline.arrBufs spec2 c U ∗ Pipeline.unscopedRest spec2 c U) := by
  classical
  have hA : Finset.univ.image (Pipeline.arrRef spec2) ⊆ Finset.univ.filter fun b : Ref sig .tc => ¬ b.isScoped := by decide
  unfold unscopedBufs Pipeline.unscopedRest Pipeline.arrBufs
  rw [bigSep_sdiff_split hA]
  rfl

/-- The seven windows' arrays at contents read off a valuation, at the proof data's shares, are the six buffers behind
    them at the full share at that valuation: the two half shares of the shared array compose to the full share. -/
theorem arrays2_eq_arrBufs (c : Dev nD) (U : (b : Ref sig .tc) → Buf (Elt F) ((c : Thread nD τ).loc b))
    (G : (w : Fin cfg2.W) → Buf (Elt F) (((cfg2.win w).arr.view.loc (c : Thread nD τ))))
    (hG : ∀ w, G w = U (Pipeline.arrRef spec2 w)) :
    (dat2 V c).arrays G = (Pipeline.arrBufs spec2 c U : sProp 𝕄) := by
  have h1 : (dat2 V c).arrays G
      = bigSep Finset.univ fun w : Fin 7 => (((c : Thread nD τ).loc (Pipeline.arrRef spec2 w)) ↦{(dat2 V c).share w} U (Pipeline.arrRef spec2 w) : sProp 𝕄) := by
    unfold Dat.arrays
    exact bigSep_congr fun w _ => by rw [(arr_whole2 w).set_eq_univ, hG w]
  rw [h1, bigSep_W2, arrBufs2_eq]
  show iprop((((c : Thread nD τ).loc main_v6_0) ↦{fullShare.left} U main_v6_0) ∗ (((c : Thread nD τ).loc main_v6_0) ↦{fullShare.right} U main_v6_0)
          ∗ (((c : Thread nD τ).loc main_v6_1) ↦{fullShare} U main_v6_1)
          ∗ (((c : Thread nD τ).loc main_v7) ↦{fullShare} U main_v7) ∗ (((c : Thread nD τ).loc main_v8) ↦{fullShare} U main_v8)
          ∗ (((c : Thread nD τ).loc main_v9) ↦{fullShare} U main_v9) ∗ (((c : Thread nD τ).loc main_v10) ↦{fullShare} U main_v10)) = _
  have hsh : ((((c : Thread nD τ).loc main_v6_0) ↦{fullShare} U main_v6_0) : sProp 𝕄)
      = iprop((((c : Thread nD τ).loc main_v6_0) ↦{fullShare.left} U main_v6_0) ∗ (((c : Thread nD τ).loc main_v6_0) ↦{fullShare.right} U main_v6_0)) :=
    Idealize.SL.BI.Entails.antisymm (pointsTo_share (PosShare.mem_left_op_right fullShare)).1 (pointsTo_share (PosShare.mem_left_op_right fullShare)).2
  rw [hsh]
  exact Idealize.SL.BI.Entails.antisymm Idealize.SL.BI.sep_assoc' Idealize.SL.BI.sep_assoc

/-- ENTRY: the core's unscoped buffers at a valuation that the proof data's entry contents are read off are the
    region's arrays at those contents and the unscoped buffers that are no window's array. -/
theorem arrays2_split (c : Dev nD) (U : (b : Ref sig .tc) → Buf (Elt F) ((c : Thread nD τ).loc b))
    (hA : ∀ w, (dat2 V c).A w = U (Pipeline.arrRef spec2 w)) :
    (unscopedBufs c U : sProp 𝕄)
      ⊢ iprop((dat2 V c).arrays ((dat2 V c).arrAt · 0) ∗ Pipeline.unscopedRest (Ix := Unit) (Name := ℕ) (U := UR sig nD τ) (Lvl := ℕ) spec2 c U) := by
  rw [unscopedBufs_split2 c U, arrays2_eq_arrBufs V c U ((dat2 V c).arrAt · 0)
    (fun w => (show (dat2 V c).arrAt w 0 = (dat2 V c).A w from rfl).trans (hA w))]

/-- EXIT: the region's arrays at contents `G` and the unscoped rest at the entry valuation are the core's unscoped
    buffers at any valuation that has `G` at the arrays and agrees with the entry valuation off them. -/
theorem arrays2_join (c : Dev nD) (U U' : (b : Ref sig .tc) → Buf (Elt F) ((c : Thread nD τ).loc b))
    (G : (w : Fin cfg2.W) → Buf (Elt F) (((cfg2.win w).arr.view.loc (c : Thread nD τ))))
    (hG : ∀ w, G w = U' (Pipeline.arrRef spec2 w))
    (hrest : ∀ b, b ∉ Finset.univ.image (Pipeline.arrRef spec2) → U' b = U b) :
    iprop((dat2 V c).arrays G ∗ Pipeline.unscopedRest (Ix := Unit) (Name := ℕ) (U := UR sig nD τ) (Lvl := ℕ) spec2 c U)
      ⊢ (unscopedBufs c U' : sProp 𝕄) := by
  rw [unscopedBufs_split2 c U', arrays2_eq_arrBufs V c U' G hG]
  refine sep_mono .rfl (Entails.of_eq ?_)
  unfold Pipeline.unscopedRest
  exact bigSep_congr fun b hb => by rw [hrest b (Finset.mem_sdiff.mp hb).2]

end Shares

end Cert.KernelIdeal.Hand

end
-- ==== Proof.BDefs.lean ====
/-
  What each of the three pallas_calls leaves in its output blocks, as plain functions of its input blocks, and
  the pipelines' proof data at entry contents `V`.
  Call 0, point t: rows [1024 t, 1024 t + 1024) of the logits, and one 8 x 128 block filled with minus the sum over
  those rows of the log-softmax entry the row's label selects.
  Call 1, point t: the same rows of the second feature matrix re-encoded, and their squared norms.
  Call 2, point (i, j): the 1024 x 1024 tile of pair terms of row block i against row block j (the second
  operand is the whole table, read at rows [1024 j, 1024 j + 1024)); a one-element accumulator is cleared at
  j = 0, receives the tile's sum (its diagonal left out when i = j), and is written out as an 8 x 128 block at j = 7.
-/
import proofs.«427818_j27788438405734_3_alg».proof.Proof.Gen.Kernel.Launch
import proofs.«427818_j27788438405734_3_alg».proof.Proof.Gen.Kernel.Skeleton
import proofs.«427818_j27788438405734_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Defs

variable (V : (c : Dev nD) → (b : Ref sig .tc) → Buf (Elt F) ((c : Thread nD τ).loc b))

/-! ## Call 0 -/

/-- Window `w`'s block at point `t`, read off its array as the region finds it. -/
def xblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits block: the body's first store, over the blocks it loads. -/
def logitBlk (x0 : Vec F S1024x768 .f32) (x1 : Vec F S12x768 .f32) (x2 : Vec F S1x12 .f32) : Vec F S1024x12 .f32 :=
  k0_pay1 x0 x1 x2

/-- The partial-sum block: the body's second store. -/
def partBlk (x0 : Vec F S1024x768 .f32) (x1 : Vec F S12x768 .f32) (x2 : Vec F S1x12 .f32) (x3 : Vec F S1024x1 .i32) : Vec F S8x128 .f32 :=
  k0_pay2 x0 x1 x2 x3

/-- The proof data of call 0: the arrays as found; each input's buffer keeps its block, the two outputs' buffers
    hold the two blocks above; nothing carried between points. -/
def dat0 (c : Dev nD) : Dat τ (Elt F) Unit ℕ (UR sig nD τ) ℕ cfg0 c where
  A w := V c (Pipeline.arrRef spec0 w)
  after w t := match w with
    | ⟨0, _⟩ => xblk V c 0 t
    | ⟨1, _⟩ => xblk V c 1 t
    | ⟨2, _⟩ => xblk V c 2 t
    | ⟨3, _⟩ => xblk V c 3 t
    | ⟨4, _⟩ => logitBlk (xblk V c 0 t) (xblk V c 1 t) (xblk V c 2 t)
    | ⟨5, _⟩ => partBlk (xblk V c 0 t) (xblk V c 1 t) (xblk V c 2 t) (xblk V c 3 t)
  Φ _ := Pipeline.ΦA spec0 c
  q _ := fullShare
  owed _ := 0

/-! ## Call 1 -/

def pblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The re-encoded rows. -/
def castBlk (x0 : Vec F S1024x768 .f32) : Vec F S1024x768 .bf16 := k1_pay1 x0

/-- The rows' squared norms. -/
def sqBlk (x0 : Vec F S1024x768 .f32) : Vec F S1024x1 .f32 := k1_pay2 x0

def dat1 (c : Dev nD) : Dat τ (Elt F) Unit ℕ (UR sig nD τ) ℕ cfg1 c where
  A w := V c (Pipeline.arrRef spec1 w)
  after w t := match w with
    | ⟨0, _⟩ => pblk V c 0 t
    | ⟨1, _⟩ => castBlk (pblk V c 0 t)
    | ⟨2, _⟩ => sqBlk (pblk V c 0 t)
  Φ _ := Pipeline.ΦA spec1 c
  q _ := fullShare
  owed _ := 0

/-! ## Call 2 -/

def cblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's four branch conditions, from the grid coordinates (i, j): j = 0; i = j; i ≠ j; j = 7. -/
abbrev condReset (i : grid2.Coords) : Prop := (Scalar.cmpi .ne (Scalar.extui (Scalar.cmpi .eq (BitVec.ofNat 32 (i 1).val) 0#32)) 0#32) = 1#1
abbrev condDiag (i : grid2.Coords) : Prop := (Scalar.cmpi .ne (Scalar.extui (Scalar.cmpi .eq (BitVec.ofNat 32 (i 0).val) (BitVec.ofNat 32 (i 1).val))) 0#32) = 1#1
abbrev condOff (i : grid2.Coords) : Prop := (Scalar.cmpi .ne (Scalar.extui (Scalar.cmpi .ne (BitVec.ofNat 32 (i 0).val) (BitVec.ofNat 32 (i 1).val))) 0#32) = 1#1
abbrev condFlush (i : grid2.Coords) : Prop := k2_cond4 i = 1#1

/-- The rows of the whole table the body loads at point `i`: 1024 rows from row 1024 j. -/
abbrev rTab (i : grid2.Coords) : Rect S8192x768 := Rect.unit (s := S8192x768) (k2_off1 i) S1024x768.size (k2_off1_inb i)

/-- The tile of pair terms at point `i`, over the six input blocks (the second the whole table). -/
def tileAt (i : grid2.Coords) (x0 : Vec F S1024x768 .bf16) (x1 : Vec F S8192x768 .bf16) (x2 : Vec F S1024x1 .f32) (x3 : Vec F S1x1024 .f32)
    (x4 : Vec F S1024x1 .i32) (x5 : Vec F S1x1024 .i32) : Vec F S1024x1024 .f32 :=
  k2_pay5 x0 (View.ld x1 (rTab i)) x2 x3 x4 x5

/-- The accumulator after the clearing branch: zero at j = 0, else what it held. -/
def accStart (i : grid2.Coords) (xs : Vec F S1x1 .f32) : Vec F S1x1 .f32 :=
  open Classical in if condReset i then k2_pay4 else xs

/-- The accumulator after the point: the tile's sum added, the diagonal left out when i = j. -/
def accNext (i : grid2.Coords) (x0 : Vec F S1024x768 .bf16) (x1 : Vec F S8192x768 .bf16) (x2 : Vec F S1024x1 .f32) (x3 : Vec F S1x1024 .f32)
    (x4 : Vec F S1024x1 .i32) (x5 : Vec F S1x1024 .i32) (xs : Vec F S1x1 .f32) : Vec F S1x1 .f32 :=
  open Classical in
  if condDiag i then k2_pay1 (tileAt i x0 x1 x2 x3 x4 x5) (accStart i xs)
  else if condOff i then k2_pay2 (tileAt i x0 x1 x2 x3 x4 x5) (accStart i xs)
  else accStart i xs

/-- The 8 x 128 block written at j = 7: the accumulator everywhere. -/
def outBlk (xs : Vec F S1x1 .f32) : Vec F S8x128 .f32 := k2_pay3 xs

/-- The accumulator after point `n`, by recursion on the point (at point 0 the clearing branch runs, so the value
    the recursion starts from is never read). -/
def accAt (c : Dev nD) : (n : ℕ) → n < cfg2.N → Vec F S1x1 .f32
  | 0, hn => accNext (grid2.coords ⟨0, hn⟩) (cblk V c 0 ⟨0, hn⟩) (cblk V c 1 ⟨0, hn⟩) (cblk V c 2 ⟨0, hn⟩) (cblk V c 3 ⟨0, hn⟩)
      (cblk V c 4 ⟨0, hn⟩) (cblk V c 5 ⟨0, hn⟩) k2_pay4
  | n + 1, hn => accNext (grid2.coords ⟨n + 1, hn⟩) (cblk V c 0 ⟨n + 1, hn⟩) (cblk V c 1 ⟨n + 1, hn⟩) (cblk V c 2 ⟨n + 1, hn⟩)
      (cblk V c 3 ⟨n + 1, hn⟩) (cblk V c 4 ⟨n + 1, hn⟩) (cblk V c 5 ⟨n + 1, hn⟩) (accAt c n (Nat.lt_of_succ_lt hn))

/-- The one scratch operand, a whole one-element buffer of the kernel's own. -/
abbrev scrM : Memref sig .tc .vmem S1x1 .f32 := Memref.whole cc2_scratch0

/-- The other two calls' staging buffers, each whole at some contents, followed by `R` (the place of the scratch
    operand): call 2's scoped buffers that are no staging buffer of its own. -/
def othersThen (c : Dev nD) (R : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ R)

/-- The region invariant before position `n`: before the first point every scoped buffer that is no staging buffer
    at anything; afterwards the accumulator at what the point before left, and the generator register at some state. -/
def PhiC (c : Dev nD) : (n : ℕ) → n ≤ cfg2.N → sProp 𝕄
  | 0, _ => Pipeline.ΦA spec2 c
  | n + 1, hn => iprop(othersThen c (owns (c : Thread nD τ) scrM fullShare (accAt V c n hn)) ∗ (∃ r, prngReg c r))

def dat2 (c : Dev nD) : Dat τ (Elt F) Unit ℕ (UR sig nD τ) ℕ cfg2 c where
  A w := V c (Pipeline.arrRef spec2 w)
  after w t := match w with
    | ⟨0, _⟩ => cblk V c 0 t
    | ⟨1, _⟩ => cblk V c 1 t
    | ⟨2, _⟩ => cblk V c 2 t
    | ⟨3, _⟩ => cblk V c 3 t
    | ⟨4, _⟩ => cblk V c 4 t
    | ⟨5, _⟩ => cblk V c 5 t
    | ⟨6, _⟩ => outBlk (accAt V c t.val t.isLt)
  Φ t := PhiC V c t.val (Nat.le_of_lt_succ t.isLt)
  q w := match w with
    | ⟨0, _⟩ => fullShare.left
    | ⟨1, _⟩ => fullShare.right
    | _ => fullShare
  owed _ := 0

end Defs

end Cert.Kernel.Hand

end
-- ==== Proof.BFold.lean ====
/-
  The contents of every unscoped buffer at each boundary between a stretch of host operations and a pallas_call,
  from the launch memory to the return. Each call changes only its result arrays, to what its write-backs leave;
  every other buffer passes a call unchanged. Also stated here: what the three calls owe the run (their body
  obligations, and for call 2, which reads one array through two windows, the split and the join of its arrays).
-/
import proofs.«427818_j27788438405734_3_alg».proof.Proof.BDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The entry contents a call's proof data are stated at. -/
abbrev Ent : Type := (c : Dev nD) → (b : Ref sig .tc) → Buf (Elt F) ((c : Thread nD τ).loc b)

/-- What the three calls owe the run: their body obligations, call 2's invariant entered from and returned to the
    plain one, and call 2's arrays split out of and joined back into the unscoped buffers. -/
structure Owed : Prop where
  body0 : ∀ (V : Ent (F := F)) (c : Dev nD), BodyObligation (dat0 (F := F) V c) (defs₀ (F := F)) Variants.none () Set.univ
  body1 : ∀ (V : Ent (F := F)) (c : Dev nD), BodyObligation (dat1 (F := F) V c) (defs₀ (F := F)) Variants.none () Set.univ
  body2 : ∀ (V : Ent (F := F)) (c : Dev nD), BodyObligation (dat2 (F := F) V c) (defs₀ (F := F)) Variants.none () Set.univ
  out2 : ∀ (V : Ent (F := F)) (c : Dev nD), ((dat2 (F := F) V c).Φ (Fin.last cfg2.N) : sProp 𝕄) ⊢ Pipeline.ΦA spec2 c
  split2 : ∀ (V : Ent (F := F)) (c : Dev nD) (U : (b : Ref sig .tc) → Buf (Elt F) ((c : Thread nD τ).loc b)),
    (∀ w, (dat2 V c).A w = U (Pipeline.arrRef spec2 w)) →
    ((unscopedBufs c U : sProp 𝕄) ⊢ iprop((dat2 V c).arrays ((dat2 V c).arrAt · 0)
      ∗ Pipeline.unscopedRest (Ix := Unit) (Name := ℕ) (U := UR sig nD τ) (Lvl := ℕ) spec2 c U))
  join2 : ∀ (V : Ent (F := F)) (c : Dev nD) (U U' : (b : Ref sig .tc) → Buf (Elt F) ((c : Thread nD τ).loc b))
    (G : (w : Fin cfg2.W) → Buf (Elt F) ((cfg2.win w).arr.view.loc (c : Thread nD τ))),
    (∀ w, G w = U' (Pipeline.arrRef spec2 w)) → (∀ b, b ∉ Finset.univ.image (Pipeline.arrRef spec2) → U' b = U b) →
    (iprop((dat2 V c).arrays G ∗ Pipeline.unscopedRest (Ix := Unit) (Name := ℕ) (U := UR sig nD τ) (Lvl := ℕ) spec2 c U)
      ⊢ (unscopedBufs c U' : sProp 𝕄))

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (call 0's entry). -/
abbrev W1 : Dev nD → Valuation τ sig (Elt F) := fun c => StableHlo.after hostOps0 (W0 m c)
abbrev V1 : Ent (F := F) := fun c b => W1 m c b
/-- At call 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : Ent (F := F) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (call 1's entry). -/
abbrev W3 : Dev nD → Valuation τ sig (Elt F) := fun c => StableHlo.after hostOps1 (W2 m c)
abbrev V3 : Ent (F := F) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : Ent (F := F) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (call 2's entry). -/
abbrev W5 : Dev nD → Valuation τ sig (Elt F) := fun c => StableHlo.after hostOps2 (W4 m c)
abbrev V5 : Ent (F := F) := fun c b => W5 m c b
/-- At call 2's exit: only its result array has changed. -/
def W6 (c : Dev nD) : Valuation τ sig (Elt F) :=
  Function.update (W5 m c) (Proc.devRef .tc main_v10) ((dat2 (V5 m) c).arrAt 6 cfg2.N)
abbrev V6 : Ent (F := F) := fun c b => W6 m c b
theorem W6_out (c : Dev nD) : W6 m c (Proc.devRef .tc main_v10) = (dat2 (V5 m) c).arrAt 6 cfg2.N := by
  unfold W6; exact Function.update_self ..
theorem W6_of_ne (c : Dev nD) (b : Ref sig .tc) (hb : b ≠ main_v10) :
    W6 m c (Proc.devRef .tc b) = W5 m c (Proc.devRef .tc b) := by
  unfold W6; exact Function.update_of_ne (StableHlo.devRef_ne_of_ne hb) ..
/-- After the last host stretch. -/
abbrev W7 : Dev nD → Valuation τ sig (Elt F) := fun c => StableHlo.after hostOps3 (W6 m c)

end Cert.Kernel.Hand

end
-- ==== Proof.BRun.lean ====
/-
  The whole program's run: the launch of the seven segments (four stretches of host operations, three
  pallas_calls) over the boundary contents, ending with every unscoped buffer at the last boundary's contents.
-/
import proofs.«427818_j27788438405734_3_alg».proof.Proof.BFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No call has a prefetched table. -/
abbrev adm : (p : Fin 3) → (pcfgs (F := F) p).Adm := fun p => (cfgs p).toPCfg_adm
/-- Each call's proof data at its own entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem hostOps1_noalloc : (hostOps1 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem hostOps3_noalloc : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- Call 0 over the thread state: entered from every unscoped buffer at the boundary before it, left at the one
    after it; its arrays split out of the unscoped buffers and put back at their exit contents; the generator
    register into the plain invariant and out; nothing owed; no semaphore of the kernel's own. -/
def reg0 (ow : Owed (F := F)) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (ow.body0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the boundary before it, left at the one
    after it; its arrays split out of the unscoped buffers and put back at their exit contents; the generator
    register into the plain invariant and out; nothing owed; no semaphore of the kernel's own. -/
def reg1 (ow : Owed (F := F)) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (ow.body1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Call 2's arrays at its exit: the six inputs as entered, the result at what the write-backs leave. -/
theorem hF2 (c : Dev nD) (w : Fin cfg2.W) : (dat2 (V5 m) c).arrAt w cfg2.N = V6 m c (Pipeline.arrRef spec2 w) :=
  match w with
  | ⟨0, _⟩ => ((dat2 (V5 m) c).arrAt_in 0 rfl _).trans ((show (dat2 (V5 m) c).A 0 = V5 m c (Pipeline.arrRef spec2 0) from by dsimp only [dat2]).trans (W6_of_ne m c _ (by decide)).symm)
  | ⟨1, _⟩ => ((dat2 (V5 m) c).arrAt_in 1 rfl _).trans ((show (dat2 (V5 m) c).A 1 = V5 m c (Pipeline.arrRef spec2 1) from by dsimp only [dat2]).trans (W6_of_ne m c _ (by decide)).symm)
  | ⟨2, _⟩ => ((dat2 (V5 m) c).arrAt_in 2 rfl _).trans ((show (dat2 (V5 m) c).A 2 = V5 m c (Pipeline.arrRef spec2 2) from by dsimp only [dat2]).trans (W6_of_ne m c _ (by decide)).symm)
  | ⟨3, _⟩ => ((dat2 (V5 m) c).arrAt_in 3 rfl _).trans ((show (dat2 (V5 m) c).A 3 = V5 m c (Pipeline.arrRef spec2 3) from by dsimp only [dat2]).trans (W6_of_ne m c _ (by decide)).symm)
  | ⟨4, _⟩ => ((dat2 (V5 m) c).arrAt_in 4 rfl _).trans ((show (dat2 (V5 m) c).A 4 = V5 m c (Pipeline.arrRef spec2 4) from by dsimp only [dat2]).trans (W6_of_ne m c _ (by decide)).symm)
  | ⟨5, _⟩ => ((dat2 (V5 m) c).arrAt_in 5 rfl _).trans ((show (dat2 (V5 m) c).A 5 = V5 m c (Pipeline.arrRef spec2 5) from by dsimp only [dat2]).trans (W6_of_ne m c _ (by decide)).symm)
  | ⟨6, _⟩ => (W6_out m c).symm
theorem hrest2 (c : Dev nD) : ∀ b, b ∉ Finset.univ.image (Pipeline.arrRef spec2) → V6 m c b = V5 m c b :=
  fun b hb => W6_of_ne m c b fun e => hb (Finset.mem_image.mpr ⟨6, Finset.mem_univ _, e.symm⟩)

set_option backward.isDefEq.respectTransparency.types false in
/-- Call 2 over the thread state. One array is read through two windows, each at half of it: the split and the join
    of its arrays are the hypotheses `split2` / `join2`; its invariant tracks the accumulator and returns to the plain
    one at the end (`out2`). -/
def reg2 (ow : Owed (F := F)) : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (ow.body2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := ow.split2 (V5 m) c (V5 m c) (fun w => by dsimp only [dat2])
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (ow.out2 (V5 m) c).trans ?_
    unfold Pipeline.ΦA
    iintro ⟨Hr, Hp⟩
    isplitl [Hp]; · iexact Hp
    isplitr; · iempintro
    iexact Hr
  hexit c := by
    have hjoin := ow.join2 (V5 m) c (V5 m c) (V6 m c) ((dat2 (V5 m) c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

/-! ## The program as segments, and the launch -/

abbrev segs (ow : Owed (F := F)) : List (Pipeline.Seg (pcfgs (F := F)) adm (pdats m) () defs₀ 𝒱₀ L lv) :=
  [ .host (hseg hostOps0 hostOps0_sub hostOps0_noalloc (W0 m)),
    .region (reg0 m ow),
    .host (hseg hostOps1 hostOps1_sub hostOps1_noalloc (W2 m)),
    .region (reg1 m ow),
    .host (hseg hostOps2 hostOps2_sub hostOps2_noalloc (W4 m)),
    .region (reg2 m ow),
    .host (hseg hostOps3 hostOps3_sub hostOps3_noalloc (W6 m)) ]
theorem main_run (ow : Owed (F := F)) (c : Dev nD) : main (F := F) c = Pipeline.Seg.run (segs m ow) := (main_chain c).trans (by chain_rfl)

set_option backward.isDefEq.respectTransparency.types false in
/-- THE RUN. From any memory with zero counters every weakly fair execution of the program terminates, nothing
    faulting, and the final memory holds every unscoped buffer at the last boundary's contents. -/
theorem run_all (ow : Owed (F := F)) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m ow)
    (fun c Q => by rw [main_run m ow c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (StableHlo.after hostOps3 (W6 m c)) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Hand

end
-- ==== Proof.BArgs.lean ====
/-
  The five argument arrays at the last boundary hold their launch contents: no host operation writes one, and a
  call either reads it through an input window or does not touch it.
-/
import proofs.«427818_j27788438405734_3_alg».proof.Proof.BFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- `main_arg0` reaches the end as launched: no host operation writes it and no call changes it. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (by dsimp only [dat0]))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it and no call changes it. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := (W4_arr m c 0).trans (((dat1 (V3 m) c).arrAt_in 0 rfl _).trans (by dsimp only [dat1]))
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it and no call changes it. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it and no call changes it. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg3) := W6_of_ne m c main_arg3 (by decide)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 1).trans (((dat0 (V1 m) c).arrAt_in 1 rfl _).trans (by dsimp only [dat0]))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` reaches the end as launched: no host operation writes it and no call changes it. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m c (Proc.devRef .tc main_arg4) := W6_of_ne m c main_arg4 (by decide)
    _ = W4 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

end Cert.Kernel.Hand

end
-- ==== Proof.BBody01.lean ====
/-
  The first two kernel calls at one grid point. Call 0 reads rows [1024 t, 1024 t + 1024) of the features and of the
  labels, the whole weight matrix and the bias, and writes the same rows of the logits and one 8 x 128 block of the
  partial cross-entropy sum; call 1 reads the same rows of the second feature matrix and writes them re-encoded
  together with their squared norms. Each body loads whole buffers and stores whole buffers, so what it leaves in an
  output buffer is the stored value as a function of the loaded blocks, with no trace of the buffer's earlier
  contents; an input buffer holds its block at every point, whether the block was moved in there or earlier. From
  these two facts: the body's triple on whole buffers, and the pipeline's obligation at every point.
-/
import proofs.«427818_j27788438405734_3_alg».proof.Proof.BDefs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bodies

variable (V : (c : Dev nD) → (b : Ref sig .tc) → Buf (Elt F) ((c : Thread nD τ).loc b))

/-- Zero offsets, as the bodies spell them. -/
theorem hz : (![0, 0] : Fin 2 → ℕ) = fun _ => 0 := by funext a; fin_cases a <;> rfl

/-! ## Call 0: the classifier and its partial sums -/

/-- The proof data's arrays are the entry contents. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = xblk V c 0 t := by dsimp only [dat0]
theorem after0_1 (c : Dev nD) (t : Fin cfg0.N) : (dat0 V c).after 1 t = xblk V c 1 t := by dsimp only [dat0]
theorem after0_2 (c : Dev nD) (t : Fin cfg0.N) : (dat0 V c).after 2 t = xblk V c 2 t := by dsimp only [dat0]
theorem after0_3 (c : Dev nD) (t : Fin cfg0.N) : (dat0 V c).after 3 t = xblk V c 3 t := by dsimp only [dat0]
theorem after0_4 (c : Dev nD) (t : Fin cfg0.N) :
    (dat0 V c).after 4 t = logitBlk (xblk V c 0 t) (xblk V c 1 t) (xblk V c 2 t) := by dsimp only [dat0]
theorem after0_5 (c : Dev nD) (t : Fin cfg0.N) :
    (dat0 V c).after 5 t = partBlk (xblk V c 0 t) (xblk V c 1 t) (xblk V c 2 t) (xblk V c 3 t) := by dsimp only [dat0]

/-- An input window's current buffer holds its block at every point, fetched there or not: the body leaves it in
    place, and a window that is not fetched again has not moved. One statement per window. -/
theorem found0_0 (c : Dev nD) (t : Fin cfg0.N) (d) : (dat0 V c).before 0 t d = xblk V c 0 t :=
  ((dat0 V c).before_in_eq_fetched 0 rfl (fun _ => rfl) (fun _ _ _ => rfl)
    (fun t => by rw [after0_0]; unfold Dat.blockOf xblk; rw [A_eq0]; try rfl) t d).trans
    (by unfold Dat.fetched Dat.blockOf xblk; rw [A_eq0]; try rfl)
theorem found0_1 (c : Dev nD) (t : Fin cfg0.N) (d) : (dat0 V c).before 1 t d = xblk V c 1 t :=
  ((dat0 V c).before_in_eq_fetched 1 rfl (fun _ => rfl) (fun _ _ _ => rfl)
    (fun t => by rw [after0_1]; unfold Dat.blockOf xblk; rw [A_eq0]; try rfl) t d).trans
    (by unfold Dat.fetched Dat.blockOf xblk; rw [A_eq0]; try rfl)
theorem found0_2 (c : Dev nD) (t : Fin cfg0.N) (d) : (dat0 V c).before 2 t d = xblk V c 2 t :=
  ((dat0 V c).before_in_eq_fetched 2 rfl (fun _ => rfl) (fun _ _ _ => rfl)
    (fun t => by rw [after0_2]; unfold Dat.blockOf xblk; rw [A_eq0]; try rfl) t d).trans
    (by unfold Dat.fetched Dat.blockOf xblk; rw [A_eq0]; try rfl)
theorem found0_3 (c : Dev nD) (t : Fin cfg0.N) (d) : (dat0 V c).before 3 t d = xblk V c 3 t :=
  ((dat0 V c).before_in_eq_fetched 3 rfl (fun _ => rfl) (fun _ _ _ => rfl)
    (fun t => by rw [after0_3]; unfold Dat.blockOf xblk; rw [A_eq0]; try rfl) t d).trans
    (by unfold Dat.fetched Dat.blockOf xblk; rw [A_eq0]; try rfl)

/-- The whole-buffer rectangles the two stores go through. -/
abbrev rLogit : Rect S1024x12 := Rect.unit (s := S1024x12) ![0, 0] S1024x12.size inb_S1024x12_S1024x12_0_0
abbrev rPart : Rect S8x128 := Rect.unit (s := S8x128) ![0, 0] S8x128.size inb_S8x128_S8x128_0_0

/-- Each store covers its buffer. -/
theorem coverLogit (p0 : Vec F S1024x12 .f32) (y : S1024x12.Idx) :
    ∃ pc ∈ ([⟨rLogit, p0⟩] : List (View.Piece (Elt F) S1024x12 .f32)), y ∈ pc.1.set :=
  ⟨_, List.mem_singleton_self _, View.mem_set_unit_zero hz inb_S1024x12_S1024x12_0_0 y⟩
theorem coverPart (p0 : Vec F S8x128 .f32) (y : S8x128.Idx) :
    ∃ pc ∈ ([⟨rPart, p0⟩] : List (View.Piece (Elt F) S8x128 .f32)), y ∈ pc.1.set :=
  ⟨_, List.mem_singleton_self _, View.mem_set_unit_zero hz inb_S8x128_S8x128_0_0 y⟩

set_option maxHeartbeats 4000000 in
/-- The body on whole buffers: the four inputs at read contents, the two outputs at anything, ends with the inputs as
    they were and the outputs at the logits block and the partial-sum block of the inputs. -/
theorem xent_run (c : Dev nD) (E : Set ℕ) (i : grid0.Coords)
    (arg1 : Memref sig .tc .vmem S1024x768 .f32) (harg1 : arg1.IsWhole) (arg2 : Memref sig .tc .vmem S12x768 .f32) (harg2 : arg2.IsWhole)
    (arg3 : Memref sig .tc .vmem S1x12 .f32) (harg3 : arg3.IsWhole) (arg4 : Memref sig .tc .vmem S1024x1 .i32) (harg4 : arg4.IsWhole)
    (arg5 : Memref sig .tc .vmem S1024x12 .f32) (harg5 : arg5.IsWhole) (arg6 : Memref sig .tc .vmem S8x128 .f32) (harg6 : arg6.IsWhole)
    (x0 : Vec F S1024x768 .f32) (x1 : Vec F S12x768 .f32) (x2 : Vec F S1x12 .f32) (x3 : Vec F S1024x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (logitBlk x0 x1 x2)
            ∗ owns (c : Thread nD τ) arg6 fullShare (partBlk x0 x1 x2 x3)) -∗ K ⟨⟩))
      ⊢ wp frame (wpE (defs₀ (F := F)) Variants.none c none) E (cc0__xent_kernel i arg1 harg1 arg2 harg2 arg3 harg3 arg4 harg4 arg5 harg5 arg6 harg6) K := by
  simp only [cc0__xent_kernel_eq_skeleton]; unfold cc0__xent_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverLogit _), View.canon_unit_zero hz]
    unfold logitBlk
    simp only [View.readAt_eq_ld, View.ld_unit_zero (S := S1024x768) hz, View.ld_unit_zero (S := S12x768) hz,
      View.ld_unit_zero (S := S1x12) hz]
  · iexists _; isplitr
    swap; · iexact H5
    ipureintro
    rw [View.read_writes_eq_canon _ _ _ (coverPart _), View.canon_unit_zero hz]
    unfold partBlk
    simp only [View.readAt_eq_ld, View.ld_unit_zero (S := S1024x768) hz, View.ld_unit_zero (S := S12x768) hz,
      View.ld_unit_zero (S := S1x12) hz, View.ld_unit_zero (S := S1024x1) hz]

/-- What the body is handed at point `t`: the invariant, the core's debts, and each window's current buffer at what
    it then holds, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def left0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the run above applies at them; the invariant and
    the debts are not touched. -/
theorem body0 (c : Dev nD) (t : Fin cfg0.N) :
    handed0 V c t ⊢ wp frame (wpE (defs₀ (F := F)) Variants.none c none) Set.univ (bodyAt0 t) (fun _ => left0 V c t) := by
  unfold handed0 left0 bodyAt0
  simp only [found0_0, found0_1, found0_2, found0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (xent_run c Set.univ _ _ _ _ _ _ _ _ _ _ _ _ _ (xblk V c 0 t) (xblk V c 1 t) (xblk V c 2 t) (xblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for call 0, at every point. -/
theorem body_obligation0 (c : Dev nD) : BodyObligation (dat0 (F := F) V c) (defs₀ (F := F)) Variants.none () Set.univ := fun t => by
  rw [bigSep_W0, bigSep_W0]
  exact body0 V c t

/-! ## Call 1: the rows re-encoded and their squared norms -/

/-- The proof data's arrays are the entry contents. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = pblk V c 0 t := by dsimp only [dat1]
theorem after1_1 (c : Dev nD) (t : Fin cfg1.N) : (dat1 V c).after 1 t = castBlk (pblk V c 0 t) := by dsimp only [dat1]
theorem after1_2 (c : Dev nD) (t : Fin cfg1.N) : (dat1 V c).after 2 t = sqBlk (pblk V c 0 t) := by dsimp only [dat1]

/-- The input window's current buffer holds its block at every point. -/
theorem found1_0 (c : Dev nD) (t : Fin cfg1.N) (d) : (dat1 V c).before 0 t d = pblk V c 0 t :=
  ((dat1 V c).before_in_eq_fetched 0 rfl (fun _ => rfl) (fun _ _ _ => rfl)
    (fun t => by rw [after1_0]; unfold Dat.blockOf pblk; rw [A_eq1]; try rfl) t d).trans
    (by unfold Dat.fetched Dat.blockOf pblk; rw [A_eq1]; try rfl)

/-- The whole-buffer rectangles the two stores go through. -/
abbrev rCast : Rect S1024x768 := Rect.unit (s := S1024x768) ![0, 0] S1024x768.size inb_S1024x768_S1024x768_0_0
abbrev rSq : Rect S1024x1 := Rect.unit (s := S1024x1) ![0, 0] S1024x1.size inb_S1024x1_S1024x1_0_0

/-- Each store covers its buffer. -/
theorem coverCast (p0 : Vec F S1024x768 .bf16) (y : S1024x768.Idx) :
    ∃ pc ∈ ([⟨rCast, p0⟩] : List (View.Piece (Elt F) S1024x768 .bf16)), y ∈ pc.1.set :=
  ⟨_, List.mem_singleton_self _, View.mem_set_unit_zero hz inb_S1024x768_S1024x768_0_0 y⟩
theorem coverSq (p0 : Vec F S1024x1 .f32) (y : S1024x1.Idx) :
    ∃ pc ∈ ([⟨rSq, p0⟩] : List (View.Piece (Elt F) S1024x1 .f32)), y ∈ pc.1.set :=
  ⟨_, List.mem_singleton_self _, View.mem_set_unit_zero hz inb_S1024x1_S1024x1_0_0 y⟩

set_option maxHeartbeats 4000000 in
/-- The body on whole buffers: the input at read contents, the two outputs at anything, ends with the input as it was
    and the outputs at the re-encoded rows and the rows' squared norms. -/
theorem prepass_run (c : Dev nD) (E : Set ℕ) (i : grid1.Coords)
    (arg1 : Memref sig .tc .vmem S1024x768 .f32) (harg1 : arg1.IsWhole) (arg2 : Memref sig .tc .vmem S1024x768 .bf16) (harg2 : arg2.IsWhole)
    (arg3 : Memref sig .tc .vmem S1024x1 .f32) (harg3 : arg3.IsWhole)
    (x0 : Vec F S1024x768 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (castBlk x0)
            ∗ owns (c : Thread nD τ) arg3 fullShare (sqBlk x0)) -∗ K ⟨⟩))
      ⊢ wp frame (wpE (defs₀ (F := F)) Variants.none c none) E (cc1__prepass_kernel i arg1 harg1 arg2 harg2 arg3 harg3) K := by
  simp only [cc1__prepass_kernel_eq_skeleton]; unfold cc1__prepass_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (coverCast _), View.canon_unit_zero hz]
    unfold castBlk
    simp only [View.readAt_eq_ld, View.ld_unit_zero (S := S1024x768) hz]
  · iexists _; isplitr
    swap; · iexact H2
    ipureintro
    rw [View.read_writes_eq_canon _ _ _ (coverSq _), View.canon_unit_zero hz]
    unfold sqBlk
    simp only [View.readAt_eq_ld, View.ld_unit_zero (S := S1024x768) hz]

/-- What the body is handed at point `t`, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def left1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. -/
theorem body1 (c : Dev nD) (t : Fin cfg1.N) :
    handed1 V c t ⊢ wp frame (wpE (defs₀ (F := F)) Variants.none c none) Set.univ (bodyAt1 t) (fun _ => left1 V c t) := by
  unfold handed1 left1 bodyAt1
  simp only [found1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (prepass_run c Set.univ _ _ _ _ _ _ _ (pblk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for call 1, at every point. -/
theorem body_obligation1 (c : Dev nD) : BodyObligation (dat1 (F := F) V c) (defs₀ (F := F)) Variants.none () Set.univ := fun t => by
  rw [bigSep_W1, bigSep_W1]
  exact body1 V c t

end Bodies

end Cert.Kernel.Hand

end
-- ==== Proof.BBody2A.lean ====
/-
  The third pallas_call's body at one grid point (i, j), on whole staging memrefs at given contents: it ends with
  the six inputs as they were, the one-element accumulator at `accNext` of the point (cleared first when j = 0,
  then the tile's sum added, the diagonal left out when i = j), and the output block at the accumulator broadcast
  when j = 7, untouched otherwise. The four branch conditions are functions of (i, j); the two middle ones are
  complementary, so eight assignments can occur, and the body is run once under each.
-/
import proofs.«427818_j27788438405734_3_alg».proof.Proof.BDefs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reads

variable {sig' : RefSig} {κ : Kind} {sp : Space} {Val : EltTy → Type} {S : Shape} {e : EltTy}

/-- The two zero offsets, however spelt. -/
theorem c2_zeros : (![0, 0] : Fin 2 → ℕ) = fun _ => 0 := by
  funext a; fin_cases a <;> rfl

/-- After a store through the whole-shape rectangle, LAST, the buffer reads that store's payload, whatever the
    earlier stores and the contents before them. -/
theorem c2_read_writes_last [∀ e, Nonempty (Val e)] (v : View sig' κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

end Reads

section Conditions

/-- The body's third branch (i ≠ j) is taken exactly when the second (i = j) is not. -/
theorem condOff_iff (i : grid2.Coords) : condOff i ↔ ¬ condDiag i := by
  show (Scalar.cmpi .ne (Scalar.extui (Scalar.cmpi .ne (BitVec.ofNat 32 (i 0).val) (BitVec.ofNat 32 (i 1).val))) 0#32) = 1#1
    ↔ ¬ (Scalar.cmpi .ne (Scalar.extui (Scalar.cmpi .eq (BitVec.ofNat 32 (i 0).val) (BitVec.ofNat 32 (i 1).val))) 0#32) = 1#1
  generalize (BitVec.ofNat 32 (i 0).val) = a
  generalize (BitVec.ofNat 32 (i 1).val) = b
  simp only [Scalar.cmpi, IntOp.cmpi, Scalar.extui, bne]
  cases (a == b) <;> decide

end Conditions

section Triple

/-- The body's triple at grid point `i`: from the eight operands whole at contents `x0 … x5`, `xo`, `xs`, the body
    runs to the inputs as they were, the accumulator at `accNext`, the output block at the accumulator's broadcast
    if j = 7 and as it was otherwise. -/
def Triple2 (c : Dev nD) (i : grid2.Coords) : Prop :=
  open Classical in
  ∀ (E : Set ℕ) (arg2 : Memref sig .tc .vmem S1024x768 .bf16) (harg2 : arg2.IsWhole) (arg3 : Memref sig .tc .vmem S8192x768 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .i32) (harg6 : arg6.IsWhole) (arg7 : Memref sig .tc .vmem S1x1024 .i32) (harg7 : arg7.IsWhole)
    (arg8 : Memref sig .tc .vmem S8x128 .f32) (harg8 : arg8.IsWhole) (arg9 : Memref sig .tc .vmem S1x1 .f32) (harg9 : arg9.IsWhole)
    (x0 : Vec F S1024x768 .bf16) (x1 : Vec F S8192x768 .bf16) (x2 : Vec F S1024x1 .f32) (x3 : Vec F S1x1024 .f32)
    (x4 : Vec F S1024x1 .i32) (x5 : Vec F S1x1024 .i32) (xo : Vec F S8x128 .f32) (xs : Vec F S1x1 .f32) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg9 fullShare (accNext i x0 x1 x2 x3 x4 x5 xs)
            ∗ owns (c : Thread nD τ) arg8 fullShare (if condFlush i then outBlk (accNext i x0 x1 x2 x3 x4 x5 xs) else xo)) -∗ K ⟨⟩))
      ⊢ wp frame (wpE (defs₀ (F := F)) Variants.none c none) E
          (cc2__contrastive_kernel i arg2 harg2 arg3 harg3 arg4 harg4 arg5 harg5 arg6 harg6 arg7 harg7 arg8 harg8 arg9 harg9) K

/-- One run of the body under an assignment of the four conditions: `r`, `d`, `o`, `fl` decide them; `er`, `ed`,
    `eo`, `efl` are the matching `if` equations. -/
local macro "contr_case " r:term ", " d:term ", " o:term ", " fl:term ", " er:term ", " ed:term ", " eo:term ", " efl:term : tactic => `(tactic| (
  intro E arg2 harg2 arg3 harg3 arg4 harg4 arg5 harg5 arg6 harg6 arg7 harg7 arg8 harg8 arg9 harg9 x0 x1 x2 x3 x4 x5 xo xs K
  simp only [$efl:term]
  simp only [cc2__contrastive_kernel_eq_skeleton]; unfold cc2__contrastive_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%fs, %hfs, Hs⟩, Hk⟩
  subst hf0; subst hf1; subst hf2; subst hf3; subst hf4; subst hf5; subst hfo; subst hfs
  sl_exec (disch := first | exact $r | exact $d | exact $o | exact $fl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [Hs]
  · iexists _; isplitr
    swap; · iexact Hs
    ipureintro
    try sl_unfold_run_names
    simp only [accNext, accStart, tileAt, $er:term, $ed:term, $eo:term]
    try simp only [c2_read_writes_last (S := S1x1) _ _ c2_zeros, View.readCov_cons_toLoadRect, View.readAt_eq_ld,
      View.ld_unit_zero (S := S1024x768) c2_zeros, View.ld_unit_zero (S := S1024x1) c2_zeros, View.ld_unit_zero (S := S1x1024) c2_zeros,
      View.ld_unit_zero (S := S1x1) c2_zeros]
    try rfl
  · iexists _; isplitr
    swap; · iexact Ho
    ipureintro
    try sl_unfold_run_names
    try simp only [accNext, accStart, tileAt, outBlk, $er:term, $ed:term, $eo:term]
    try simp only [c2_read_writes_last (S := S8x128) _ _ c2_zeros, View.readCov_cons_toLoadRect, View.readAt_eq_ld,
      View.ld_unit_zero (S := S1024x768) c2_zeros, View.ld_unit_zero (S := S1024x1) c2_zeros, View.ld_unit_zero (S := S1x1024) c2_zeros,
      View.ld_unit_zero (S := S1x1) c2_zeros]
    try rfl))

set_option maxHeartbeats 4000000 in
/-- The run where j = 0, i = j, j = 7. -/
theorem triple2_rdf (c : Dev nD) (i : grid2.Coords) (h1 : condReset i) (h2 : condDiag i) (h3 : ¬ condOff i) (h4 : condFlush i) :
    Triple2 (F := F) c i := by
  contr_case h1, h2, h3, h4, if_pos h1, if_pos h2, if_neg h3, if_pos h4

set_option maxHeartbeats 4000000 in
/-- The run where j = 0, i = j, j ≠ 7. -/
theorem triple2_rdk (c : Dev nD) (i : grid2.Coords) (h1 : condReset i) (h2 : condDiag i) (h3 : ¬ condOff i) (h4 : ¬ condFlush i) :
    Triple2 (F := F) c i := by
  contr_case h1, h2, h3, h4, if_pos h1, if_pos h2, if_neg h3, if_neg h4

set_option maxHeartbeats 4000000 in
/-- The run where j = 0, i ≠ j, j = 7. -/
theorem triple2_rof (c : Dev nD) (i : grid2.Coords) (h1 : condReset i) (h2 : ¬ condDiag i) (h3 : condOff i) (h4 : condFlush i) :
    Triple2 (F := F) c i := by
  contr_case h1, h2, h3, h4, if_pos h1, if_neg h2, if_pos h3, if_pos h4

set_option maxHeartbeats 4000000 in
/-- The run where j = 0, i ≠ j, j ≠ 7. -/
theorem triple2_rok (c : Dev nD) (i : grid2.Coords) (h1 : condReset i) (h2 : ¬ condDiag i) (h3 : condOff i) (h4 : ¬ condFlush i) :
    Triple2 (F := F) c i := by
  contr_case h1, h2, h3, h4, if_pos h1, if_neg h2, if_pos h3, if_neg h4

set_option maxHeartbeats 4000000 in
/-- The run where j ≠ 0, i = j, j = 7. -/
theorem triple2_ndf (c : Dev nD) (i : grid2.Coords) (h1 : ¬ condReset i) (h2 : condDiag i) (h3 : ¬ condOff i) (h4 : condFlush i) :
    Triple2 (F := F) c i := by
  contr_case h1, h2, h3, h4, if_neg h1, if_pos h2, if_neg h3, if_pos h4

set_option maxHeartbeats 4000000 in
/-- The run where j ≠ 0, i = j, j ≠ 7. -/
theorem triple2_ndk (c : Dev nD) (i : grid2.Coords) (h1 : ¬ condReset i) (h2 : condDiag i) (h3 : ¬ condOff i) (h4 : ¬ condFlush i) :
    Triple2 (F := F) c i := by
  contr_case h1, h2, h3, h4, if_neg h1, if_pos h2, if_neg h3, if_neg h4

set_option maxHeartbeats 4000000 in
/-- The run where j ≠ 0, i ≠ j, j = 7. -/
theorem triple2_nof (c : Dev nD) (i : grid2.Coords) (h1 : ¬ condReset i) (h2 : ¬ condDiag i) (h3 : condOff i) (h4 : condFlush i) :
    Triple2 (F := F) c i := by
  contr_case h1, h2, h3, h4, if_neg h1, if_neg h2, if_pos h3, if_pos h4

set_option maxHeartbeats 4000000 in
/-- The run where j ≠ 0, i ≠ j, j ≠ 7. -/
theorem triple2_nok (c : Dev nD) (i : grid2.Coords) (h1 : ¬ condReset i) (h2 : ¬ condDiag i) (h3 : condOff i) (h4 : ¬ condFlush i) :
    Triple2 (F := F) c i := by
  contr_case h1, h2, h3, h4, if_neg h1, if_neg h2, if_pos h3, if_neg h4

/-- The body's triple at every grid point: one of the eight runs applies. -/
theorem triple2 (c : Dev nD) (i : grid2.Coords) : Triple2 (F := F) c i := by
  by_cases h1 : condReset i <;> by_cases h2 : condDiag i <;> by_cases h4 : condFlush i
  · exact triple2_rdf c i h1 h2 (fun h => (condOff_iff i).mp h h2) h4
  · exact triple2_rdk c i h1 h2 (fun h => (condOff_iff i).mp h h2) h4
  · exact triple2_rof c i h1 h2 ((condOff_iff i).mpr h2) h4
  · exact triple2_rok c i h1 h2 ((condOff_iff i).mpr h2) h4
  · exact triple2_ndf c i h1 h2 (fun h => (condOff_iff i).mp h h2) h4
  · exact triple2_ndk c i h1 h2 (fun h => (condOff_iff i).mp h h2) h4
  · exact triple2_nof c i h1 h2 ((condOff_iff i).mpr h2) h4
  · exact triple2_nok c i h1 h2 ((condOff_iff i).mpr h2) h4

open Classical in
/-- The same, written out: the body on whole memrefs at contents `x0 … x5` (inputs), `xo` (output block), `xs`
    (accumulator). -/
theorem contr_triple (c : Dev nD) (E : Set ℕ) (i : grid2.Coords)
    (arg2 : Memref sig .tc .vmem S1024x768 .bf16) (harg2 : arg2.IsWhole) (arg3 : Memref sig .tc .vmem S8192x768 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .i32) (harg6 : arg6.IsWhole) (arg7 : Memref sig .tc .vmem S1x1024 .i32) (harg7 : arg7.IsWhole)
    (arg8 : Memref sig .tc .vmem S8x128 .f32) (harg8 : arg8.IsWhole) (arg9 : Memref sig .tc .vmem S1x1 .f32) (harg9 : arg9.IsWhole)
    (x0 : Vec F S1024x768 .bf16) (x1 : Vec F S8192x768 .bf16) (x2 : Vec F S1024x1 .f32) (x3 : Vec F S1x1024 .f32)
    (x4 : Vec F S1024x1 .i32) (x5 : Vec F S1x1024 .i32) (xo : Vec F S8x128 .f32) (xs : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg9 fullShare (accNext i x0 x1 x2 x3 x4 x5 xs)
            ∗ owns (c : Thread nD τ) arg8 fullShare (if condFlush i then outBlk (accNext i x0 x1 x2 x3 x4 x5 xs) else xo)) -∗ K ⟨⟩))
      ⊢ wp frame (wpE (defs₀ (F := F)) Variants.none c none) E
          (cc2__contrastive_kernel i arg2 harg2 arg3 harg3 arg4 harg4 arg5 harg5 arg6 harg6 arg7 harg7 arg8 harg8 arg9 harg9) K :=
  triple2 c i E arg2 harg2 arg3 harg3 arg4 harg4 arg5 harg5 arg6 harg6 arg7 harg7 arg8 harg8 arg9 harg9 x0 x1 x2 x3 x4 x5 xo xs K

end Triple

end Cert.Kernel.Hand

end
-- ==== Proof.BBody2.lean ====
/-
  The third pallas_call as a region: the body obligation of its 64 grid points (point t is (i, j) = (t / 8, t % 8)).
  A one-element accumulator is carried from point to point: cleared where j = 0, the point's tile sum added (without
  its diagonal where i = j), and broadcast into the output block where j = 7; elsewhere the output window is idle and
  its buffer is handed back as found. The invariant before point t + 1 holds the accumulator at `accAt` of point t;
  before the first point it is the class's, with the accumulator at anything, which the first point clears. The
  sixteen staging buffers of the other two calls, the generator register and what the core owes pass through.
-/
import proofs.«427818_j27788438405734_3_alg».proof.Proof.BDefs
import proofs.«427818_j27788438405734_3_alg».proof.Proof.BBody2A
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Grid

/-! ## The conditions and window 6's idleness, in closed form over the 64 points (point t is (i, j) = (t / 8, t % 8)) -/

theorem hcondReset : ∀ t : Fin cfg2.N, condReset (grid2.coords t) ↔ t.val % 8 = 0 :=
  (by decide +kernel : ∀ t : Fin grid2.N, condReset (grid2.coords t) ↔ t.val % 8 = 0)
theorem hcondFlush : ∀ t : Fin cfg2.N, condFlush (grid2.coords t) ↔ t.val % 8 = 7 :=
  (by decide +kernel : ∀ t : Fin grid2.N, condFlush (grid2.coords t) ↔ t.val % 8 = 7)
theorem hcondDiag : ∀ t : Fin cfg2.N, condDiag (grid2.coords t) ↔ t.val / 8 = t.val % 8 :=
  (by decide +kernel : ∀ t : Fin grid2.N, condDiag (grid2.coords t) ↔ t.val / 8 = t.val % 8)
theorem hcondOff : ∀ t : Fin cfg2.N, condOff (grid2.coords t) ↔ ¬ (t.val / 8 = t.val % 8) :=
  (by decide +kernel : ∀ t : Fin grid2.N, condOff (grid2.coords t) ↔ ¬ (t.val / 8 = t.val % 8))

/-- The output window is idle exactly at the points that do not store it (j ≠ 7), -/
theorem idle2_6_iff : ∀ t : Fin cfg2.N, cfg2.idle 6 (grid2.coords t) = true ↔ ¬ condFlush (grid2.coords t) :=
  (by decide +kernel : ∀ t : Fin grid2.N, cfg2.idle 6 (grid2.coords t) = true ↔ ¬ condFlush (grid2.coords t))
/-- live where it is stored, -/
theorem live2_6 : ∀ t : Fin cfg2.N, condFlush (grid2.coords t) → cfg2.idle 6 (grid2.coords t) = false :=
  (by decide +kernel : ∀ t : Fin grid2.N, condFlush (grid2.coords t) → cfg2.idle 6 (grid2.coords t) = false)
/-- written back exactly there, -/
theorem flush2_6_iff : ∀ t : Fin cfg2.N, (cfg2.win 6).flush t = true ↔ condFlush (grid2.coords t) :=
  (by decide +kernel : ∀ t : Fin grid2.N, (cfg2.win 6).flush t = true ↔ condFlush (grid2.coords t))
/-- and not elsewhere. -/
theorem noFlush2_6 : ∀ t : Fin cfg2.N, ¬ condFlush (grid2.coords t) → (cfg2.win 6).flush t = false :=
  (by decide +kernel : ∀ t : Fin grid2.N, ¬ condFlush (grid2.coords t) → (cfg2.win 6).flush t = false)

/-- The six input windows are never idle. -/
theorem live2_0 (i : grid2.Coords) : cfg2.idle 0 i = false := rfl
theorem live2_1 (i : grid2.Coords) : cfg2.idle 1 i = false := rfl
theorem live2_2 (i : grid2.Coords) : cfg2.idle 2 i = false := rfl
theorem live2_3 (i : grid2.Coords) : cfg2.idle 3 i = false := rfl
theorem live2_4 (i : grid2.Coords) : cfg2.idle 4 i = false := rfl
theorem live2_5 (i : grid2.Coords) : cfg2.idle 5 i = false := rfl

end Grid

section Others

/-- The invariant of the class with the scratch operand as a memref owned at some contents, after the sixteen staging
    buffers of the other two calls. -/
theorem PhiA2_eq (c : Dev nD) :
    (Pipeline.ΦA spec2 c : sProp 𝕄)
      = iprop(othersThen c iprop(∃ d, owns (c : Thread nD τ) scrM fullShare d) ∗ (∃ r, prngReg c r)) := by
  unfold Pipeline.ΦA othersThen; rw [scopedRest2_eq]; simp only [scrM, owns_whole]; try rfl

/-- The other calls' buffers stay as they are while the last place changes. -/
theorem othersThen_mono (c : Dev nD) {R R' : sProp 𝕄} (h : R ⊢ R') : othersThen (F := F) c R ⊢ othersThen c R' := by
  unfold othersThen
  iterate 16 refine sep_mono .rfl ?_
  exact h

/-- The last place taken out, the rest waiting for whatever is put back. -/
theorem othersThen_open (c : Dev nD) (R R' : sProp 𝕄) :
    othersThen (F := F) c R ⊢ iprop(R ∗ (R' -∗ othersThen c R')) := by
  unfold othersThen
  iintro ⟨B1, B2, B3, B4, B5, B6, B7, B8, B9, B10, B11, B12, B13, B14, B15, B16, HR⟩
  isplitl [HR]; · iexact HR
  iintro HR'
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  iexact HR'

end Others

section Frame

variable (V : (c : Dev nD) → (b : Ref sig .tc) → Buf (Elt F) ((c : Thread nD τ).loc b))

/-! ## The proof data, projected -/

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = cblk V c 0 t := by dsimp only [dat2]
theorem after2_1 (c : Dev nD) (t : Fin cfg2.N) : (dat2 V c).after 1 t = cblk V c 1 t := by dsimp only [dat2]
theorem after2_2 (c : Dev nD) (t : Fin cfg2.N) : (dat2 V c).after 2 t = cblk V c 2 t := by dsimp only [dat2]
theorem after2_3 (c : Dev nD) (t : Fin cfg2.N) : (dat2 V c).after 3 t = cblk V c 3 t := by dsimp only [dat2]
theorem after2_4 (c : Dev nD) (t : Fin cfg2.N) : (dat2 V c).after 4 t = cblk V c 4 t := by dsimp only [dat2]
theorem after2_5 (c : Dev nD) (t : Fin cfg2.N) : (dat2 V c).after 5 t = cblk V c 5 t := by dsimp only [dat2]
theorem after2_6 (c : Dev nD) (t : Fin cfg2.N) : (dat2 V c).after 6 t = outBlk (accAt V c t.val t.isLt) := by dsimp only [dat2]

/-- Each input window's current buffer holds its block at every point, fetched there or not: the body never writes
    it, and a window that is not fetched again has not moved (windows 0, 2, 4 move with i only, window 1 never,
    windows 3, 5 with j). -/
theorem before2_0 (c : Dev nD) (t : Fin cfg2.N) (d) : (dat2 V c).before 0 t d = cblk V c 0 t :=
  ((dat2 V c).before_in_eq_fetched 0 rfl (fun _ => rfl) (fun _ _ _ => rfl)
    (fun t => by rw [after2_0]; unfold Dat.blockOf cblk; rw [A_eq2]; try rfl) t d).trans
    (by unfold Dat.fetched Dat.blockOf cblk; rw [A_eq2]; try rfl)
theorem before2_1 (c : Dev nD) (t : Fin cfg2.N) (d) : (dat2 V c).before 1 t d = cblk V c 1 t :=
  ((dat2 V c).before_in_eq_fetched 1 rfl (fun _ => rfl) (fun _ _ _ => rfl)
    (fun t => by rw [after2_1]; unfold Dat.blockOf cblk; rw [A_eq2]; try rfl) t d).trans
    (by unfold Dat.fetched Dat.blockOf cblk; rw [A_eq2]; try rfl)
theorem before2_2 (c : Dev nD) (t : Fin cfg2.N) (d) : (dat2 V c).before 2 t d = cblk V c 2 t :=
  ((dat2 V c).before_in_eq_fetched 2 rfl (fun _ => rfl) (fun _ _ _ => rfl)
    (fun t => by rw [after2_2]; unfold Dat.blockOf cblk; rw [A_eq2]; try rfl) t d).trans
    (by unfold Dat.fetched Dat.blockOf cblk; rw [A_eq2]; try rfl)
theorem before2_3 (c : Dev nD) (t : Fin cfg2.N) (d) : (dat2 V c).before 3 t d = cblk V c 3 t :=
  ((dat2 V c).before_in_eq_fetched 3 rfl (fun _ => rfl) (fun _ _ _ => rfl)
    (fun t => by rw [after2_3]; unfold Dat.blockOf cblk; rw [A_eq2]; try rfl) t d).trans
    (by unfold Dat.fetched Dat.blockOf cblk; rw [A_eq2]; try rfl)
theorem before2_4 (c : Dev nD) (t : Fin cfg2.N) (d) : (dat2 V c).before 4 t d = cblk V c 4 t :=
  ((dat2 V c).before_in_eq_fetched 4 rfl (fun _ => rfl) (fun _ _ _ => rfl)
    (fun t => by rw [after2_4]; unfold Dat.blockOf cblk; rw [A_eq2]; try rfl) t d).trans
    (by unfold Dat.fetched Dat.blockOf cblk; rw [A_eq2]; try rfl)
theorem before2_5 (c : Dev nD) (t : Fin cfg2.N) (d) : (dat2 V c).before 5 t d = cblk V c 5 t :=
  ((dat2 V c).before_in_eq_fetched 5 rfl (fun _ => rfl) (fun _ _ _ => rfl)
    (fun t => by rw [after2_5]; unfold Dat.blockOf cblk; rw [A_eq2]; try rfl) t d).trans
    (by unfold Dat.fetched Dat.blockOf cblk; rw [A_eq2]; try rfl)

/-! ## The accumulator, point by point -/

/-- Where the clearing branch runs, what the accumulator held before does not matter. -/
theorem accNext_of_reset {i : grid2.Coords} (h : condReset i) (x0 : Vec F S1024x768 .bf16) (x1 : Vec F S8192x768 .bf16)
    (x2 : Vec F S1024x1 .f32) (x3 : Vec F S1x1024 .f32) (x4 : Vec F S1024x1 .i32) (x5 : Vec F S1x1024 .i32) (xs xs' : Vec F S1x1 .f32) :
    accNext i x0 x1 x2 x3 x4 x5 xs = accNext i x0 x1 x2 x3 x4 x5 xs' := by
  simp only [accNext, accStart, if_pos h]

/-- At the first point the accumulator ends at `accNext` of anything (the point clears it). -/
theorem accAt_first (c : Dev nD) (t : Fin cfg2.N) (hz : t.val = 0) (xs : Vec F S1x1 .f32) :
    accAt V c t.val t.isLt
      = accNext (grid2.coords t) (cblk V c 0 t) (cblk V c 1 t) (cblk V c 2 t) (cblk V c 3 t) (cblk V c 4 t) (cblk V c 5 t) xs := by
  have hr : condReset (grid2.coords t) := (hcondReset t).mpr (by rw [hz])
  obtain ⟨n, hn⟩ := t
  cases n with
  | zero => exact accNext_of_reset hr _ _ _ _ _ _ _ _
  | succ n => exact absurd hz (Nat.succ_ne_zero n)

/-- At a later point, at `accNext` of what the point before left. -/
theorem accAt_later (c : Dev nD) (t : Fin cfg2.N) (hz : t.val ≠ 0) :
    accAt V c t.val t.isLt
      = accNext (grid2.coords t) (cblk V c 0 t) (cblk V c 1 t) (cblk V c 2 t) (cblk V c 3 t) (cblk V c 4 t) (cblk V c 5 t)
          (accAt V c (t.val - 1) (Nat.lt_of_le_of_lt (Nat.sub_le _ _) t.isLt)) := by
  obtain ⟨n, hn⟩ := t
  cases n with
  | zero => exact absurd rfl hz
  | succ n => rfl

/-! ## The region invariant, position by position -/

theorem PhiC_zero (c : Dev nD) (n : ℕ) (h : n ≤ cfg2.N) (hz : n = 0) : PhiC V c n h = Pipeline.ΦA spec2 c := by
  subst hz; rfl

theorem PhiC_succ (c : Dev nD) (n : ℕ) (hn : n < cfg2.N) :
    PhiC V c (n + 1) hn = iprop(othersThen c (owns (c : Thread nD τ) scrM fullShare (accAt V c n hn)) ∗ (∃ r, prngReg c r)) := rfl

theorem PhiC_pos (c : Dev nD) (n : ℕ) (h : n ≤ cfg2.N) (hz : n ≠ 0) :
    PhiC V c n h = iprop(othersThen c (owns (c : Thread nD τ) scrM fullShare (accAt V c (n - 1) (by omega))) ∗ (∃ r, prngReg c r)) := by
  cases n with
  | zero => exact absurd rfl hz
  | succ n => rfl

/-- The invariant at a point's start, restated at the point's number. -/
theorem Phi2_castSucc (c : Dev nD) (t : Fin cfg2.N) :
    (dat2 V c).Φ t.castSucc = PhiC V c t.val (Nat.le_of_lt t.isLt) := by
  dsimp only [dat2]; simp only [Fin.coe_castSucc]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem leaves2_0 (c : Dev nD) (t : Fin cfg2.N) :
    (dat2 V c).leavesExact 0 t = owns (c : Thread nD τ) (st2_0 t) fullShare (cblk V c 0 t) := by
  rw [show (dat2 V c).leavesExact 0 t = owns (c : Thread nD τ) (st2_0 t) fullShare ((dat2 V c).after 0 t) from by
    unfold Dat.leavesExact; rw [live2_0], after2_0]
theorem leaves2_1 (c : Dev nD) (t : Fin cfg2.N) :
    (dat2 V c).leavesExact 1 t = owns (c : Thread nD τ) (st2_1 t) fullShare (cblk V c 1 t) := by
  rw [show (dat2 V c).leavesExact 1 t = owns (c : Thread nD τ) (st2_1 t) fullShare ((dat2 V c).after 1 t) from by
    unfold Dat.leavesExact; rw [live2_1], after2_1]
theorem leaves2_2 (c : Dev nD) (t : Fin cfg2.N) :
    (dat2 V c).leavesExact 2 t = owns (c : Thread nD τ) (st2_2 t) fullShare (cblk V c 2 t) := by
  rw [show (dat2 V c).leavesExact 2 t = owns (c : Thread nD τ) (st2_2 t) fullShare ((dat2 V c).after 2 t) from by
    unfold Dat.leavesExact; rw [live2_2], after2_2]
theorem leaves2_3 (c : Dev nD) (t : Fin cfg2.N) :
    (dat2 V c).leavesExact 3 t = owns (c : Thread nD τ) (st2_3 t) fullShare (cblk V c 3 t) := by
  rw [show (dat2 V c).leavesExact 3 t = owns (c : Thread nD τ) (st2_3 t) fullShare ((dat2 V c).after 3 t) from by
    unfold Dat.leavesExact; rw [live2_3], after2_3]
theorem leaves2_4 (c : Dev nD) (t : Fin cfg2.N) :
    (dat2 V c).leavesExact 4 t = owns (c : Thread nD τ) (st2_4 t) fullShare (cblk V c 4 t) := by
  rw [show (dat2 V c).leavesExact 4 t = owns (c : Thread nD τ) (st2_4 t) fullShare ((dat2 V c).after 4 t) from by
    unfold Dat.leavesExact; rw [live2_4], after2_4]
theorem leaves2_5 (c : Dev nD) (t : Fin cfg2.N) :
    (dat2 V c).leavesExact 5 t = owns (c : Thread nD τ) (st2_5 t) fullShare (cblk V c 5 t) := by
  rw [show (dat2 V c).leavesExact 5 t = owns (c : Thread nD τ) (st2_5 t) fullShare ((dat2 V c).after 5 t) from by
    unfold Dat.leavesExact; rw [live2_5], after2_5]

/-- The output window at a point that stores it: the accumulator's broadcast. -/
theorem leaves2_6_flush (c : Dev nD) (t : Fin cfg2.N) (h : condFlush (grid2.coords t)) :
    (dat2 V c).leavesExact 6 t = owns (c : Thread nD τ) (st2_6 t) fullShare (outBlk (accAt V c t.val t.isLt)) := by
  rw [show (dat2 V c).leavesExact 6 t = owns (c : Thread nD τ) (st2_6 t) fullShare ((dat2 V c).after 6 t) from by
    unfold Dat.leavesExact; rw [live2_6 t h], after2_6]

/-- At the other points it is idle and not written back: handed back as found. -/
theorem leaves2_6_idle (c : Dev nD) (t : Fin cfg2.N) (h : ¬ condFlush (grid2.coords t)) :
    (dat2 V c).leavesExact 6 t = iprop(∃ d, owns (c : Thread nD τ) (st2_6 t) fullShare ((dat2 V c).before 6 t d)) :=
  Dat.leavesExact_idle (dat2 V c) 6 t ((idle2_6_iff t).mpr h) (noFlush2_6 t h)

set_option maxHeartbeats 4000000 in
/-- The body at any point: the inputs' memrefs hold their blocks; the invariant hands the accumulator at what the point
    before left (at anything at the first point, which clears it) and takes it back at this point's; the output block is
    stored where j = 7 and handed back untouched elsewhere; the other calls' buffers, the generator register and what
    the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiC V c (t.val + 1) t.isLt from rfl, PhiC_succ]
  rw [leaves2_0, leaves2_1, leaves2_2, leaves2_3, leaves2_4, leaves2_5]
  have hN : t.val < 64 := lt_of_lt_of_eq t.isLt (show cfg2.N = 64 from N_2)
  by_cases hz : t.val = 0
  · have hR : condReset (grid2.coords t) := (hcondReset t).mpr (by rw [hz])
    have hF : ¬ condFlush (grid2.coords t) := fun h => by have := (hcondFlush t).mp h; omega
    rw [leaves2_6_idle V c t hF, Phi2_castSucc V c t, PhiC_zero V c _ _ hz, PhiA2_eq, accAt_first V c t hz k2_pay4]
    iintro ⟨⟨HO, Hg⟩, Hw, ⟨%d0, H0⟩, ⟨%d1, H1⟩, ⟨%d2, H2⟩, ⟨%d3, H3⟩, ⟨%d4, H4⟩, ⟨%d5, H5⟩, ⟨%d6, H6⟩⟩
    icases (othersThen_open c _ (owns (c : Thread nD τ) scrM fullShare
      (accNext (grid2.coords t) (cblk V c 0 t) (cblk V c 1 t) (cblk V c 2 t) (cblk V c 3 t) (cblk V c 4 t) (cblk V c 5 t) k2_pay4))) $$ HO with ⟨⟨%xs, HS⟩, Hback⟩
    iapply (triple2 (F := F) c (grid2.coords t) Set.univ _ (hstage2_0 ((cfg2.slots t 0).cast nbuf2_0)) _ (hstage2_1 ((cfg2.slots t 1).cast nbuf2_1))
      _ (hstage2_2 ((cfg2.slots t 2).cast nbuf2_2)) _ (hstage2_3 ((cfg2.slots t 3).cast nbuf2_3)) _ (hstage2_4 ((cfg2.slots t 4).cast nbuf2_4))
      _ (hstage2_5 ((cfg2.slots t 5).cast nbuf2_5)) _ (hstage2_6 ((cfg2.slots t 6).cast nbuf2_6)) scrM (Memref.isWhole_whole _)
      (cblk V c 0 t) (cblk V c 1 t) (cblk V c 2 t) (cblk V c 3 t) (cblk V c 4 t) (cblk V c 5 t) ((dat2 V c).before 6 t d6) xs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    rw [if_neg hF, accNext_of_reset hR _ _ _ _ _ _ xs k2_pay4]
    iintro ⟨H0, H1, H2, H3, H4, H5, HS, H6⟩
    isplitl [HS Hback Hg]
    · isplitl [HS Hback]
      · iapply Hback; iexact HS
      iexact Hg
    isplitl [Hw]; · iexact Hw
    isplitl [H0]; · iexact H0
    isplitl [H1]; · iexact H1
    isplitl [H2]; · iexact H2
    isplitl [H3]; · iexact H3
    isplitl [H4]; · iexact H4
    isplitl [H5]; · iexact H5
    iexists d6; iexact H6
  · rw [Phi2_castSucc V c t, PhiC_pos V c _ _ hz, accAt_later V c t hz]
    by_cases hF : condFlush (grid2.coords t)
    · rw [leaves2_6_flush V c t hF, accAt_later V c t hz]
      iintro ⟨⟨HO, Hg⟩, Hw, ⟨%d0, H0⟩, ⟨%d1, H1⟩, ⟨%d2, H2⟩, ⟨%d3, H3⟩, ⟨%d4, H4⟩, ⟨%d5, H5⟩, ⟨%d6, H6⟩⟩
      icases (othersThen_open c _ (owns (c : Thread nD τ) scrM fullShare
        (accNext (grid2.coords t) (cblk V c 0 t) (cblk V c 1 t) (cblk V c 2 t) (cblk V c 3 t) (cblk V c 4 t) (cblk V c 5 t)
          (accAt V c (t.val - 1) (Nat.lt_of_le_of_lt (Nat.sub_le _ _) t.isLt))))) $$ HO with ⟨HS, Hback⟩
      iapply (triple2 (F := F) c (grid2.coords t) Set.univ _ (hstage2_0 ((cfg2.slots t 0).cast nbuf2_0)) _ (hstage2_1 ((cfg2.slots t 1).cast nbuf2_1))
        _ (hstage2_2 ((cfg2.slots t 2).cast nbuf2_2)) _ (hstage2_3 ((cfg2.slots t 3).cast nbuf2_3)) _ (hstage2_4 ((cfg2.slots t 4).cast nbuf2_4))
        _ (hstage2_5 ((cfg2.slots t 5).cast nbuf2_5)) _ (hstage2_6 ((cfg2.slots t 6).cast nbuf2_6)) scrM (Memref.isWhole_whole _)
        (cblk V c 0 t) (cblk V c 1 t) (cblk V c 2 t) (cblk V c 3 t) (cblk V c 4 t) (cblk V c 5 t) ((dat2 V c).before 6 t d6) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      rw [if_pos hF]
      iintro ⟨H0, H1, H2, H3, H4, H5, HS, H6⟩
      isplitl [HS Hback Hg]
      · isplitl [HS Hback]
        · iapply Hback; iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexact H6
    · rw [leaves2_6_idle V c t hF]
      iintro ⟨⟨HO, Hg⟩, Hw, ⟨%d0, H0⟩, ⟨%d1, H1⟩, ⟨%d2, H2⟩, ⟨%d3, H3⟩, ⟨%d4, H4⟩, ⟨%d5, H5⟩, ⟨%d6, H6⟩⟩
      icases (othersThen_open c _ (owns (c : Thread nD τ) scrM fullShare
        (accNext (grid2.coords t) (cblk V c 0 t) (cblk V c 1 t) (cblk V c 2 t) (cblk V c 3 t) (cblk V c 4 t) (cblk V c 5 t)
          (accAt V c (t.val - 1) (Nat.lt_of_le_of_lt (Nat.sub_le _ _) t.isLt))))) $$ HO with ⟨HS, Hback⟩
      iapply (triple2 (F := F) c (grid2.coords t) Set.univ _ (hstage2_0 ((cfg2.slots t 0).cast nbuf2_0)) _ (hstage2_1 ((cfg2.slots t 1).cast nbuf2_1))
        _ (hstage2_2 ((cfg2.slots t 2).cast nbuf2_2)) _ (hstage2_3 ((cfg2.slots t 3).cast nbuf2_3)) _ (hstage2_4 ((cfg2.slots t 4).cast nbuf2_4))
        _ (hstage2_5 ((cfg2.slots t 5).cast nbuf2_5)) _ (hstage2_6 ((cfg2.slots t 6).cast nbuf2_6)) scrM (Memref.isWhole_whole _)
        (cblk V c 0 t) (cblk V c 1 t) (cblk V c 2 t) (cblk V c 3 t) (cblk V c 4 t) (cblk V c 5 t) ((dat2 V c).before 6 t d6) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      rw [if_neg hF]
      iintro ⟨H0, H1, H2, H3, H4, H5, HS, H6⟩
      isplitl [HS Hback Hg]
      · isplitl [HS Hback]
        · iapply Hback; iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexists d6; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiC V c 0 (Nat.zero_le _) from rfl, PhiC_zero V c 0 _ rfl]
  try exact Idealize.SL.BI.Entails.refl _

/-- After any point the invariant gives it back: the accumulator's named contents are forgotten. -/
theorem Phi2_out (c : Dev nD) (t : Fin (cfg2.N + 1)) (ht : t.val ≠ 0) : (dat2 V c).Φ t ⊢ Pipeline.ΦA spec2 c := by
  rw [show (dat2 V c).Φ t = PhiC V c t.val (Nat.le_of_lt_succ t.isLt) from rfl, PhiC_pos V c _ _ ht, PhiA2_eq]
  refine sep_mono (othersThen_mono c ?_) .rfl
  iintro HS; iexists _; iexact HS

/-- The same after the last point. -/
theorem hout2 (c : Dev nD) : (dat2 V c).Φ (Fin.last cfg2.N) ⊢ Pipeline.ΦA spec2 c :=
  Phi2_out V c _ (by rw [Fin.val_last]; have : cfg2.N = 64 := N_2; omega)

end Frame

end Cert.Kernel.Hand

end
-- ==== Proof.BShares2.lean ====
/-
  The third call's arrays among the core's unscoped buffers. Its first two windows read ONE array, the re-encoded
  table, window 0 by blocks of 1024 rows and window 1 whole; the other five windows have an array each. The proof
  data holds the shared array's left half share for window 0 and its right half share for window 1, and every other
  array at the full share. Since the two halves of the full share compose to it, the seven windows' points-tos are
  exactly the full-share points-tos of the six distinct buffers behind them. Hence the core's unscoped buffers at a
  valuation split into the region's arrays, as the proof data holds them on entry, and the buffers that are no
  window's array; and the arrays at any contents rejoin that rest into the unscoped buffers at a valuation that has
  those contents at the arrays and is unchanged elsewhere.
-/
import proofs.«427818_j27788438405734_3_alg».proof.Proof.BDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares

variable (V : (c : Dev nD) → (b : Ref sig .tc) → Buf (Elt F) ((c : Thread nD τ).loc b))

/-- The distinct buffers behind the seven windows' arrays, one by one: six, the first behind windows 0 and 1. -/
theorem arrBufs2_eq (c : Dev nD) (U : (b : Ref sig .tc) → Buf (Elt F) ((c : Thread nD τ).loc b)) :
    (Pipeline.arrBufs (Ix := Unit) (Name := ℕ) (U := UR sig nD τ) (Lvl := ℕ) spec2 c U : sProp 𝕄)
      = iprop((((c : Thread nD τ).loc main_v6_0) ↦{fullShare} U main_v6_0) ∗ (((c : Thread nD τ).loc main_v6_1) ↦{fullShare} U main_v6_1)
          ∗ (((c : Thread nD τ).loc main_v7) ↦{fullShare} U main_v7) ∗ (((c : Thread nD τ).loc main_v8) ↦{fullShare} U main_v8)
          ∗ (((c : Thread nD τ).loc main_v9) ↦{fullShare} U main_v9) ∗ (((c : Thread nD τ).loc main_v10) ↦{fullShare} U main_v10)) := by
  unfold Pipeline.arrBufs
  exact bigSep_eq_bigSepL_of_eq [main_v6_0, main_v6_1, main_v7, main_v8, main_v9, main_v10] (by decide) (by decide) _

/-- Window 0 holds the shared array at the left half of the full share, window 1 at the right half; an array of its own
    is held at the full share, the output's too. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl
theorem share2_6 (c : Dev nD) : (dat2 V c).share 6 = fullShare := rfl

/-- The core's unscoped buffers are the buffers behind the windows' arrays and the rest, the arrays distinct or not. -/
theorem unscopedBufs_split2 (c : Dev nD) (U : (b : Ref sig .tc) → Buf (Elt F) ((c : Thread nD τ).loc b)) :
    (unscopedBufs c U : sProp 𝕄) = iprop(Pipeline.arrBufs spec2 c U ∗ Pipeline.unscopedRest spec2 c U) := by
  classical
  have hA : Finset.univ.image (Pipeline.arrRef spec2) ⊆ Finset.univ.filter fun b : Ref sig .tc => ¬ b.isScoped := by decide
  unfold unscopedBufs Pipeline.unscopedRest Pipeline.arrBufs
  rw [bigSep_sdiff_split hA]
  rfl

/-- The seven windows' arrays at contents read off a valuation, at the proof data's shares, are the six buffers behind
    them at the full share at that valuation: the two half shares of the shared array compose to the full share. -/
theorem arrays2_eq_arrBufs (c : Dev nD) (U : (b : Ref sig .tc) → Buf (Elt F) ((c : Thread nD τ).loc b))
    (G : (w : Fin cfg2.W) → Buf (Elt F) (((cfg2.win w).arr.view.loc (c : Thread nD τ))))
    (hG : ∀ w, G w = U (Pipeline.arrRef spec2 w)) :
    (dat2 V c).arrays G = (Pipeline.arrBufs spec2 c U : sProp 𝕄) := by
  have h1 : (dat2 V c).arrays G
      = bigSep Finset.univ fun w : Fin 7 => (((c : Thread nD τ).loc (Pipeline.arrRef spec2 w)) ↦{(dat2 V c).share w} U (Pipeline.arrRef spec2 w) : sProp 𝕄) := by
    unfold Dat.arrays
    exact bigSep_congr fun w _ => by rw [(arr_whole2 w).set_eq_univ, hG w]
  rw [h1, bigSep_W2, arrBufs2_eq]
  show iprop((((c : Thread nD τ).loc main_v6_0) ↦{fullShare.left} U main_v6_0) ∗ (((c : Thread nD τ).loc main_v6_0) ↦{fullShare.right} U main_v6_0)
          ∗ (((c : Thread nD τ).loc main_v6_1) ↦{fullShare} U main_v6_1)
          ∗ (((c : Thread nD τ).loc main_v7) ↦{fullShare} U main_v7) ∗ (((c : Thread nD τ).loc main_v8) ↦{fullShare} U main_v8)
          ∗ (((c : Thread nD τ).loc main_v9) ↦{fullShare} U main_v9) ∗ (((c : Thread nD τ).loc main_v10) ↦{fullShare} U main_v10)) = _
  have hsh : ((((c : Thread nD τ).loc main_v6_0) ↦{fullShare} U main_v6_0) : sProp 𝕄)
      = iprop((((c : Thread nD τ).loc main_v6_0) ↦{fullShare.left} U main_v6_0) ∗ (((c : Thread nD τ).loc main_v6_0) ↦{fullShare.right} U main_v6_0)) :=
    Idealize.SL.BI.Entails.antisymm (pointsTo_share (PosShare.mem_left_op_right fullShare)).1 (pointsTo_share (PosShare.mem_left_op_right fullShare)).2
  rw [hsh]
  exact Idealize.SL.BI.Entails.antisymm Idealize.SL.BI.sep_assoc' Idealize.SL.BI.sep_assoc

/-- ENTRY: the core's unscoped buffers at a valuation that the proof data's entry contents are read off are the
    region's arrays at those contents and the unscoped buffers that are no window's array. -/
theorem arrays2_split (c : Dev nD) (U : (b : Ref sig .tc) → Buf (Elt F) ((c : Thread nD τ).loc b))
    (hA : ∀ w, (dat2 V c).A w = U (Pipeline.arrRef spec2 w)) :
    (unscopedBufs c U : sProp 𝕄)
      ⊢ iprop((dat2 V c).arrays ((dat2 V c).arrAt · 0) ∗ Pipeline.unscopedRest (Ix := Unit) (Name := ℕ) (U := UR sig nD τ) (Lvl := ℕ) spec2 c U) := by
  rw [unscopedBufs_split2 c U, arrays2_eq_arrBufs V c U ((dat2 V c).arrAt · 0)
    (fun w => (show (dat2 V c).arrAt w 0 = (dat2 V c).A w from rfl).trans (hA w))]

/-- EXIT: the region's arrays at contents `G` and the unscoped rest at the entry valuation are the core's unscoped
    buffers at any valuation that has `G` at the arrays and agrees with the entry valuation off them. -/
theorem arrays2_join (c : Dev nD) (U U' : (b : Ref sig .tc) → Buf (Elt F) ((c : Thread nD τ).loc b))
    (G : (w : Fin cfg2.W) → Buf (Elt F) (((cfg2.win w).arr.view.loc (c : Thread nD τ))))
    (hG : ∀ w, G w = U' (Pipeline.arrRef spec2 w))
    (hrest : ∀ b, b ∉ Finset.univ.image (Pipeline.arrRef spec2) → U' b = U b) :
    iprop((dat2 V c).arrays G ∗ Pipeline.unscopedRest (Ix := Unit) (Name := ℕ) (U := UR sig nD τ) (Lvl := ℕ) spec2 c U)
      ⊢ (unscopedBufs c U' : sProp 𝕄) := by
  rw [unscopedBufs_split2 c U', arrays2_eq_arrBufs V c U' G hG]
  refine sep_mono .rfl (Entails.of_eq ?_)
  unfold Pipeline.unscopedRest
  exact bigSep_congr fun b hb => by rw [hrest b (Finset.mem_sdiff.mp hb).2]

end Shares

end Cert.Kernel.Hand

end
-- ==== Proof.Spec.lean ====
/-
  The mathematics both programs compute, over the reals, as one function of the argument arrays read as real
  matrices: the classifier's logits, the mean cross-entropy of their row-wise log-softmax at the labels, the
  contrastive sum over all ordered off-diagonal pairs of rows of the second matrix, and their weighted sum.
  No program is mentioned here.
-/
import Idealize.ShloMosaic.PureOps.Ideal
import Idealize.ShloMosaic.Lib.ValueIdx
import Mathlib.Analysis.SpecialFunctions.Log.Basic
import Mathlib.Analysis.SpecialFunctions.Sqrt

noncomputable section

open scoped BigOperators

namespace Cert.Spec

open Idealize.ShloMosaic

/-- A real matrix read as an array of extended reals. -/
def arr2 {n0 n1 : Nat} (X : Fin n0 → Fin n1 → ℝ) : (⟨2, ![n0, n1]⟩ : Shape).Idx → EReal :=
  fun i => ((X (i 0) (i 1) : ℝ) : EReal)

/-- A real vector read as an array of extended reals. -/
def arr1 {n : Nat} (B : Fin n → ℝ) : (⟨1, ![n]⟩ : Shape).Idx → EReal :=
  fun i => ((B (i 0) : ℝ) : EReal)

/-- A label word as a class index (the word itself when it is below 12). -/
def cls (w : BitVec 32) : Fin 12 := ⟨w.toNat % 12, Nat.mod_lt _ (by decide)⟩

/-- The logit of row `r` and class `c`: the inner product of the row with the class's weight row, plus the bias. -/
def logit (X : Fin 8192 → Fin 768 → ℝ) (Wt : Fin 12 → Fin 768 → ℝ) (B : Fin 12 → ℝ) (r : Fin 8192) (c : Fin 12) : ℝ :=
  (∑ k : Fin 768, X r k * Wt c k) + B c

/-- The largest of a row's twelve logits. -/
def rowMax (L : Fin 12 → ℝ) : ℝ := Finset.univ.sup' Finset.univ_nonempty L

/-- The log-softmax of a row of logits at class `c`, computed with the row maximum subtracted first. -/
def logp (L : Fin 12 → ℝ) (c : Fin 12) : ℝ :=
  (L c - rowMax L) - Real.log (∑ c' : Fin 12, Real.exp (L c' - rowMax L))

/-- The mean over the rows of minus the log-softmax at the row's label. -/
def cross (X : Fin 8192 → Fin 768 → ℝ) (Wt : Fin 12 → Fin 768 → ℝ) (B : Fin 12 → ℝ) (lab : Fin 8192 → BitVec 32) : ℝ :=
  -((∑ r : Fin 8192, logp (logit X Wt B r) (cls (lab r))) / 8192)

/-- A row's squared norm. -/
def sq (T : Fin 8192 → Fin 768 → ℝ) (r : Fin 8192) : ℝ := ∑ k : Fin 768, T r k * T r k

/-- The inner product of two rows. -/
def gram (T : Fin 8192 → Fin 768 → ℝ) (r s : Fin 8192) : ℝ := ∑ k : Fin 768, T r k * T s k

/-- The distance of two rows, from the squared norms and the inner product, clamped at zero before the root. -/
def dist (T : Fin 8192 → Fin 768 → ℝ) (r s : Fin 8192) : ℝ :=
  Real.sqrt (max (sq T r + sq T s - 2 * gram T r s) 0)

/-- What an ordered pair of rows contributes: the distance when the labels agree, the hinge `max 0 (1 - distance)` when not. -/
def pair (T : Fin 8192 → Fin 768 → ℝ) (lab : Fin 8192 → BitVec 32) (r s : Fin 8192) : ℝ :=
  if lab r = lab s then dist T r s else max 0 (1 - dist T r s)

/-- The contrastive sum: every ordered pair of distinct rows. -/
def contr (T : Fin 8192 → Fin 768 → ℝ) (lab : Fin 8192 → BitVec 32) : ℝ :=
  ∑ r : Fin 8192, ∑ s : Fin 8192, if r = s then 0 else pair T lab r s

/-- The loss: the two f32 weights (the words of 0.9 and 0.1, kept as the extended reals they denote) times the two terms. -/
def loss (X : Fin 8192 → Fin 768 → ℝ) (Wt : Fin 12 → Fin 768 → ℝ) (B : Fin 12 → ℝ) (T : Fin 8192 → Fin 768 → ℝ)
    (lab : Fin 8192 → BitVec 32) : EReal :=
  Ideal.ofBits .f32 0x3F666666#32 * ((cross X Wt B lab : ℝ) : EReal)
    + Ideal.ofBits .f32 0x3DCCCCCD#32 * ((contr T lab : ℝ) : EReal)

end Cert.Spec

end
-- ==== Proof.Consts.lean ====
/-
  The float words the two programs spell, as the extended reals they denote: zero, one, two, the two divisors
  1024 and 8192, and the two infinities.
-/
import Idealize.ShloMosaic.PureOps.Ideal

noncomputable section

namespace Cert.Consts

open Idealize.ShloMosaic

/-- The word of `+0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = ((1 : ℝ) : EReal) := by
  simp [Ideal.ofBits, Ideal.ieee, -EReal.coe_mul]; norm_num

/-- The word of `2.0` denotes `2`. -/
theorem ofBits_two : Ideal.ofBits .f32 0x40000000#32 = ((2 : ℝ) : EReal) := by
  simp [Ideal.ofBits, Ideal.ieee, -EReal.coe_mul]; norm_num

/-- The word of `1024.0` denotes `1024`. -/
theorem ofBits_1024 : Ideal.ofBits .f32 0x44800000#32 = ((1024 : ℝ) : EReal) := by
  simp [Ideal.ofBits, Ideal.ieee, -EReal.coe_mul]; norm_num

/-- The word of `8192.0` denotes `8192`. -/
theorem ofBits_8192 : Ideal.ofBits .f32 0x46000000#32 = ((8192 : ℝ) : EReal) := by
  simp [Ideal.ofBits, Ideal.ieee, -EReal.coe_mul]; norm_num

/-- The word of `-inf` denotes the bottom element. -/
theorem ofBits_neg_inf : Ideal.ofBits .f32 0xFF800000#32 = (⊥ : EReal) := by
  simp [Ideal.ofBits, Ideal.ieee]

/-- The word of `+inf` denotes the top element. -/
theorem ofBits_inf : Ideal.ofBits .f32 0x7F800000#32 = (⊤ : EReal) := by
  simp [Ideal.ofBits, Ideal.ieee]

end Cert.Consts

end
-- ==== Proof.RefCross.lean ====
/-
  The reference's classifier branch as the specification's functions of the argument arrays read as real
  matrices, stage by stage: the logits (an inner product over the 768 features plus the bias), the row maximum
  of the twelve logits, the shifted logits and their exponentials, the logarithm of each row's positive sum of
  exponentials, the log-softmax, its value at each row's label (a label below twelve is neither wrapped nor
  masked), the sum over the 8192 rows, and minus the mean.
-/
import proofs.«427818_j27788438405734_3_alg».proof.Proof.RefRead
import proofs.«427818_j27788438405734_3_alg».proof.Proof.Spec
import proofs.«427818_j27788438405734_3_alg».proof.Proof.Consts
import Idealize.ShloMosaic.Lib.ValueIdx
import Idealize.ShloMosaic.Lib.Affine
import Idealize.ShloMosaic.PureOps.Reduce
import Idealize.ShloMosaic.PureOps.Ideal.Laws
import Mathlib.Data.EReal.Basic
import Mathlib.Data.EReal.Operations
import Mathlib.Order.MinMax
import Mathlib.Data.Finset.Lattice.Fold
import Mathlib.Algebra.BigOperators.Fin

noncomputable section

open scoped BigOperators

namespace Cert.ReferenceIdeal.RefCross

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.ReadP

/-- The coercion of a finite sum of reals is the sum of the coercions. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The logits stage is the specification's logits, read as an array. -/
theorem logits_eq (X : Fin 8192 → Fin 768 → ℝ) (Wt : Fin 12 → Fin 768 → ℝ) (B : Fin 12 → ℝ) :
    val_main_v4 (F := Ideal) (Cert.Spec.arr2 X) (Cert.Spec.arr2 Wt) (Cert.Spec.arr1 B)
      = Cert.Spec.arr2 (Cert.Spec.logit X Wt B) := by
  funext i
  rw [val_main_v4_apply, val_main_v1_apply, val_main_v3_apply, val_main_v2_apply]
  simp only [val_main_v0_apply]
  show (∑ k : Fin 768, ((X (i 0) k : ℝ) : EReal) * ((Wt (i 1) k : ℝ) : EReal)) + ((B (i 1) : ℝ) : EReal)
    = (((∑ k : Fin 768, X (i 0) k * Wt (i 1) k) + B (i 1) : ℝ) : EReal)
  rw [EReal.coe_add, coe_sum]
  simp only [EReal.coe_mul]

/-- The fold of the maximum from the bottom element over coerced reals is the coercion of their largest. -/
theorem fold_max_bot_coe {ι : Type} (s : Finset ι) (hs : s.Nonempty) (f : ι → ℝ) :
    s.fold max (⊥ : EReal) (fun k => ((f k : ℝ) : EReal)) = ((s.sup' hs f : ℝ) : EReal) := by
  induction hs using Finset.Nonempty.cons_induction with
  | singleton a =>
    rw [Finset.fold_singleton, Finset.sup'_singleton]
    exact max_eq_left bot_le
  | cons a s ha hs ih =>
    rw [Finset.fold_cons, Finset.sup'_cons hs, ih]
    exact (EReal.coe_strictMono.monotone.map_max).symm

section LogSoftmax

variable (X : Fin 8192 → Fin 768 → ℝ) (Wt : Fin 12 → Fin 768 → ℝ) (B : Fin 12 → ℝ)

/-- The row maximum stage is the specification's row maximum of the row's logits. -/
theorem rowmax_eq (i : S8192.Idx) :
    val_main_call0_v0 (F := Ideal) (Cert.Spec.arr2 X) (Cert.Spec.arr2 Wt) (Cert.Spec.arr1 B) i
      = ((Cert.Spec.rowMax (Cert.Spec.logit X Wt B (i 0)) : ℝ) : EReal) := by
  unfold val_main_call0_v0
  rw [logits_eq]
  rw [Host.reduce_eq_fold_single FloatOps.maximumf _ _ reducesTo_S8192x12_S8192_d1
    (by decide : S8192x12.Reduces [1] S8192) h_S_ i]
  show (Finset.univ : Finset (Fin 12)).fold max (Ideal.ofBits .f32 0xFF800000#32)
      (fun k => ((Cert.Spec.logit X Wt B (i 0) k : ℝ) : EReal)) = _
  rw [Cert.Consts.ofBits_neg_inf, fold_max_bot_coe _ Finset.univ_nonempty]
  rfl

/-- The maximum against the word of minus infinity leaves the row maximum. -/
theorem m_eq (i : S8192.Idx) :
    val_main_call0_v2 (F := Ideal) (Cert.Spec.arr2 X) (Cert.Spec.arr2 Wt) (Cert.Spec.arr1 B) i
      = ((Cert.Spec.rowMax (Cert.Spec.logit X Wt B (i 0)) : ℝ) : EReal) := by
  rw [val_main_call0_v2_apply, val_main_call0_v1_apply, val_main_call0_cst_0_apply, rowmax_eq]
  show max (Ideal.ofBits .f32 0xFF800000#32) _ = _
  rw [Cert.Consts.ofBits_neg_inf]
  exact max_eq_right bot_le

/-- The row maximum broadcast along the classes. -/
theorem mb_eq (i : S8192x12.Idx) :
    val_main_call0_v4 (F := Ideal) (Cert.Spec.arr2 X) (Cert.Spec.arr2 Wt) (Cert.Spec.arr1 B) i
      = ((Cert.Spec.rowMax (Cert.Spec.logit X Wt B (i 0)) : ℝ) : EReal) := by
  rw [val_main_call0_v4_apply, val_main_call0_v3_apply, m_eq]
  rfl

/-- The shifted logits. -/
theorem shift_eq (i : S8192x12.Idx) :
    val_main_call0_v5 (F := Ideal) (Cert.Spec.arr2 X) (Cert.Spec.arr2 Wt) (Cert.Spec.arr1 B) i
      = ((Cert.Spec.logit X Wt B (i 0) (i 1) - Cert.Spec.rowMax (Cert.Spec.logit X Wt B (i 0)) : ℝ) : EReal) := by
  rw [val_main_call0_v5_apply, mb_eq, logits_eq]
  show ((Cert.Spec.logit X Wt B (i 0) (i 1) : ℝ) : EReal) - _ = _
  rw [← EReal.coe_sub]

/-- Their exponentials. -/
theorem exp_eq (i : S8192x12.Idx) :
    val_main_call0_v6 (F := Ideal) (Cert.Spec.arr2 X) (Cert.Spec.arr2 Wt) (Cert.Spec.arr1 B) i
      = ((Real.exp (Cert.Spec.logit X Wt B (i 0) (i 1) - Cert.Spec.rowMax (Cert.Spec.logit X Wt B (i 0))) : ℝ) : EReal) := by
  rw [val_main_call0_v6_apply, shift_eq]
  rfl

/-- The row sums of the exponentials. -/
theorem sumexp_eq (i : S8192.Idx) :
    val_main_call0_v7 (F := Ideal) (Cert.Spec.arr2 X) (Cert.Spec.arr2 Wt) (Cert.Spec.arr1 B) i
      = ((∑ k : Fin 12, Real.exp (Cert.Spec.logit X Wt B (i 0) k - Cert.Spec.rowMax (Cert.Spec.logit X Wt B (i 0))) : ℝ) : EReal) := by
  rw [val_main_call0_v7_apply, val_main_call0_cst_1_apply]
  simp only [exp_eq]
  show Ideal.ofBits .f32 0x00000000#32 + ∑ k : Fin 12,
      ((Real.exp (Cert.Spec.logit X Wt B (i 0) k - Cert.Spec.rowMax (Cert.Spec.logit X Wt B (i 0))) : ℝ) : EReal) = _
  rw [Cert.Consts.ofBits_zero, zero_add, coe_sum]

/-- The logarithm of the row sums, which are positive. -/
theorem logsum_eq (i : S8192x1.Idx) :
    val_main_call0_v9 (F := Ideal) (Cert.Spec.arr2 X) (Cert.Spec.arr2 Wt) (Cert.Spec.arr1 B) i
      = ((Real.log (∑ k : Fin 12, Real.exp (Cert.Spec.logit X Wt B (i 0) k - Cert.Spec.rowMax (Cert.Spec.logit X Wt B (i 0)))) : ℝ) : EReal) := by
  rw [val_main_call0_v9_apply, val_main_call0_v8_apply, sumexp_eq]
  have hpos : 0 < ∑ k : Fin 12, Real.exp (Cert.Spec.logit X Wt B (i 0) k - Cert.Spec.rowMax (Cert.Spec.logit X Wt B (i 0))) :=
    Finset.sum_pos (fun k _ => Real.exp_pos _) Finset.univ_nonempty
  show Ideal.log ((∑ k : Fin 12, Real.exp (Cert.Spec.logit X Wt B (i 0) k - Cert.Spec.rowMax (Cert.Spec.logit X Wt B (i 0))) : ℝ) : EReal) = _
  rw [Ideal.log_coe, if_neg (not_le.mpr hpos)]

/-- The log-softmax stage is the specification's log-softmax of the logits, read as an array. -/
theorem logsoftmax_eq :
    val_main_v5 (F := Ideal) (Cert.Spec.arr2 X) (Cert.Spec.arr2 Wt) (Cert.Spec.arr1 B)
      = Cert.Spec.arr2 (fun r c => Cert.Spec.logp (Cert.Spec.logit X Wt B r) c) := by
  funext i
  rw [val_main_v5_apply, shift_eq, val_main_call0_v10_apply, logsum_eq]
  show ((Cert.Spec.logit X Wt B (i 0) (i 1) - Cert.Spec.rowMax (Cert.Spec.logit X Wt B (i 0)) : ℝ) : EReal)
      - ((Real.log (∑ k : Fin 12, Real.exp (Cert.Spec.logit X Wt B (i 0) k - Cert.Spec.rowMax (Cert.Spec.logit X Wt B (i 0)))) : ℝ) : EReal) = _
  rw [← EReal.coe_sub]
  rfl

end LogSoftmax

section TakeAlongAxis

/-- A word below twelve read as a signed integer is its unsigned value. -/
theorem toInt_of_lt {w : BitVec 32} (h : w.toNat < 12) : w.toInt = (w.toNat : Int) :=
  BitVec.toInt_eq_toNat_of_lt (by omega)

theorem not_neg_of_lt {w : BitVec 32} (h : w.toNat < 12) : IntOp.cmpi .slt w 0#32 = 0#1 := by
  refine eq_zero_of_ne_one fun e => ?_
  have := IntOp.cmpi_slt.mp e
  rw [toInt_of_lt h, show (0#32 : BitVec 32).toInt = 0 from by decide] at this
  omega

theorem ge_zero_of_lt {w : BitVec 32} (h : w.toNat < 12) : IntOp.cmpi .sge w 0#32 = 1#1 := by
  refine IntOp.cmpi_sge.mpr ?_
  rw [toInt_of_lt h, show (0#32 : BitVec 32).toInt = 0 from by decide]
  omega

theorem le_eleven_of_lt {w : BitVec 32} (h : w.toNat < 12) : IntOp.cmpi .sle w 11#32 = 1#1 := by
  refine IntOp.cmpi_sle.mpr ?_
  rw [toInt_of_lt h, show (11#32 : BitVec 32).toInt = 11 from by decide]
  omega

/-- A left fold of the conjunction over words that are all one, from one, is one. -/
theorem foldl_andi_one {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg a, show IntOp.andi (1#1 : BitVec 1) 1#1 = 1#1 from by decide]
    exact ih

variable (x2 : (⟨S8192, .i32⟩ : BufTy).Contents (Elt Ideal))

/-- The label column at a row is the row's label. -/
theorem lab_eq (i : S8192x1.Idx) : val_main_v6 (F := Ideal) x2 i = x2 (ix1 (n := 8192) (i 0)) := by
  rw [val_main_v6_apply]
  exact congrArg x2 (funext fun a => by match a with | ⟨0, _⟩ => rfl)

variable (hlab : ∀ r : Fin 8192, (x2 (ix1 r)).toNat < 12)
include hlab

/-- A label in range is not wrapped. -/
theorem wrap_eq (i : S8192x1.Idx) : val_main_call1_v4 (F := Ideal) x2 i = x2 (ix1 (n := 8192) (i 0)) := by
  rw [val_main_call1_v4_apply, val_main_call1_v1_apply, val_main_call1_v0_apply, val_main_call1_c_apply, lab_eq,
    not_neg_of_lt (hlab (i 0)), select_zero]

/-- The start indices of the gather. -/
theorem start_eq (i : S8192x1x1.Idx) : val_main_call1_v5 (F := Ideal) x2 i = x2 (ix1 (n := 8192) (i 0)) := by
  rw [val_main_call1_v5_apply, wrap_eq x2 hlab]
  refine congrArg x2 (funext fun a => Fin.ext ?_)
  match a with
  | ⟨0, _⟩ =>
    have h1 : (i 1).val < 1 := (i 1).isLt
    have h2 : (i 2).val < 1 := (i 2).isLt
    show (((i 0).val * 1 + (i 1).val) * 1 + (i 2).val) / 1 = (i 0).val
    omega

/-- Every start index is in range, so the validity mask is one everywhere. -/
theorem mask_eq (i : S8192x1x1.Idx) : val_main_call1_v11 (F := Ideal) x2 i = 1#1 := by
  rw [val_main_call1_v11_apply, val_main_call1_v7_apply, val_main_call1_v10_apply, start_eq x2 hlab,
    val_main_call1_v6_apply, val_main_call1_c_2_apply, val_main_call1_v9_apply, val_main_call1_v8_apply,
    val_main_call1_c_1_apply, ge_zero_of_lt (hlab (i 0)), le_eleven_of_lt (hlab (i 0))]
  decide

/-- Its conjunction over the unit axis is one. -/
theorem maskall_eq (i : S8192x1.Idx) : val_main_call1_v12 (F := Ideal) x2 i = 1#1 := by
  unfold val_main_call1_v12
  rw [Host.reduce_eq_foldl]
  exact foldl_andi_one _ _ (mask_eq x2 hlab)

end TakeAlongAxis

section Gather

/-- On the batching axis the gather reads the result's row. -/
theorem gidx_0 (j : S8192x1.Idx) (idx : IVec S8192x1x1 32) :
    (gather_S8192x12_S8192x1x1_S8192x1_n_1_0_0_1_2_11.operandIdx j idx 0).val = (j 0).val := by
  show gather_S8192x12_S8192x1x1_S8192x1_n_1_0_0_1_2_11.start j idx 0
      + gather_S8192x12_S8192x1x1_S8192x1_n_1_0_0_1_2_11.batchCoord j 0
      + gather_S8192x12_S8192x1x1_S8192x1_n_1_0_0_1_2_11.offCoord j 0 = (j 0).val
  rw [GatherDims.start_batching _ j idx 0 (by decide),
    GatherDims.offCoord_eq_zero _ j 0 (fun h => ((GatherDims.mem_sKept _ _).mp h).2 (by decide))]
  have hb : gather_S8192x12_S8192x1x1_S8192x1_n_1_0_0_1_2_11.batchCoord j 0 = (j 0).val := rfl
  omega

/-- On the class axis the gather reads the start index, as a signed integer clamped into the twelve classes. -/
theorem gidx_1 (j : S8192x1.Idx) (idx : IVec S8192x1x1 32) :
    (gather_S8192x12_S8192x1x1_S8192x1_n_1_0_0_1_2_11.operandIdx j idx 1).val
      = min (idx (ix3 (n0 := 8192) (n1 := 1) (n2 := 1) (j 0) (j 1) 0)).toInt.toNat 11 := by
  show gather_S8192x12_S8192x1x1_S8192x1_n_1_0_0_1_2_11.start j idx 1
      + gather_S8192x12_S8192x1x1_S8192x1_n_1_0_0_1_2_11.batchCoord j 1
      + gather_S8192x12_S8192x1x1_S8192x1_n_1_0_0_1_2_11.offCoord j 1 = _
  rw [GatherDims.batchCoord_eq_zero _ j 1 (by decide),
    GatherDims.offCoord_eq_zero _ j 1 (fun h => ((GatherDims.mem_sKept _ _).mp h).1 (by decide))]
  unfold GatherDims.start
  rw [dif_pos (show (1 : Fin S8192x12.rank) ∈ gather_S8192x12_S8192x1x1_S8192x1_n_1_0_0_1_2_11.startIndexMap by decide)]
  have hsi : gather_S8192x12_S8192x1x1_S8192x1_n_1_0_0_1_2_11.siIdx j
      ⟨List.idxOf (1 : Fin S8192x12.rank) gather_S8192x12_S8192x1x1_S8192x1_n_1_0_0_1_2_11.startIndexMap,
        List.idxOf_lt_length_iff.2 (by decide)⟩
      = ix3 (n0 := 8192) (n1 := 1) (n2 := 1) (j 0) (j 1) 0 := by
    funext b; refine Fin.ext ?_
    match b with
    | ⟨0, _⟩ => rfl
    | ⟨1, _⟩ => rfl
    | ⟨2, _⟩ => rfl
  rw [hsi]
  rfl

end Gather

section Cross

variable (X : Fin 8192 → Fin 768 → ℝ) (Wt : Fin 12 → Fin 768 → ℝ) (B : Fin 12 → ℝ)
variable (x2 : (⟨S8192, .i32⟩ : BufTy).Contents (Elt Ideal))
variable (hlab : ∀ r : Fin 8192, (x2 (ix1 r)).toNat < 12)
include hlab

/-- The gather reads the log-softmax at the row's label. -/
theorem gather_eq (i : S8192x1.Idx) :
    val_main_call1_v13 (F := Ideal) (Cert.Spec.arr2 X) x2 (Cert.Spec.arr2 Wt) (Cert.Spec.arr1 B) i
      = ((Cert.Spec.logp (Cert.Spec.logit X Wt B (i 0)) (Cert.Spec.cls (x2 (ix1 (n := 8192) (i 0)))) : ℝ) : EReal) := by
  unfold val_main_call1_v13
  rw [logsoftmax_eq]
  unfold Host.gather
  have hidx : gather_S8192x12_S8192x1x1_S8192x1_n_1_0_0_1_2_11.operandIdx i (val_main_call1_v5 (F := Ideal) x2)
      = ix2 (n0 := 8192) (n1 := 12) (i 0) (Cert.Spec.cls (x2 (ix1 (n := 8192) (i 0)))) := by
    funext a; refine Fin.ext ?_
    match a with
    | ⟨0, _⟩ => exact gidx_0 i _
    | ⟨1, _⟩ =>
      refine (gidx_1 i _).trans ?_
      rw [start_eq x2 hlab]
      show min (x2 (ix1 (n := 8192) (i 0))).toInt.toNat 11 = (x2 (ix1 (n := 8192) (i 0))).toNat % 12
      have h := hlab (i 0)
      rw [toInt_of_lt h]
      omega
  rw [hidx]
  rfl

/-- The taken values: the mask is one, so the fill is never selected. -/
theorem take_eq (i : S8192x1.Idx) :
    val_main_v7 (F := Ideal) (Cert.Spec.arr2 X) x2 (Cert.Spec.arr2 Wt) (Cert.Spec.arr1 B) i
      = ((Cert.Spec.logp (Cert.Spec.logit X Wt B (i 0)) (Cert.Spec.cls (x2 (ix1 (n := 8192) (i 0)))) : ℝ) : EReal) := by
  rw [val_main_v7_apply, maskall_eq x2 hlab, select_one, gather_eq X Wt B x2 hlab]

/-- Their sum over all rows. -/
theorem sum_eq (i : S_.Idx) :
    val_main_v8 (F := Ideal) (Cert.Spec.arr2 X) x2 (Cert.Spec.arr2 Wt) (Cert.Spec.arr1 B) i
      = ((∑ r : Fin 8192, Cert.Spec.logp (Cert.Spec.logit X Wt B r) (Cert.Spec.cls (x2 (ix1 r))) : ℝ) : EReal) := by
  rw [val_main_v8_apply, val_main_cst_apply]
  simp only [take_eq X Wt B x2 hlab]
  show Ideal.ofBits .f32 0x00000000#32 + _ = _
  rw [Cert.Consts.ofBits_zero, zero_add, sum_idx2, coe_sum]
  refine Finset.sum_congr rfl fun r _ => ?_
  rw [Fin.sum_univ_one]

/-- The cross-entropy stage is the specification's cross-entropy. -/
theorem cross_eq :
    val_main_v10 (F := Ideal) (Cert.Spec.arr2 X) x2 (Cert.Spec.arr2 Wt) (Cert.Spec.arr1 B)
      = fun _ => ((Cert.Spec.cross X Wt B (fun r => x2 (ix1 r)) : ℝ) : EReal) := by
  funext i
  rw [val_main_v10_apply, val_main_v9_apply, sum_eq X Wt B x2 hlab, val_main_cst_0_apply]
  show -(Ideal.div _ (Ideal.ofBits .f32 0x46000000#32)) = _
  rw [Cert.Consts.ofBits_8192, Ideal.div_coe (by norm_num), ← EReal.coe_mul, ← EReal.coe_neg]
  unfold Cert.Spec.cross
  rw [mul_one_div]

end Cross

end Cert.ReferenceIdeal.RefCross

end
-- ==== Proof.RefContr.lean ====
/-
  The reference's contrastive term, read as a real number. For a real matrix `T` with 8192 rows of 768 entries and a
  vector of label words, the reference forms the squared norm of every row (the row sums of the entrywise squares),
  the inner product of every pair of rows (the matrix times its transpose), from them the distance of every pair,
  `sqrt (max (|t_r|² + |t_s|² − 2 ⟨t_r, t_s⟩) 0)`, then per ordered pair the distance when the two labels agree and the
  hinge `max 0 (1 − distance)` when they do not, puts zero on the diagonal, and adds all 8192 × 8192 entries up.
  Every stage is the coercion of a real number: sums, products, differences and maxima of coerced reals are coerced
  reals, and the root is taken of a maximum with zero, hence of a nonnegative real. The total is therefore the
  coercion of the specification's sum over all ordered pairs of distinct rows.
-/
import proofs.«427818_j27788438405734_3_alg».proof.Proof.RefRead
import proofs.«427818_j27788438405734_3_alg».proof.Proof.Spec
import proofs.«427818_j27788438405734_3_alg».proof.Proof.Consts

noncomputable section

open scoped BigOperators

namespace Cert.ReferenceIdeal.RefContr

open Cert.ReferenceIdeal Idealize.ShloMosaic Idealize.ShloMosaic.ValueIdx

/-! ## Real numbers inside the extended reals -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with the maximum of two reals. -/
theorem coe_max (x y : ℝ) : ((max x y : ℝ) : EReal) = max (x : EReal) (y : EReal) :=
  EReal.coe_strictMono.monotone.map_max

/-- The extended square root of a nonnegative real is the real square root. -/
theorem sqrt_coe_of_nonneg {x : ℝ} (hx : 0 ≤ x) : Ideal.sqrt (x : EReal) = ((Real.sqrt x : ℝ) : EReal) := by
  rw [Ideal.sqrt_coe, if_neg (not_lt.mpr hx)]

/-! ## One-bit conditions -/

/-- The equality test of two equal words is the bit one. -/
theorem cmpi_eq_of_eq {w : Nat} {a b : BitVec w} (h : a = b) : IntOp.cmpi .eq a b = 1#1 := by
  subst h; simp [IntOp.cmpi]

/-- The equality test of two different words is the bit zero. -/
theorem cmpi_eq_of_ne {w : Nat} {a b : BitVec w} (h : a ≠ b) : IntOp.cmpi .eq a b = 0#1 := by
  have hb : (a == b) = false := beq_eq_false_iff_ne.mpr h
  show BitVec.ofBool (a == b) = 0#1
  rw [hb]; rfl

/-- A select on an equality test is the `if` on the equality. -/
theorem select_cmpi_eq {α : Type} {w : Nat} (a b : BitVec w) (A B : α) :
    Scalar.select (IntOp.cmpi .eq a b) A B = if a = b then A else B := by
  by_cases h : a = b
  · rw [cmpi_eq_of_eq h, if_pos h]; exact select_one A B
  · rw [cmpi_eq_of_ne h, if_neg h]; exact select_zero A B

/-- A select on a negated equality test is the `if` with the branches exchanged. -/
theorem select_not_cmpi_eq {α : Type} {w : Nat} (a b : BitVec w) (A B : α) :
    Scalar.select (~~~(IntOp.cmpi .eq a b)) A B = if a = b then B else A := by
  by_cases h : a = b
  · rw [cmpi_eq_of_eq h, if_pos h, show ~~~(1#1 : BitVec 1) = 0#1 from by decide]; exact select_zero A B
  · rw [cmpi_eq_of_ne h, if_neg h, show ~~~(0#1 : BitVec 1) = 1#1 from by decide]; exact select_one A B

/-- Two row numbers have the same 32-bit word exactly when they are the same row. -/
theorem ofNat_row_eq_iff (r s : Fin 8192) : BitVec.ofNat 32 r.val = BitVec.ofNat 32 s.val ↔ r = s := by
  constructor
  · intro h
    have h' := congrArg BitVec.toNat h
    simp only [BitVec.toNat_ofNat] at h'
    have hr := r.isLt
    have hs := s.isLt
    exact Fin.ext (by omega)
  · intro h; rw [h]

/-! ## The stages of the reference, read at a row or at a pair of rows -/

section Stages

variable (T : Fin 8192 → Fin 768 → ℝ)

/-- The row sums of the squared entries are the squared norms of the rows. -/
theorem sq_stage (r : Fin 8192) :
    ReadP.val_main_v12 (F := Ideal) (Cert.Spec.arr2 T) (ix1 r) = ((Cert.Spec.sq T r : ℝ) : EReal) := by
  rw [ReadP.val_main_v12_apply, ReadP.val_main_cst_1_apply, Ideal.ofBits_def, Cert.Consts.ofBits_zero, zero_add]
  unfold Cert.Spec.sq
  rw [coe_sum]
  refine Finset.sum_congr rfl fun k _ => ?_
  rw [ReadP.val_main_v11_apply, Ideal.mulf_def]
  exact (EReal.coe_mul _ _).symm

/-- The product of the matrix with its transpose holds the inner products of the rows. -/
theorem gram_stage (r s : Fin 8192) :
    ReadP.val_main_v19 (F := Ideal) (Cert.Spec.arr2 T) (ix2 r s) = ((Cert.Spec.gram T r s : ℝ) : EReal) := by
  rw [ReadP.val_main_v19_apply]
  unfold Cert.Spec.gram
  rw [coe_sum]
  refine Finset.sum_congr rfl fun k _ => ?_
  rw [ReadP.val_main_v18_apply]
  exact (EReal.coe_mul _ _).symm

end Stages

section Pairs

variable (T : Fin 8192 → Fin 768 → ℝ)

/-- The row coordinate of a pair, carried through the two broadcasts of a column. -/
theorem idx_row (r s : Fin 8192) : ReadP.idx_main_v13 (ReadP.idx_main_v15 (ix2 r s)) = ix1 r :=
  funext fun a => Fin.ext (by match a with | ⟨0, _⟩ => rfl)

/-- The column coordinate of a pair, carried through the two broadcasts of a row. -/
theorem idx_col (r s : Fin 8192) : ReadP.idx_main_v14 (ReadP.idx_main_v16 (ix2 r s)) = ix1 s :=
  funext fun a => Fin.ext (by match a with | ⟨0, _⟩ => rfl)

/-- The squared distance before clamping: the two squared norms minus twice the inner product. -/
theorem d2_stage (r s : Fin 8192) :
    ReadP.val_main_v22 (F := Ideal) (Cert.Spec.arr2 T) (ix2 r s)
      = ((Cert.Spec.sq T r + Cert.Spec.sq T s - 2 * Cert.Spec.gram T r s : ℝ) : EReal) := by
  rw [ReadP.val_main_v22_apply, ReadP.val_main_v17_apply, ReadP.val_main_v21_apply, ReadP.val_main_v15_apply,
    ReadP.val_main_v16_apply, ReadP.val_main_v13_apply, ReadP.val_main_v14_apply, ReadP.val_main_v20_apply,
    ReadP.val_main_cst_2_apply, idx_row, idx_col, sq_stage, sq_stage, gram_stage,
    Ideal.subf_def, Ideal.addf_def, Ideal.mulf_def, Ideal.ofBits_def, Cert.Consts.ofBits_two,
    ← EReal.coe_add, ← EReal.coe_mul, ← EReal.coe_sub]

/-- The root of the clamped squared distance is the distance of the two rows. -/
theorem dist_stage (r s : Fin 8192) :
    ReadP.val_main_v25 (F := Ideal) (Cert.Spec.arr2 T) (ix2 r s) = ((Cert.Spec.dist T r s : ℝ) : EReal) := by
  rw [ReadP.val_main_v25_apply, ReadP.val_main_v24_apply, d2_stage, ReadP.val_main_v23_apply,
    ReadP.val_main_cst_3_apply, Ideal.hostUnary_sqrt_def, Ideal.maximumf_def, Ideal.ofBits_def,
    Cert.Consts.ofBits_zero, ← EReal.coe_zero, ← coe_max, sqrt_coe_of_nonneg (le_max_right _ _)]
  rfl

/-- The hinge of the distance: the larger of zero and one minus the distance. -/
theorem hinge_stage (r s : Fin 8192) :
    ReadP.val_main_v40 (F := Ideal) (Cert.Spec.arr2 T) (ix2 r s)
      = ((max 0 (1 - Cert.Spec.dist T r s) : ℝ) : EReal) := by
  rw [ReadP.val_main_v40_apply, ReadP.val_main_v39_apply, ReadP.val_main_cst_5_apply, ReadP.val_main_v38_apply,
    ReadP.val_main_v37_apply, ReadP.val_main_cst_4_apply, dist_stage, Ideal.maximumf_def, Ideal.subf_def,
    Ideal.ofBits_def, Ideal.ofBits_def, Cert.Consts.ofBits_zero, Cert.Consts.ofBits_one,
    ← EReal.coe_sub, ← EReal.coe_zero, ← coe_max]

end Pairs

section Masked

variable (T : Fin 8192 → Fin 768 → ℝ) (x2 : (⟨S8192, .i32⟩ : BufTy).Contents (Elt Ideal))

/-- The row coordinate of a pair, carried through the two broadcasts of the label column. -/
theorem idx_lab_row (r s : Fin 8192) : ReadP.idx_main_v32 (ReadP.idx_main_v34 (ix2 r s)) = ix1 r :=
  funext fun a => Fin.ext (by match a with | ⟨0, _⟩ => rfl)

/-- The column coordinate of a pair, carried through the two broadcasts of the label row. -/
theorem idx_lab_col (r s : Fin 8192) : ReadP.idx_main_v33 (ReadP.idx_main_v35 (ix2 r s)) = ix1 s :=
  funext fun a => Fin.ext (by match a with | ⟨0, _⟩ => rfl)

/-- What a pair of rows contributes: the distance when the two labels agree, the hinge when they differ. -/
theorem pair_stage (r s : Fin 8192) :
    ReadP.val_main_v41 (F := Ideal) (Cert.Spec.arr2 T) x2 (ix2 r s)
      = ((Cert.Spec.pair T (fun r => x2 (ix1 r)) r s : ℝ) : EReal) := by
  rw [ReadP.val_main_v41_apply, ReadP.val_main_v36_apply, ReadP.val_main_v34_apply, ReadP.val_main_v35_apply,
    ReadP.val_main_v32_apply, ReadP.val_main_v33_apply, idx_lab_row, idx_lab_col, dist_stage, hinge_stage,
    select_cmpi_eq]
  unfold Cert.Spec.pair
  exact (apply_ite (fun x : ℝ => (x : EReal)) _ _ _).symm

/-- The off-diagonal mask keeps a pair's contribution when the two rows differ and puts zero on the diagonal. -/
theorem masked_stage (r s : Fin 8192) :
    ReadP.val_main_v42 (F := Ideal) (Cert.Spec.arr2 T) x2 (ix2 r s)
      = ((if r = s then 0 else Cert.Spec.pair T (fun r => x2 (ix1 r)) r s : ℝ) : EReal) := by
  rw [ReadP.val_main_v42_apply, ReadP.val_main_v31_apply, ReadP.val_main_v30_apply, ReadP.val_main_v29_apply,
    ReadP.val_main_v26_apply, ReadP.val_main_v27_apply, ReadP.val_main_v28_apply, ReadP.val_main_c_apply,
    ReadP.val_main_call3_v1_apply, ReadP.val_main_call3_v0_apply, ReadP.val_main_cst_6_apply, pair_stage,
    Ideal.ofBits_def, Cert.Consts.ofBits_zero, select_not_cmpi_eq]
  show (if BitVec.ofNat 32 r.val + 0#32 = BitVec.ofNat 32 s.val then (0 : EReal) else _) = _
  rw [BitVec.add_zero, apply_ite (fun x : ℝ => (x : EReal)), EReal.coe_zero]
  exact if_congr (ofNat_row_eq_iff r s) rfl rfl

/-- The contrastive sum of the reference: the sum over all ordered pairs of distinct rows. -/
theorem contr_eq :
    ReadP.val_main_v43 (F := Ideal) (Cert.Spec.arr2 T) x2
      = fun _ => ((Cert.Spec.contr T (fun r => x2 (ix1 r)) : ℝ) : EReal) := by
  funext i
  rw [ReadP.val_main_v43_apply, ReadP.val_main_cst_7_apply, Ideal.ofBits_def, Cert.Consts.ofBits_zero, zero_add,
    sum_idx2]
  unfold Cert.Spec.contr
  rw [coe_sum]
  refine Finset.sum_congr rfl fun r _ => ?_
  rw [coe_sum]
  exact Finset.sum_congr rfl fun s _ => masked_stage T x2 r s

end Masked

end Cert.ReferenceIdeal.RefContr

end
-- ==== Proof.RefValue.lean ====
/-
  The reference's results as the specification's functions of the argument arrays: the loss is the two float
  weights times the cross-entropy of the classifier branch and the contrastive sum of the second matrix, and the
  second result is the logits.
-/
import proofs.«427818_j27788438405734_3_alg».proof.Proof.RefRead
import proofs.«427818_j27788438405734_3_alg».proof.Proof.Spec
import proofs.«427818_j27788438405734_3_alg».proof.Proof.RefCross
import proofs.«427818_j27788438405734_3_alg».proof.Proof.RefContr

noncomputable section

namespace Cert.ReferenceIdeal.RefValue

open Cert.ReferenceIdeal Cert.ReferenceIdeal.Gen Idealize.ShloMosaic Idealize.ShloMosaic.TcCoe Idealize.SL.Sem Idealize.ShloMosaic.StableHlo

section Assembly

variable (m : (ℓ : Loc nD τ sig) → Buf (Elt Ideal) ℓ) (c : Dev nD)
variable (X T : Fin 8192 → Fin 768 → ℝ) (Wt : Fin 12 → Fin 768 → ℝ) (B : Fin 12 → ℝ)

/-- The loss the reference returns is the specification's loss of the argument arrays. -/
theorem loss_eq
    (h0 : m ((c.tc : Thread nD τ).loc main_arg0) = Cert.Spec.arr2 X)
    (h1 : m ((c.tc : Thread nD τ).loc main_arg1) = Cert.Spec.arr2 T)
    (h3 : m ((c.tc : Thread nD τ).loc main_arg3) = Cert.Spec.arr2 Wt)
    (h4 : m ((c.tc : Thread nD τ).loc main_arg4) = Cert.Spec.arr1 B)
    (hlab : ∀ r : Fin 8192, ((m ((c.tc : Thread nD τ).loc main_arg2)) (ValueIdx.ix1 r)).toNat < 12) :
    Cert.ReferenceIdeal.ValueP.res_main_v46 (F := Ideal) m c
      = fun _ => Cert.Spec.loss X Wt B T (fun r => (m ((c.tc : Thread nD τ).loc main_arg2)) (ValueIdx.ix1 r)) := by
  rw [ReadP.val_main_v46_eq, h0, h1, h3, h4]
  funext i
  rw [ReadP.val_main_v46_apply, ReadP.val_main_v44_apply, ReadP.val_main_v45_apply,
    RefCross.cross_eq X Wt B _ hlab, RefContr.contr_eq T _]
  rfl

/-- The logits the reference returns are the specification's logits of the argument arrays. -/
theorem logits_run_eq
    (h0 : m ((c.tc : Thread nD τ).loc main_arg0) = Cert.Spec.arr2 X)
    (h3 : m ((c.tc : Thread nD τ).loc main_arg3) = Cert.Spec.arr2 Wt)
    (h4 : m ((c.tc : Thread nD τ).loc main_arg4) = Cert.Spec.arr1 B) :
    addf (F := Ideal) (φ := .f32) (Host.dotGeneral (F := Ideal) (φ₁ := .f32) (φ₂ := .f32) dot_S8192x768_S768x12_S8192x12_1_0_0_1_n_n none (m ((c.tc : Thread nD τ).loc main_arg0)) (transpose S768x12 [1, 0] (m ((c.tc : Thread nD τ).loc main_arg3)) transposes_S12x768_S768x12_1_0)) (broadcastInDim S8192x12 ![0, 1] bcast_S1x12_S8192x12_0_1 (broadcastInDim S1x12 ![1] bcast_S12_S1x12_1 (m ((c.tc : Thread nD τ).loc main_arg4))))
      = Cert.Spec.arr2 (Cert.Spec.logit X Wt B) := by
  rw [h0, h3, h4]
  exact (ReadP.val_main_v4_eq _ _ _).trans (RefCross.logits_eq X Wt B)

end Assembly

end Cert.ReferenceIdeal.RefValue

end
-- ==== Proof.PreFacts.lean ====
import proofs.«427818_j27788438405734_3_alg».proof.Pre_finite_inputs
import proofs.«427818_j27788438405734_3_alg».proof.Proof.Spec
import proofs.«427818_j27788438405734_3_alg».proof.Proof.Consts
import Idealize.ShloMosaic.Lib.ReduceAll
import Idealize.ShloMosaic.Lib.StableHlo.Predicate
import Idealize.ShloMosaic.Lib.ValueIdx

/-!
  The precondition, decoded. The printed predicate is the conjunction of four statements "every entry of a float
  array has absolute value below plus infinity" and one statement "every label word is at least 0 and below 12,
  signed". Over the extended reals an entry whose absolute value is below the top element is neither infinity, so it
  is the coercion of a real; a 32-bit word that is non-negative and below 12 as a signed integer has unsigned value
  below 12. Hence the four float arrays are real matrices (vectors) read as extended reals, and every label is a class
  index.
-/

noncomputable section

namespace Cert.PreFacts

open Idealize.ShloMosaic Idealize.ShloMosaic.ValueIdx

/-- The scalar shape has one index. -/
instance : Subsingleton Cert.Pre_finite_inputs.S_.Idx := ⟨fun a b => funext fun d => d.elim0⟩

/-! ## One element -/

/-- An extended real whose absolute value `max x (-x)` compares below the word of plus infinity is a real. -/
theorem real_of_abs_lt (x : EReal)
    (h : Ideal.cmp .olt (max x (-x)) (Ideal.ofBits .f32 0x7F800000#32) = 1#1) : ∃ r : ℝ, x = (r : EReal) := by
  rw [Cert.Consts.ofBits_inf] at h
  unfold Ideal.cmp at h
  rw [StableHlo.Predicate.ofBool_eq_one_iff, decide_eq_true_eq] at h
  induction x using EReal.rec with
  | bot => simp at h
  | coe r => exact ⟨r, rfl⟩
  | top => simp at h

/-- A 32-bit word that is at least 0 and below 12, both signed, has unsigned value below 12. -/
theorem toNat_lt_of_signed (w : BitVec 32) (h0 : IntOp.cmpi .sge w 0#32 = 1#1) (h1 : IntOp.cmpi .slt w 12#32 = 1#1) :
    w.toNat < 12 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e12 : (12#32 : BitVec 32).toInt = 12 := by decide
  rw [e0] at h0; rw [e12] at h1
  have hw := w.isLt
  rw [BitVec.toInt_eq_toNat_cond] at h0 h1
  split at h0 <;> omega

/-! ## One array -/

/-- "All entries have absolute value below plus infinity", of any shape reduced over all its axes: every entry is a real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf a)
            (broadcastInDim s ![] hb (constant Cert.Pre_finite_inputs.S_ .f32 0x7F800000#32)))
          (constantI Cert.Pre_finite_inputs.S_ 1 1#1) hr h0 ix0 = 1#1)
    (i : s.Idx) : ∃ r : ℝ, a i = (r : EReal) :=
  real_of_abs_lt (a i) (Host.reduce_andi_all _ _ hr h0 ix0 e i)

/-- A rank-2 array of extended reals all of whose entries are reals is a real matrix read as extended reals. -/
theorem arr2_of_real {n0 n1 : Nat} (a : (⟨2, ![n0, n1]⟩ : Shape).Idx → EReal)
    (hfin : ∀ i, ∃ r : ℝ, a i = (r : EReal)) : ∃ X : Fin n0 → Fin n1 → ℝ, a = Cert.Spec.arr2 X := by
  refine ⟨fun p q => (a (ix2 p q)).toReal, funext fun i => ?_⟩
  obtain ⟨r, hr⟩ := hfin i
  have hi : a (ix2 (i 0) (i 1)) = (r : EReal) := (congrArg a (eq_ix2 i).symm).trans hr
  exact hr.trans ((congrArg (fun y : EReal => ((y.toReal : ℝ) : EReal)) hi).trans
    (congrArg (fun t : ℝ => (t : EReal)) (EReal.toReal_coe r))).symm

/-- A rank-1 array of extended reals all of whose entries are reals is a real vector read as extended reals. -/
theorem arr1_of_real {n : Nat} (a : (⟨1, ![n]⟩ : Shape).Idx → EReal)
    (hfin : ∀ i, ∃ r : ℝ, a i = (r : EReal)) : ∃ B : Fin n → ℝ, a = Cert.Spec.arr1 B := by
  refine ⟨fun p => (a (ix1 p)).toReal, funext fun i => ?_⟩
  obtain ⟨r, hr⟩ := hfin i
  have hi : a (ix1 (i 0)) = (r : EReal) := (congrArg a (eq_ix1 i).symm).trans hr
  exact hr.trans ((congrArg (fun y : EReal => ((y.toReal : ℝ) : EReal)) hi).trans
    (congrArg (fun t : ℝ => (t : EReal)) (EReal.toReal_coe r))).symm

/-! ## The predicate -/

/-- THE PRECONDITION DECODED: the four float arguments are real arrays and every label word is below 12. -/
theorem decode [Cert.Pre_finite_inputs.Facts]
    (a0 a1 : FVec Ideal Cert.Pre_finite_inputs.S8192x768 .f32) (a2 : IVec Cert.Pre_finite_inputs.S8192 32)
    (a3 : FVec Ideal Cert.Pre_finite_inputs.S12x768 .f32) (a4 : FVec Ideal Cert.Pre_finite_inputs.S12 .f32)
    (h : Cert.Pre_finite_inputs.fn (F := Ideal) a0 a1 a2 a3 a4 = fun _ => 1#1) :
    (∃ X : Fin 8192 → Fin 768 → ℝ, a0 = Cert.Spec.arr2 X) ∧ (∃ T : Fin 8192 → Fin 768 → ℝ, a1 = Cert.Spec.arr2 T)
    ∧ (∃ Wt : Fin 12 → Fin 768 → ℝ, a3 = Cert.Spec.arr2 Wt) ∧ (∃ B : Fin 12 → ℝ, a4 = Cert.Spec.arr1 B)
    ∧ (∀ r : Fin 8192, (a2 (Idealize.ShloMosaic.ValueIdx.ix1 r)).toNat < 12) := by
  have e := congrFun h ix0
  dsimp only [Cert.Pre_finite_inputs.fn, Cert.Pre_finite_inputs.fn_part1] at e
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  refine ⟨arr2_of_real a0 (all_real a0 _ _ _ e0), arr2_of_real a1 (all_real a1 _ _ _ e1),
    arr2_of_real a3 (all_real a3 _ _ _ e2), arr1_of_real a4 (all_real a4 _ _ _ e3), fun r => ?_⟩
  have er := Host.reduce_andi_all _ _ _ _ ix0 e4 (ix1 r)
  obtain ⟨hge, hlt⟩ := IntOp.andi_eq_one.1 er
  exact toNat_lt_of_signed _ hge hlt

/-- The same, with the labels named as a function of the row: the form in which the specification takes them. -/
theorem decode_lab [Cert.Pre_finite_inputs.Facts]
    (a0 a1 : FVec Ideal Cert.Pre_finite_inputs.S8192x768 .f32) (a2 : IVec Cert.Pre_finite_inputs.S8192 32)
    (a3 : FVec Ideal Cert.Pre_finite_inputs.S12x768 .f32) (a4 : FVec Ideal Cert.Pre_finite_inputs.S12 .f32)
    (h : Cert.Pre_finite_inputs.fn (F := Ideal) a0 a1 a2 a3 a4 = fun _ => 1#1) :
    ∃ (X T : Fin 8192 → Fin 768 → ℝ) (Wt : Fin 12 → Fin 768 → ℝ) (B : Fin 12 → ℝ),
      a0 = Cert.Spec.arr2 X ∧ a1 = Cert.Spec.arr2 T ∧ a3 = Cert.Spec.arr2 Wt ∧ a4 = Cert.Spec.arr1 B
      ∧ (∀ r : Fin 8192, (a2 (ix1 r)).toNat < 12)
      ∧ (∀ r : Fin 8192, ((Cert.Spec.cls (a2 (ix1 r)) : Fin 12) : Nat) = (a2 (ix1 r)).toNat) := by
  obtain ⟨⟨X, hX⟩, ⟨T, hT⟩, ⟨Wt, hW⟩, ⟨B, hB⟩, hl⟩ := decode a0 a1 a2 a3 a4 h
  exact ⟨X, T, Wt, B, hX, hT, hW, hB, hl, fun r => Nat.mod_eq_of_lt (hl r)⟩

end Cert.PreFacts

end
-- ==== Proof.KHost.lean ====
/-
  The host operations of the kernel program between and after its three calls, at the extended reals, over the
  buffers' contents at the boundaries: which buffers a stretch leaves as they were; the three changes of layout
  before the third call (the column of squared norms as a row, the labels as a column and as a row) read at an
  index; and the two scalars. A call leaves a 64 x 128 array whose entry depends only on the eighth its row falls
  in (eight blocks of 8 x 128, each filled with one value); its sum over all entries is 1024 times the sum of the
  eight values, so dividing by 1024 gives their sum, and the first scalar is that sum over 8192. The result is the
  two float weights times the two scalars, added. Also: the 8192 rows are eight blocks of 1024 rows.
-/
import proofs.«427818_j27788438405734_3_alg».proof.Proof.KFold
import proofs.«427818_j27788438405734_3_alg».proof.Proof.Consts
import proofs.«427818_j27788438405734_3_alg».proof.Proof.Gen.KernelIdeal.Regions
import proofs.«427818_j27788438405734_3_alg».proof.Proof.Spec
import Idealize.ShloMosaic.Lib.ValueIdx
import Idealize.ShloMosaic.Lib.Pipeline.Value
import Idealize.ShloMosaic.Lib.StableHlo.Run
import Idealize.ShloMosaic.PureOps.Ideal.Laws
import Mathlib.Data.EReal.Basic
import Mathlib.Data.EReal.Operations
import Mathlib.Algebra.BigOperators.Fin
import Mathlib.Algebra.BigOperators.Intervals
import Mathlib.Data.Real.Basic
import Mathlib.Logic.Equiv.Fin.Basic
import Mathlib.Tactic.NormNum
import Mathlib.Tactic.Ring

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem

/-! ## A buffer that no operation of a host stretch writes passes the stretch unchanged -/

section Skip

variable (V : Valuation τ sig (Elt Ideal))

theorem hostOps0_skip (r : Ref sig .tc) (h : r ∉ hostOps0_W) :
    StableHlo.after (hostOps0 (F := Ideal)) V (Proc.devRef .tc r) = V (Proc.devRef .tc r) :=
  StableHlo.after_of_writes_sub hostOps0 V hostOps0_writes h

theorem hostOps1_skip (r : Ref sig .tc) (h : r ∉ hostOps1_W) :
    StableHlo.after (hostOps1 (F := Ideal)) V (Proc.devRef .tc r) = V (Proc.devRef .tc r) :=
  StableHlo.after_of_writes_sub hostOps1 V hostOps1_writes h

theorem hostOps2_skip (r : Ref sig .tc) (h : r ∉ hostOps2_W) :
    StableHlo.after (hostOps2 (F := Ideal)) V (Proc.devRef .tc r) = V (Proc.devRef .tc r) :=
  StableHlo.after_of_writes_sub hostOps2 V hostOps2_writes h

theorem hostOps3_skip (r : Ref sig .tc) (h : r ∉ hostOps3_W) :
    StableHlo.after (hostOps3 (F := Ideal)) V (Proc.devRef .tc r) = V (Proc.devRef .tc r) :=
  StableHlo.after_of_writes_sub hostOps3 V hostOps3_writes h

end Skip

section Pass

variable (m : (ℓ : Loc nD τ sig) → Buf (Elt Ideal) ℓ) (c : Dev nD)

theorem W7_main_v2_0 : W7 m c (Proc.devRef .tc main_v2_0) = Hand.V2 m c main_v2_0 :=
  calc W7 m c (Proc.devRef .tc main_v2_0)
    _ = W6 m c (Proc.devRef .tc main_v2_0) := hostOps3_skip _ main_v2_0 (by decide)
    _ = W5 m c (Proc.devRef .tc main_v2_0) := W6_of_ne m c main_v2_0 (by decide)
    _ = W4 m c (Proc.devRef .tc main_v2_0) := hostOps2_skip _ main_v2_0 (by decide)
    _ = W3 m c (Proc.devRef .tc main_v2_0) := W4_of_ne m c main_v2_0 (by decide)
    _ = W2 m c (Proc.devRef .tc main_v2_0) := hostOps1_skip _ main_v2_0 (by decide)

theorem W7_main_v5 : W7 m c (Proc.devRef .tc main_v5) = W3 m c (Proc.devRef .tc main_v5) :=
  calc W7 m c (Proc.devRef .tc main_v5)
    _ = W6 m c (Proc.devRef .tc main_v5) := hostOps3_skip _ main_v5 (by decide)
    _ = W5 m c (Proc.devRef .tc main_v5) := W6_of_ne m c main_v5 (by decide)
    _ = W4 m c (Proc.devRef .tc main_v5) := hostOps2_skip _ main_v5 (by decide)
    _ = W3 m c (Proc.devRef .tc main_v5) := W4_of_ne m c main_v5 (by decide)

theorem V5_main_v6_0 : Hand.V5 m c main_v6_0 = Hand.V4 m c main_v6_0 := hostOps2_skip _ main_v6_0 (by decide)

theorem V5_main_v6_1 : Hand.V5 m c main_v6_1 = Hand.V4 m c main_v6_1 := hostOps2_skip _ main_v6_1 (by decide)

theorem V3_main_arg1_host : Hand.V3 m c main_arg1 = m ((c : Thread nD τ).loc main_arg1) :=
  calc Hand.V3 m c main_arg1
    _ = W2 m c (Proc.devRef .tc main_arg1) := hostOps1_skip _ main_arg1 (by decide)
    _ = W1 m c (Proc.devRef .tc main_arg1) := W2_of_ne m c main_arg1 (by decide)
    _ = W0 m c (Proc.devRef .tc main_arg1) := hostOps0_skip _ main_arg1 (by decide)
    _ = m ((c : Thread nD τ).loc main_arg1) := rfl

theorem W4_main_arg2 : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := hostOps1_skip _ main_arg2 (by decide)
    _ = W1 m c (Proc.devRef .tc main_arg2) := W2_of_ne m c main_arg2 (by decide)
    _ = W0 m c (Proc.devRef .tc main_arg2) := hostOps0_skip _ main_arg2 (by decide)
    _ = m ((c : Thread nD τ).loc main_arg2) := rfl

end Pass

/-! ## Three changes of layout read at an index -/

section Layout

variable {α : Type}

/-- A column read as a row: entry (0, j) of the row is entry (j, 0) of the column. -/
theorem host_col_as_row (x : S8192x1.Idx → α) (h : S8192x1.ShapeCasts S1x8192) (y : S1x8192.Idx) :
    shapeCast S1x8192 x h y = x (ix2 (n0 := 8192) (n1 := 1) (y 1) 0) := by
  refine shapeCast_apply x h y _ ?_
  rewrite [Shape.rowMajor_val_two, Shape.rowMajor_val_two]
  have h0 : (y 0).val < 1 := (y 0).isLt
  show (y 1).val * 1 + 0 = (y 0).val * 8192 + (y 1).val
  omega

/-- A vector read as a column. -/
theorem host_vec_as_col (x : S8192.Idx → α) (h : S8192.ShapeCasts S8192x1) (y : S8192x1.Idx) :
    shapeCast S8192x1 x h y = x (ix1 (n := 8192) (y 0)) := by
  refine shapeCast_apply x h y _ ?_
  rewrite [Shape.rowMajor_val_one, Shape.rowMajor_val_two]
  have h1 : (y 1).val < 1 := (y 1).isLt
  show (y 0).val = (y 0).val * 1 + (y 1).val
  omega

/-- A vector read as a row. -/
theorem host_vec_as_row (x : S8192.Idx → α) (h : S8192.ShapeCasts S1x8192) (y : S1x8192.Idx) :
    shapeCast S1x8192 x h y = x (ix1 (n := 8192) (y 1)) := by
  refine shapeCast_apply x h y _ ?_
  rewrite [Shape.rowMajor_val_one, Shape.rowMajor_val_two]
  have h0 : (y 0).val < 1 := (y 0).isLt
  show (y 1).val = (y 0).val * 8192 + (y 1).val
  omega

end Layout

section Reshapes

variable (m : (ℓ : Loc nD τ sig) → Buf (Elt Ideal) ℓ) (c : Dev nD)

/-- The column of squared norms re-laid as a row. -/
theorem V5_main_v7 :
    Hand.V5 m c main_v7 = fun y => Hand.V4 m c main_v6_1 (ix2 (n0 := 8192) (n1 := 1) (y 1) 0) := by
  show StableHlo.after (hostOps2 (F := Ideal)) (W4 m c) (Proc.devRef .tc main_v7) = _
  after_results
  funext y
  exact host_col_as_row _ _ y

/-- The labels as a column. -/
theorem V5_main_v8 :
    Hand.V5 m c main_v8 = fun y => (m ((c : Thread nD τ).loc main_arg2)) (ix1 (n := 8192) (y 0)) := by
  show StableHlo.after (hostOps2 (F := Ideal)) (W4 m c) (Proc.devRef .tc main_v8) = _
  after_results
  rw [W4_main_arg2]
  funext y
  exact host_vec_as_col _ _ y

/-- The labels as a row. -/
theorem V5_main_v9 :
    Hand.V5 m c main_v9 = fun y => (m ((c : Thread nD τ).loc main_arg2)) (ix1 (n := 8192) (y 1)) := by
  show StableHlo.after (hostOps2 (F := Ideal)) (W4 m c) (Proc.devRef .tc main_v9) = _
  after_results
  rw [W4_main_arg2]
  funext y
  exact host_vec_as_row _ _ y

end Reshapes

/-! ## The real arithmetic of the partial sums -/

section Arithmetic

/-- Sixty-four terms that depend only on the eighth the index falls in: each of the eight values counted eight times. -/
theorem sum_eighths (P : ℕ → ℝ) : ∑ a : Fin 64, P (a.val / 8) = 8 * ∑ i ∈ Finset.range 8, P i := by
  rw [Fin.sum_univ_eq_sum_range (fun a => P (a / 8)) 64]
  simp only [Finset.sum_range_succ, Finset.sum_range_zero]
  norm_num
  ring

/-- The same over a 64 x 128 array whose entry depends only on the eighth its row falls in. -/
theorem sum_part (P : ℕ → ℝ) :
    ∑ a : Fin 64, ∑ _b : Fin 128, P (a.val / 8) = 1024 * ∑ i ∈ Finset.range 8, P i := by
  simp only [Finset.sum_const, Finset.card_univ, Fintype.card_fin, nsmul_eq_mul]
  rw [← Finset.mul_sum, sum_eighths]
  norm_num
  ring

/-- The 8192 rows are eight blocks of 1024 rows. -/
theorem sum_blocks_fin (f : Fin 8192 → ℝ) :
    ∑ i : Fin 8, ∑ p : Fin 1024, f ⟨1024 * i.val + p.val, by have := i.isLt; have := p.isLt; omega⟩ = ∑ r : Fin 8192, f r := by
  rw [← Equiv.sum_comp (finProdFinEquiv (m := 8) (n := 1024)) f, Fintype.sum_prod_type]
  refine Finset.sum_congr rfl fun i _ => Finset.sum_congr rfl fun p _ => ?_
  refine congrArg f (Fin.ext ?_)
  show 1024 * i.val + p.val = p.val + 1024 * i.val
  omega

theorem sum_blocks (f : Fin 8192 → ℝ) :
    ∑ i ∈ Finset.range 8, ∑ p : Fin 1024, f ⟨(1024 * i + p.val) % 8192, Nat.mod_lt _ (by decide)⟩ = ∑ r : Fin 8192, f r := by
  rw [Finset.sum_range, ← sum_blocks_fin f]
  refine Finset.sum_congr rfl fun i _ => Finset.sum_congr rfl fun p _ => ?_
  refine congrArg f (Fin.ext ?_)
  have := i.isLt; have := p.isLt
  show (1024 * i.val + p.val) % 8192 = 1024 * i.val + p.val
  omega

/-- The coercion of a finite sum of reals is the sum of the coercions. -/
theorem host_coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The float sum over all of a 64 x 128 array of coerced reals that depend only on the eighth the row falls in,
    from the zero word. -/
theorem reduce_part (P : ℕ → ℝ) (i : S_.Idx) :
    Host.reduceAdd (F := Ideal) (φ := .f32) (fun idx : S64x128.Idx => ((P ((idx 0).val / 8) : ℝ) : EReal))
        (constant (F := Ideal) S_ .f32 0x00000000#32) reducesTo_S64x128_S_d0_1 h_S_ i
      = ((1024 * ∑ k ∈ Finset.range 8, P k : ℝ) : EReal) := by
  simp only [Host.reduceAdd, Ideal.hostReduceAdd_def]
  rw [Ideal.hostReduceAdd_total reducesTo_S64x128_S_d0_1 (fun b => b.elim0) _ _ i]
  show Ideal.ofBits .f32 0x00000000#32 + _ = _
  rw [Cert.Consts.ofBits_zero, zero_add, sum_idx2, ← sum_part, host_coe_sum]
  refine Finset.sum_congr rfl fun a _ => ?_
  rw [host_coe_sum]

end Arithmetic

section Scalars

variable (m : (ℓ : Loc nD τ sig) → Buf (Elt Ideal) ℓ) (c : Dev nD)

/-- The mean of the cross-entropy partial sums: the sum of the eight blocks' values over 8192. -/
theorem v5_of_part (P : ℕ → ℝ)
    (hP : Hand.V2 m c main_v2_1 = fun idx : S64x128.Idx => ((P ((idx 0).val / 8) : ℝ) : EReal)) :
    W3 m c (Proc.devRef .tc main_v5) = fun _ => (((∑ i ∈ Finset.range 8, P i) / 8192 : ℝ) : EReal) := by
  show StableHlo.after (hostOps1 (F := Ideal)) (W2 m c) (Proc.devRef .tc main_v5) = _
  after_results
  rw [show W2 m c (Proc.devRef .tc main_v2_1) = _ from hP]
  funext i
  show Ideal.div (Ideal.div (Host.reduceAdd (F := Ideal) (φ := .f32) _ _ reducesTo_S64x128_S_d0_1 h_S_ i)
      (Ideal.ofBits .f32 0x44800000#32)) (Ideal.ofBits .f32 0x46000000#32) = _
  rw [reduce_part, Cert.Consts.ofBits_1024, Cert.Consts.ofBits_8192, Ideal.div_coe (by norm_num),
    Ideal.div_coe (by norm_num), ← EReal.coe_mul, ← EReal.coe_mul]
  congr 1
  ring

/-- The returned scalar: the two weights times the mean above and the sum of the eight blocks' pair sums. -/
theorem v15_of_parts (a : ℝ) (Q : ℕ → ℝ)
    (h5 : W3 m c (Proc.devRef .tc main_v5) = fun _ => ((a : ℝ) : EReal))
    (hQ : Hand.V6 m c main_v10 = fun idx : S64x128.Idx => ((Q ((idx 0).val / 8) : ℝ) : EReal)) :
    W7 m c (Proc.devRef .tc main_v15)
      = fun _ => Ideal.ofBits .f32 0x3F666666#32 * ((a : ℝ) : EReal)
          + Ideal.ofBits .f32 0x3DCCCCCD#32 * (((∑ i ∈ Finset.range 8, Q i) : ℝ) : EReal) := by
  have e5 : W6 m c (Proc.devRef .tc main_v5) = fun _ => ((a : ℝ) : EReal) :=
    calc W6 m c (Proc.devRef .tc main_v5)
      _ = W5 m c (Proc.devRef .tc main_v5) := W6_of_ne m c main_v5 (by decide)
      _ = W4 m c (Proc.devRef .tc main_v5) := hostOps2_skip _ main_v5 (by decide)
      _ = W3 m c (Proc.devRef .tc main_v5) := W4_of_ne m c main_v5 (by decide)
      _ = _ := h5
  show StableHlo.after (hostOps3 (F := Ideal)) (W6 m c) (Proc.devRef .tc main_v15) = _
  after_results
  rw [e5, show W6 m c (Proc.devRef .tc main_v10) = _ from hQ]
  funext i
  show Ideal.ofBits .f32 0x3F666666#32 * ((a : ℝ) : EReal)
      + Ideal.ofBits .f32 0x3DCCCCCD#32 * Ideal.div (Host.reduceAdd (F := Ideal) (φ := .f32) _ _ reducesTo_S64x128_S_d0_1 h_S_ i)
          (Ideal.ofBits .f32 0x44800000#32) = _
  rw [reduce_part, Cert.Consts.ofBits_1024, Ideal.div_coe (by norm_num), ← EReal.coe_mul]
  congr 3
  ring

end Scalars

end Cert.KernelIdeal.Val

end
-- ==== Proof.KMath0.lean ====
/-
  Call 0's two blocks as real functions of the blocks they are computed from. For a block of 1024 feature rows `X0`,
  the twelve weight rows `Wt` and the bias `B`, all real, the first block is the 1024 x 12 matrix of logits
  `L p c = (∑ k, X0 p k * Wt c k) + B c`: the product contracts the 768 features of both operands and starts from
  zero, and the bias row is repeated down the rows. The second block is computed from that matrix row by row: the
  row's maximum (the maximum from the bottom element over twelve reals is the largest of them), the entries minus it,
  their exponentials, the sum of those (positive, so its logarithm is a real number), and the entries minus the
  maximum minus that logarithm, which is the row's log-softmax. The entry at the row's label is picked by comparing
  the column number with the label word: a label below 12 is the word of exactly one column, its class. The picked
  entries are added over the 1024 rows, and zero minus that sum fills the 8 x 128 block. Every stage of a matrix of
  coerced reals is again a matrix of coerced reals, so the block holds the coercion of one real number.
-/
import proofs.«427818_j27788438405734_3_alg».proof.Proof.KDefs
import proofs.«427818_j27788438405734_3_alg».proof.Proof.Spec
import proofs.«427818_j27788438405734_3_alg».proof.Proof.Consts
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Cert.KernelIdeal.Hand Idealize.ShloMosaic Idealize.ShloMosaic.ValueIdx
open Cert.Spec (arr1 arr2)

namespace K0

/-! ## The matrix product -/

/-- The first operand's index at output (p, c) and contraction position q: row p … -/
theorem lhs_logit_0 (i : S1024x12.Idx) (q : dot_S1024x768_S12x768_S1024x12_1_1_0_0_n_n.contr.Idx) :
    (dot_S1024x768_S12x768_S1024x12_1_1_0_0_n_n.lhsIdx i q 0).val = (i 0).val := by
  unfold DotDims.lhsIdx
  rw [dif_neg (show ¬(0 : Fin S1024x768.rank) ∈ dot_S1024x768_S12x768_S1024x12_1_1_0_0_n_n.lhsBatch by decide), dif_pos (show (0 : Fin S1024x768.rank) ∈ dot_S1024x768_S12x768_S1024x12_1_1_0_0_n_n.lhsNonContracting by decide)]
  rfl
/-- … and feature q. -/
theorem lhs_logit_1 (i : S1024x12.Idx) (q : dot_S1024x768_S12x768_S1024x12_1_1_0_0_n_n.contr.Idx) :
    (dot_S1024x768_S12x768_S1024x12_1_1_0_0_n_n.lhsIdx i q 1).val = (q ⟨0, by decide⟩).val :=
  dot_S1024x768_S12x768_S1024x12_1_1_0_0_n_n.lhsIdx_val_of_single rfl i q
/-- The second operand's index at output (p, c) and contraction position q: row c … -/
theorem rhs_logit_0 (i : S1024x12.Idx) (q : dot_S1024x768_S12x768_S1024x12_1_1_0_0_n_n.contr.Idx) :
    (dot_S1024x768_S12x768_S1024x12_1_1_0_0_n_n.rhsIdx i q 0).val = (i 1).val := by
  unfold DotDims.rhsIdx
  rw [dif_neg (show ¬(0 : Fin S12x768.rank) ∈ dot_S1024x768_S12x768_S1024x12_1_1_0_0_n_n.rhsBatch by decide), dif_pos (show (0 : Fin S12x768.rank) ∈ dot_S1024x768_S12x768_S1024x12_1_1_0_0_n_n.rhsNonContracting by decide)]
  rfl
/-- … and feature q. -/
theorem rhs_logit_1 (i : S1024x12.Idx) (q : dot_S1024x768_S12x768_S1024x12_1_1_0_0_n_n.contr.Idx) :
    (dot_S1024x768_S12x768_S1024x12_1_1_0_0_n_n.rhsIdx i q 1).val = (q ⟨0, by decide⟩).val :=
  dot_S1024x768_S12x768_S1024x12_1_1_0_0_n_n.rhsIdx_val_of_single rfl i q

/-- The product into the zero accumulator at row p and class c: the inner product of row p of the first operand with row c of the second. -/
theorem matmul_logit_at (x : FVec Ideal S1024x768 .f32) (w : FVec Ideal S12x768 .f32) (p : Fin 1024) (c : Fin 12) :
    matmul dot_S1024x768_S12x768_S1024x12_1_1_0_0_n_n (some .fp32) x w (constant (F := Ideal) S1024x12 .f32 0x00000000#32) (ix2 p c)
      = ∑ k : Fin 768, x (ix2 p k) * w (ix2 c k) := by
  simp only [matmul]
  rw [Ideal.matmul_constant_zero_apply, ← Equiv.sum_comp (ValueIdx.contrEquiv1 dot_S1024x768_S12x768_S1024x12_1_1_0_0_n_n 768 rfl rfl).symm]
  refine Finset.sum_congr rfl fun k _ => ?_
  have hk := ValueIdx.contrEquiv1_symm_val dot_S1024x768_S12x768_S1024x12_1_1_0_0_n_n 768 rfl rfl k
  have el : dot_S1024x768_S12x768_S1024x12_1_1_0_0_n_n.lhsIdx (ix2 p c) ((ValueIdx.contrEquiv1 dot_S1024x768_S12x768_S1024x12_1_1_0_0_n_n 768 rfl rfl).symm k) = ix2 p k := funext fun a => Fin.ext (by
    match a with
    | ⟨0, _⟩ => exact lhs_logit_0 _ _
    | ⟨1, _⟩ => exact (lhs_logit_1 _ _).trans hk)
  have er : dot_S1024x768_S12x768_S1024x12_1_1_0_0_n_n.rhsIdx (ix2 p c) ((ValueIdx.contrEquiv1 dot_S1024x768_S12x768_S1024x12_1_1_0_0_n_n 768 rfl rfl).symm k) = ix2 c k := funext fun a => Fin.ext (by
    match a with
    | ⟨0, _⟩ => exact rhs_logit_0 _ _
    | ⟨1, _⟩ => exact (rhs_logit_1 _ _).trans hk)
  rw [el, er]

/-! ## Real numbers inside the extended reals -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The logits block -/

/-- The logits block at row p and class c: the inner product plus the bias entry of class c. -/
theorem pay1_at (x : Vec Ideal S1024x768 .f32) (w : Vec Ideal S12x768 .f32) (b : Vec Ideal S1x12 .f32) (p : Fin 1024) (c : Fin 12) :
    k0_pay1 (F := Ideal) x w b (ix2 p c) = (∑ k : Fin 768, x (ix2 p k) * w (ix2 c k)) + b (ix2 0 c) := by
  unfold k0_pay1
  rw [addf_apply, matmul_logit_at, shapeCast_self]
  refine congrArg (_ + ·) ?_
  exact broadcastTo_apply b broadcasts_S1x12_S1024x12 (ix2 p c) (ix2 0 c) (fun a => by
    match a with
    | ⟨0, _⟩ => rfl
    | ⟨1, _⟩ => rfl)

end K0

open K0

/-- The logits block of real blocks is the real matrix of logits. -/
theorem logitBlk_real (X0 : Fin 1024 → Fin 768 → ℝ) (Wt : Fin 12 → Fin 768 → ℝ) (B : Fin 12 → ℝ) :
    logitBlk (F := Ideal) (Cert.Spec.arr2 X0) (Cert.Spec.arr2 Wt) (fun i => ((B (i 1) : ℝ) : EReal))
      = Cert.Spec.arr2 (fun p c => (∑ k : Fin 768, X0 p k * Wt c k) + B c) := by
  funext j
  obtain ⟨p, c, rfl⟩ : ∃ (p : Fin 1024) (c : Fin 12), j = ix2 p c := ⟨j 0, j 1, eq_ix2 j⟩
  unfold logitBlk
  rw [pay1_at]
  show (∑ k : Fin 768, ((X0 p k : ℝ) : EReal) * ((Wt c k : ℝ) : EReal)) + ((B c : ℝ) : EReal) = (((∑ k : Fin 768, X0 p k * Wt c k) + B c : ℝ) : EReal)
  rw [EReal.coe_add, coe_sum]
  refine congrArg (· + _) (Finset.sum_congr rfl fun k _ => ?_)
  rw [EReal.coe_mul]

namespace K0

/-- The coercion commutes with the maximum of two reals. -/
theorem coe_max (x y : ℝ) : ((max x y : ℝ) : EReal) = max (x : EReal) (y : EReal) :=
  EReal.coe_strictMono.monotone.map_max

/-- The maximum from the bottom element over a nonempty finite family of coerced reals is the coercion of the family's largest member. -/
theorem fold_max_coe {ι : Type*} (s : Finset ι) (hs : s.Nonempty) (f : ι → ℝ) :
    s.fold max (⊥ : EReal) (fun i => ((f i : ℝ) : EReal)) = ((s.sup' hs f : ℝ) : EReal) := by
  classical
  induction hs using Finset.Nonempty.cons_induction with
  | singleton a => rw [Finset.fold_singleton, Finset.sup'_singleton]; exact max_bot_right _
  | cons a s ha hs ih => rw [Finset.fold_cons, Finset.sup'_cons hs, ih]; exact (coe_max _ _).symm

/-! ## Layout operations of the second block, read at an index -/

section Layout
variable {α : Type}

/-- A vector of 1024 entries viewed as a column: entry p. -/
theorem col_at (v : S1024.Idx → α) (p : Fin 1024) (z : Fin 1) :
    shapeCast S1024x1 v shapeCasts_S1024_S1024x1 (ix2 p z) = v (ix1 p) :=
  shapeCast_apply v shapeCasts_S1024_S1024x1 (ix2 p z) (ix1 p) (by
    rw [Shape.rowMajor_val_two, Shape.rowMajor_val_one]
    show p.val = p.val * 1 + z.val
    have := z.isLt
    omega)

/-- A column spread over the twelve classes: entry p of the column. -/
theorem spread_at (v : S1024x1.Idx → α) (p : Fin 1024) (c : Fin 12) :
    broadcastTo S1024x12 v broadcasts_S1024x1_S1024x12 (ix2 p c) = v (ix2 p 0) :=
  broadcastTo_apply v broadcasts_S1024x1_S1024x12 (ix2 p c) (ix2 p 0) (fun a => by
    match a with
    | ⟨0, _⟩ => rfl
    | ⟨1, _⟩ => rfl)

/-- A one-entry vector viewed as a one-by-one matrix. -/
theorem one_at (v : S1.Idx → α) (a b : Fin 1) :
    shapeCast S1x1 v shapeCasts_S1_S1x1 (ix2 a b) = v (ix1 0) :=
  shapeCast_apply v shapeCasts_S1_S1x1 (ix2 a b) (ix1 0) (by
    rw [Shape.rowMajor_val_two, Shape.rowMajor_val_one]
    show (0 : ℕ) = a.val * 1 + b.val
    have := a.isLt
    have := b.isLt
    omega)

/-- A one-by-one matrix spread over an 8 x 128 block: its one entry everywhere. -/
theorem fill_at (v : S1x1.Idx → α) (j : S8x128.Idx) :
    broadcastTo S8x128 v broadcasts_S1x1_S8x128 j = v (ix2 0 0) :=
  broadcastTo_apply v broadcasts_S1x1_S8x128 j (ix2 0 0) (fun a => by
    match a with
    | ⟨0, _⟩ => rfl
    | ⟨1, _⟩ => rfl)

end Layout

/-! ## The reductions of the second block, read at an index -/

/-- The maximum along the classes, at row p: the maximum from the bottom element over the row's twelve entries. -/
theorem rowmax_at (v : FVec Ideal S1024x12 .f32) (p : Fin 1024) :
    multiReduction (F := Ideal) .maximumf [1] S1024 v 0xFF800000#32 reduces_S1024x12_S1024 (.inl rfl) rfl (ix1 p)
      = (Finset.univ : Finset (Fin 12)).fold max (⊥ : EReal) (fun c => v (ix2 p c)) := by
  refine (Ideal.multiReduction_maximumf_single v _ reduces_S1024x12_S1024 (.inl rfl) rfl (ix1 p)).trans ?_
  show (Finset.univ : Finset (Fin 12)).fold max (Ideal.ofBits .f32 0xFF800000#32) (fun c => v (reduces_S1024x12_S1024.lift (ix1 p) c)) = _
  rw [Cert.Consts.ofBits_neg_inf]
  refine congrArg (fun g => Finset.fold max (⊥ : EReal) g (Finset.univ : Finset (Fin 12))) (funext fun c => congrArg v ?_)
  exact funext fun a => Fin.ext (by match a with | ⟨0, _⟩ => rfl | ⟨1, _⟩ => rfl)

/-- The sum along the classes, at row p. -/
theorem rowsum_at (v : FVec Ideal S1024x12 .f32) (p : Fin 1024) :
    multiReduction (F := Ideal) .add [1] S1024 v 0x00000000#32 reduces_S1024x12_S1024 (.inl rfl) rfl (ix1 p)
      = ∑ c : Fin 12, v (ix2 p c) := by
  refine (Ideal.multiReduction_add_single v _ reduces_S1024x12_S1024 (.inl rfl) rfl (ix1 p)).trans ?_
  refine Finset.sum_congr rfl fun c _ => congrArg v ?_
  exact funext fun a => Fin.ext (by match a with | ⟨0, _⟩ => rfl | ⟨1, _⟩ => rfl)

/-- The sum of a column over its 1024 rows. -/
theorem colsum_at (v : FVec Ideal S1024x1 .f32) (z : Fin 1) :
    multiReduction (F := Ideal) .add [0] S1 v 0x00000000#32 reduces_S1024x1_S1 (.inl rfl) rfl (ix1 z)
      = ∑ p : Fin 1024, v (ix2 p z) := by
  refine (Ideal.multiReduction_add_single v _ reduces_S1024x1_S1 (.inl rfl) rfl (ix1 z)).trans ?_
  refine Finset.sum_congr rfl fun p _ => congrArg v ?_
  exact funext fun a => Fin.ext (by match a with | ⟨0, _⟩ => rfl | ⟨1, _⟩ => rfl)

/-! ## The same operations on real matrices read as arrays -/

/-- The row maxima of a real matrix. -/
theorem rowmax_arr (L : Fin 1024 → Fin 12 → ℝ) :
    multiReduction (F := Ideal) .maximumf [1] S1024 (arr2 L) 0xFF800000#32 reduces_S1024x12_S1024 (.inl rfl) rfl
      = arr1 (fun p => Cert.Spec.rowMax (L p)) := by
  funext j
  obtain ⟨p, rfl⟩ : ∃ p : Fin 1024, j = ix1 p := ⟨j 0, eq_ix1 j⟩
  rw [rowmax_at]
  exact fold_max_coe Finset.univ Finset.univ_nonempty (L p)

/-- A real vector as a column. -/
theorem col_arr (f : Fin 1024 → ℝ) :
    shapeCast S1024x1 (arr1 f) shapeCasts_S1024_S1024x1 = arr2 (fun p (_ : Fin 1) => f p) := by
  funext j
  obtain ⟨p, z, rfl⟩ : ∃ (p : Fin 1024) (z : Fin 1), j = ix2 p z := ⟨j 0, j 1, eq_ix2 j⟩
  exact col_at _ p z

/-- A real column repeated over the twelve classes. -/
theorem spread_arr (g : Fin 1024 → Fin 1 → ℝ) :
    broadcastTo S1024x12 (arr2 g) broadcasts_S1024x1_S1024x12 = arr2 (fun p (_ : Fin 12) => g p 0) := by
  funext j
  obtain ⟨p, c, rfl⟩ : ∃ (p : Fin 1024) (c : Fin 12), j = ix2 p c := ⟨j 0, j 1, eq_ix2 j⟩
  exact spread_at _ p c

/-- The difference of two real matrices. -/
theorem sub_arr {n0 n1 : Nat} (f g : Fin n0 → Fin n1 → ℝ) :
    subf (F := Ideal) (φ := .f32) (arr2 f) (arr2 g) = arr2 (fun p c => f p c - g p c) :=
  funext fun j => (EReal.coe_sub _ _).symm

/-- The exponential of a real matrix. -/
theorem exp_arr {n0 n1 : Nat} (f : Fin n0 → Fin n1 → ℝ) :
    exp (F := Ideal) (φ := .f32) (arr2 f) = arr2 (fun p c => Real.exp (f p c)) :=
  funext fun j => rfl

/-- The row sums of a real matrix. -/
theorem rowsum_arr (f : Fin 1024 → Fin 12 → ℝ) :
    multiReduction (F := Ideal) .add [1] S1024 (arr2 f) 0x00000000#32 reduces_S1024x12_S1024 (.inl rfl) rfl
      = arr1 (fun p => ∑ c : Fin 12, f p c) := by
  funext j
  obtain ⟨p, rfl⟩ : ∃ p : Fin 1024, j = ix1 p := ⟨j 0, eq_ix1 j⟩
  rw [rowsum_at]
  exact (coe_sum Finset.univ (f p)).symm

/-- The logarithm of a column of sums of exponentials: every such sum is positive. -/
theorem log_sumexp_arr (f : Fin 1024 → Fin 12 → ℝ) :
    log (F := Ideal) (φ := .f32) (arr2 (fun p (_ : Fin 1) => ∑ c : Fin 12, Real.exp (f p c)))
      = arr2 (fun p (_ : Fin 1) => Real.log (∑ c : Fin 12, Real.exp (f p c))) := by
  funext j
  have hpos : 0 < ∑ c : Fin 12, Real.exp (f (j 0) c) := Finset.sum_pos (fun c _ => Real.exp_pos _) Finset.univ_nonempty
  show Ideal.log ((∑ c : Fin 12, Real.exp (f (j 0) c) : ℝ) : EReal) = _
  rw [Ideal.log_coe, if_neg (not_le.mpr hpos)]
  rfl

/-- The sum of a real column. -/
theorem colsum_arr (g : Fin 1024 → Fin 1 → ℝ) :
    multiReduction (F := Ideal) .add [0] S1 (arr2 g) 0x00000000#32 reduces_S1024x1_S1 (.inl rfl) rfl
      = arr1 (fun z : Fin 1 => ∑ p : Fin 1024, g p z) := by
  funext j
  obtain ⟨z, rfl⟩ : ∃ z : Fin 1, j = ix1 z := ⟨j 0, eq_ix1 j⟩
  rw [colsum_at]
  exact (coe_sum Finset.univ (fun p => g p z)).symm

/-- A one-entry real vector as a one-by-one matrix. -/
theorem one_arr (h : Fin 1 → ℝ) :
    shapeCast S1x1 (arr1 h) shapeCasts_S1_S1x1 = arr2 (fun (_ _ : Fin 1) => h 0) := by
  funext j
  obtain ⟨a, b, rfl⟩ : ∃ (a b : Fin 1), j = ix2 a b := ⟨j 0, j 1, eq_ix2 j⟩
  exact one_at _ a b

/-- Zero minus a real matrix. -/
theorem neg_arr {n0 n1 : Nat} (g : Fin n0 → Fin n1 → ℝ) :
    subf (F := Ideal) (φ := .f32) (broadcast (⟨2, ![n0, n1]⟩ : Shape) (Scalar.ofBits (F := Ideal) .f32 0x00000000#32)) (arr2 g)
      = arr2 (fun a b => -(g a b)) := by
  funext j
  show Ideal.ofBits .f32 0x00000000#32 - ((g (j 0) (j 1) : ℝ) : EReal) = ((-(g (j 0) (j 1)) : ℝ) : EReal)
  rw [Cert.Consts.ofBits_zero, zero_sub, EReal.coe_neg]

/-- A one-by-one real matrix repeated over the 8 x 128 block. -/
theorem fill_arr (g : Fin 1 → Fin 1 → ℝ) :
    broadcastTo S8x128 (arr2 g) broadcasts_S1x1_S8x128 = fun _ => ((g 0 0 : ℝ) : EReal) :=
  funext fun j => fill_at _ j

/-! ## The label's class among the twelve -/

/-- A class number has the label's word exactly when it is the label's class, for a label below 12. -/
theorem ofNat_eq_iff_cls (c : Fin 12) (w : BitVec 32) (hw : w.toNat < 12) :
    BitVec.ofNat 32 c.val = w ↔ c = Cert.Spec.cls w := by
  constructor
  · intro h
    apply Fin.ext
    show c.val = w.toNat % 12
    have h' := congrArg BitVec.toNat h
    rw [BitVec.toNat_ofNat] at h'
    have := c.isLt
    omega
  · intro h
    subst h
    apply BitVec.eq_of_toNat_eq
    rw [BitVec.toNat_ofNat]
    show w.toNat % 12 % 2 ^ 32 = w.toNat
    omega

/-- Keeping an entry where the column number is the row's label and zero elsewhere. -/
theorem onehot_arr (f : Fin 1024 → Fin 12 → ℝ) (l : S1024x1.Idx → BitVec 32) (hl : ∀ p : Fin 1024, (l (ix2 p 0)).toNat < 12) :
    select (cmpi .eq (iota .tc S1024x12 32 [1] iota_S1024x12_d1_w32)
        (broadcastTo S1024x12 l broadcasts_S1024x1_S1024x12))
      (arr2 f) (broadcast S1024x12 (Scalar.ofBits (F := Ideal) .f32 0x00000000#32))
      = arr2 (fun p c => if c = Cert.Spec.cls (l (ix2 p 0)) then f p c else 0) := by
  funext j
  obtain ⟨p, c, rfl⟩ : ∃ (p : Fin 1024) (c : Fin 12), j = ix2 p c := ⟨j 0, j 1, eq_ix2 j⟩
  show Scalar.select (IntOp.cmpi .eq (iota .tc S1024x12 32 [1] iota_S1024x12_d1_w32 (ix2 p c))
      (broadcastTo S1024x12 l broadcasts_S1024x1_S1024x12 (ix2 p c)))
      ((f p c : ℝ) : EReal) (Ideal.ofBits .f32 0x00000000#32)
    = (((if c = Cert.Spec.cls (l (ix2 p 0)) then f p c else 0) : ℝ) : EReal)
  rw [iota_single_apply, spread_at, Cert.Consts.ofBits_zero]
  show Scalar.select (IntOp.cmpi .eq (BitVec.ofNat 32 c.val) (l (ix2 p 0))) ((f p c : ℝ) : EReal) 0 = _
  by_cases h : c = Cert.Spec.cls (l (ix2 p 0))
  · have hw : BitVec.ofNat 32 c.val = l (ix2 p 0) := (ofNat_eq_iff_cls c _ (hl p)).mpr h
    rw [if_pos h, hw]
    have : IntOp.cmpi .eq (l (ix2 p 0)) (l (ix2 p 0)) = 1#1 := by simp [IntOp.cmpi]
    rw [this]
    exact select_one _ _
  · have hw : BitVec.ofNat 32 c.val ≠ l (ix2 p 0) := fun e => h ((ofNat_eq_iff_cls c _ (hl p)).mp e)
    rw [if_neg h]
    have : IntOp.cmpi .eq (BitVec.ofNat 32 c.val) (l (ix2 p 0)) = 0#1 := by
      show BitVec.ofBool (BitVec.ofNat 32 c.val == l (ix2 p 0)) = 0#1
      rw [beq_eq_false_iff_ne.mpr hw]; rfl
    rw [this]
    exact (select_zero _ _).trans EReal.coe_zero.symm

end K0

/-! ## The partial-sum block -/

/-- The partial-sum block of real blocks and labels below 12: everywhere minus the sum, over the 1024 rows, of the row's
    log-softmax at the row's label. -/
theorem partBlk_real (X0 : Fin 1024 → Fin 768 → ℝ) (Wt : Fin 12 → Fin 768 → ℝ) (B : Fin 12 → ℝ) (l : S1024x1.Idx → BitVec 32)
    (hl : ∀ p : Fin 1024, (l (ix2 p 0)).toNat < 12) :
    partBlk (F := Ideal) (arr2 X0) (arr2 Wt) (fun i => ((B (i 1) : ℝ) : EReal)) l
      = fun _ => ((-(∑ p : Fin 1024, Cert.Spec.logp (fun c => (∑ k : Fin 768, X0 p k * Wt c k) + B c) (Cert.Spec.cls (l (ix2 p 0)))) : ℝ) : EReal) := by
  have e1 := logitBlk_real X0 Wt B
  unfold logitBlk at e1
  unfold partBlk k0_pay2
  simp only [e1, shapeCast_self]
  rw [rowmax_arr, col_arr, spread_arr, sub_arr, exp_arr, rowsum_arr, col_arr, log_sumexp_arr, spread_arr, sub_arr,
    onehot_arr _ l hl, rowsum_arr, col_arr, colsum_arr, one_arr, neg_arr, fill_arr]
  refine funext fun _ => congrArg (fun r : ℝ => ((-r : ℝ) : EReal)) (Finset.sum_congr rfl fun p _ => ?_)
  rw [Finset.sum_ite_eq' Finset.univ, if_pos (Finset.mem_univ _)]
  rfl

end Cert.KernelIdeal.Val

end
-- ==== Proof.KVal0.lean ====
/-
  What call 0 leaves in its two result arrays, as functions of the launch memory. Call 0 is entered after two
  reshapes (the bias into a row, the labels into a column); at point t it reads rows [1024 t, 1024 t + 1024) of the
  features and of the labels, all of the weights and of the bias row, and writes back rows [1024 t, 1024 t + 1024) of
  the logits array and rows [8 t, 8 t + 8) of a [64, 128] array of partial sums. Every point writes back, and the
  points' blocks cover each result array, so each array ends as one function of the launch arrays: the logits array as
  the specification's logits, the partial-sum array with rows [8 t, 8 t + 8) filled with minus the sum over block t's
  rows of the log-softmax of the row's logits at the row's label.
-/
import proofs.«427818_j27788438405734_3_alg».proof.Proof.KFold
import proofs.«427818_j27788438405734_3_alg».proof.Proof.Body01
import proofs.«427818_j27788438405734_3_alg».proof.Proof.KMath0
import proofs.«427818_j27788438405734_3_alg».proof.Proof.Spec

set_option maxRecDepth 16384

noncomputable section

namespace Cert.KernelIdeal.Val

open Cert.KernelIdeal Cert.KernelIdeal.Gen Cert.KernelIdeal.Hand
open Idealize.ShloMosaic Idealize.ShloMosaic.ValueIdx
open Idealize.ShloMosaic.TcCoe Idealize.SL.Sem
open Idealize.ShloMosaic.Pipeline (Dat)

section Entry

variable (m : (ℓ : Loc nD τ sig) → Buf (Elt Ideal) ℓ) (c : Dev nD)

/-! ## What call 0 is entered with

The host operations before it are two reshapes, of the bias into a row and of the labels into a column; the features and
the weights are as launched. -/

theorem entry_feat : V1 (F := Ideal) m c main_arg0 = m ((c : Thread nD τ).loc main_arg0) := by
  show StableHlo.after hostOps0 (W0 m c) (Proc.devRef .tc main_arg0) = _
  after_results

theorem entry_wgt : V1 (F := Ideal) m c main_arg3 = m ((c : Thread nD τ).loc main_arg3) := by
  show StableHlo.after hostOps0 (W0 m c) (Proc.devRef .tc main_arg3) = _
  after_results

/-- The bias as a row: entry (0, q) is entry q. -/
theorem entry_bias : (V1 (F := Ideal) m c main_v0 : S1x12.Idx → EReal)
    = fun y => (m ((c : Thread nD τ).loc main_arg4) : S12.Idx → EReal) (ix1 (y 1)) := by
  show StableHlo.after hostOps0 (W0 m c) (Proc.devRef .tc main_v0) = _
  after_results
  funext y
  show shapeCast S1x12 (m ((c : Thread nD τ).loc main_arg4) : S12.Idx → EReal) shapeCasts_S12_S1x12 y = _
  have e1 : (S12.rowMajor (ix1 (y 1))).val = (y 1).val := Shape.rowMajor_val_one (d := ![12]) (ix1 (y 1))
  have e2 : (S1x12.rowMajor y).val = (y 0).val * 12 + (y 1).val := Shape.rowMajor_val_two (d := ![1, 12]) y
  have h0 : (y 0).val < 1 := (y 0).isLt
  exact shapeCast_apply (s := S12) (t := S1x12) _ _ y (ix1 (y 1)) (e1.trans ((by omega : (y 1).val = (y 0).val * 12 + (y 1).val).trans e2.symm))

/-- The labels as a column: entry (p, 0) is entry p. -/
theorem entry_lab : (V1 (F := Ideal) m c main_v1 : S8192x1.Idx → BitVec 32)
    = fun y => (m ((c : Thread nD τ).loc main_arg2) : S8192.Idx → BitVec 32) (ix1 (y 0)) := by
  show StableHlo.after hostOps0 (W0 m c) (Proc.devRef .tc main_v1) = _
  after_results
  funext y
  show shapeCast S8192x1 (m ((c : Thread nD τ).loc main_arg2) : S8192.Idx → BitVec 32) shapeCasts_S8192_S8192x1 y = _
  have e1 : (S8192.rowMajor (ix1 (y 0))).val = (y 0).val := Shape.rowMajor_val_one (d := ![8192]) (ix1 (y 0))
  have e2 : (S8192x1.rowMajor y).val = (y 0).val * 1 + (y 1).val := Shape.rowMajor_val_two (d := ![8192, 1]) y
  have h1 : (y 1).val < 1 := (y 1).isLt
  exact shapeCast_apply (s := S8192) (t := S8192x1) _ _ y (ix1 (y 0)) (e1.trans ((by omega : (y 0).val = (y 0).val * 1 + (y 1).val).trans e2.symm))

end Entry

section Arrays

variable (m : (ℓ : Loc nD τ sig) → Buf (Elt Ideal) ℓ) (c : Dev nD)

/-! ## The blocks a point reads and writes, as rows of the arrays -/

/-- A point is below 8. -/
theorem pt0_lt (t : Fin cfg0.N) : t.val < 8 := Nat.lt_of_lt_of_eq t.isLt N_0

/-- Row `p` of the block of 1024 rows at point `t`. -/
def rowAt0 (t : Fin cfg0.N) (p : Fin 1024) : Fin 8192 := ⟨1024 * t.val + p.val, by have := pt0_lt t; have := p.isLt; omega⟩

/-- Where each window's block sits at point `t`: the row blocks at block `t`, the whole arrays at block 0. -/
theorem blk0_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The features' block at point `t`: rows 1024 t + p of the launch array. -/
theorem feat_blk (t : Fin cfg0.N) (y : S1024x768.Idx) :
    (xblk (V1 (F := Ideal) m) c 0 t : Vec Ideal S1024x768 .f32) y
      = (m ((c : Thread nD τ).loc main_arg0) : S8192x768.Idx → EReal) (ix2 (rowAt0 t (y 0)) (y 1)) := by
  unfold xblk
  rw [View.read_apply]
  show V1 (F := Ideal) m c main_arg0 (((cfg0.win 0).blk t).view.emb y) = _
  rw [entry_feat]
  congr 1
  funext a
  apply Fin.ext
  obtain ⟨e0, e1, -⟩ := blk0_at t
  match a with
  | ⟨0, _⟩ => show win0_0.index t (0 : Fin 2) * 1024 + 1 * (y 0).val = 1024 * t.val + (y 0).val; rw [e0]; omega
  | ⟨1, _⟩ => show win0_0.index t (1 : Fin 2) * 768 + 1 * (y 1).val = (y 1).val; rw [e1]; omega

/-- The weights' block at every point: the whole launch array. -/
theorem wgt_blk (t : Fin cfg0.N) (y : S12x768.Idx) :
    (xblk (V1 (F := Ideal) m) c 1 t : Vec Ideal S12x768 .f32) y
      = (m ((c : Thread nD τ).loc main_arg3) : S12x768.Idx → EReal) y := by
  unfold xblk
  rw [View.read_apply]
  show V1 (F := Ideal) m c main_arg3 (((cfg0.win 1).blk t).view.emb y) = _
  rw [entry_wgt]
  congr 1
  funext a
  apply Fin.ext
  obtain ⟨-, -, e0, e1, -⟩ := blk0_at t
  match a with
  | ⟨0, _⟩ => show win0_1.index t (0 : Fin 2) * 12 + 1 * (y 0).val = (y 0).val; rw [e0]; omega
  | ⟨1, _⟩ => show win0_1.index t (1 : Fin 2) * 768 + 1 * (y 1).val = (y 1).val; rw [e1]; omega

/-- The bias row's block at every point: entry (0, q) is entry q of the launch bias. -/
theorem bias_blk (t : Fin cfg0.N) (y : S1x12.Idx) :
    (xblk (V1 (F := Ideal) m) c 2 t : Vec Ideal S1x12 .f32) y
      = (m ((c : Thread nD τ).loc main_arg4) : S12.Idx → EReal) (ix1 (y 1)) := by
  unfold xblk
  rw [View.read_apply]
  show (V1 (F := Ideal) m c main_v0 : S1x12.Idx → EReal) (((cfg0.win 2).blk t).view.emb y) = _
  rw [entry_bias]
  show (m ((c : Thread nD τ).loc main_arg4) : S12.Idx → EReal) (ix1 ((((cfg0.win 2).blk t).view.emb y) 1)) = _
  congr 2
  apply Fin.ext
  obtain ⟨-, -, -, -, e0, e1, -⟩ := blk0_at t
  show win0_2.index t (1 : Fin 2) * 12 + 1 * (y 1).val = (y 1).val
  rw [e1]; omega

/-- The labels' block at point `t`: entry (p, 0) is label 1024 t + p. -/
theorem lab_blk (t : Fin cfg0.N) (y : S1024x1.Idx) :
    (xblk (V1 (F := Ideal) m) c 3 t : S1024x1.Idx → BitVec 32) y
      = (m ((c : Thread nD τ).loc main_arg2) : S8192.Idx → BitVec 32) (ix1 (rowAt0 t (y 0))) := by
  unfold xblk
  rw [View.read_apply]
  show (V1 (F := Ideal) m c main_v1 : S8192x1.Idx → BitVec 32) (((cfg0.win 3).blk t).view.emb y) = _
  rw [entry_lab]
  show (m ((c : Thread nD τ).loc main_arg2) : S8192.Idx → BitVec 32) (ix1 ((((cfg0.win 3).blk t).view.emb y) 0)) = _
  congr 2
  apply Fin.ext
  obtain ⟨-, -, -, -, -, -, e0, e1, -⟩ := blk0_at t
  show win0_3.index t (0 : Fin 2) * 1024 + 1 * (y 0).val = 1024 * t.val + (y 0).val
  rw [e0]; omega

end Arrays

section Results

variable (m : (ℓ : Loc nD τ sig) → Buf (Elt Ideal) ℓ) (c : Dev nD)
variable (X : Fin 8192 → Fin 768 → ℝ) (Wt : Fin 12 → Fin 768 → ℝ) (B : Fin 12 → ℝ)
variable (h0 : m ((c : Thread nD τ).loc main_arg0) = Cert.Spec.arr2 X)
variable (h3 : m ((c : Thread nD τ).loc main_arg3) = Cert.Spec.arr2 Wt)
variable (h4 : m ((c : Thread nD τ).loc main_arg4) = Cert.Spec.arr1 B)

/-! ## The input blocks of a point, as real arrays -/

include h0 in
theorem feat_real (t : Fin cfg0.N) :
    (xblk (V1 (F := Ideal) m) c 0 t : Vec Ideal S1024x768 .f32) = Cert.Spec.arr2 (fun p k => X (rowAt0 t p) k) :=
  funext fun y => by rw [feat_blk, h0]; rfl

include h3 in
theorem wgt_real (t : Fin cfg0.N) :
    (xblk (V1 (F := Ideal) m) c 1 t : Vec Ideal S12x768 .f32) = Cert.Spec.arr2 Wt :=
  funext fun y => by rw [wgt_blk, h3]

include h4 in
theorem bias_real (t : Fin cfg0.N) :
    (xblk (V1 (F := Ideal) m) c 2 t : Vec Ideal S1x12 .f32) = fun i => ((B (i 1) : ℝ) : EReal) :=
  funext fun y => by rw [bias_blk, h4]; rfl

/-! ## The logits array -/

/-- An index of the logits array is in point `t`'s block iff its row is among the point's 1024 rows. -/
theorem mem_logit_blk (t : Fin cfg0.N) (i : S8192x12.Idx) :
    i ∈ ((cfg0.win 4).blk t).view.set ↔ ∀ a : Fin 2, win0_4.index t a * S1024x12.size a ≤ (i a).val ∧ (i a).val < win0_4.index t a * S1024x12.size a + S1024x12.size a := by
  show i ∈ ((View.whole main_v2_0).slice (win0_4.rect t)).set ↔ _
  rw [View.set_slice_whole, Rect.mem_set_unit]
  exact Iff.rfl

include h0 h3 h4 in
/-- What point `t` writes back into the logits array is its block of the specification's logits. -/
theorem logit_flushed (t : Fin cfg0.N) :
    (dat0 (V1 (F := Ideal) m) c).flushed 4 t
      = ((cfg0.win 4).blk t).view.read (Elt Ideal) (Cert.Spec.arr2 (Cert.Spec.logit X Wt B)) := by
  show (cfg0.win 4).cut (grid0.coords t) ((dat0 (V1 (F := Ideal) m) c).after 4 t) = _
  rw [after0_4, feat_real m c X h0 t, wgt_real m c Wt h3 t, bias_real m c B h4 t]
  refine (logitBlk_real (fun p k => X (rowAt0 t p) k) Wt B).trans ?_
  funext j
  rw [View.read_apply]
  have hj : ((cfg0.win 4).blk t).view.emb j = ix2 (rowAt0 t (j 0)) (j 1) := by
    funext a
    apply Fin.ext
    obtain ⟨-, -, -, -, -, -, -, -, e0, e1, -⟩ := blk0_at t
    match a with
    | ⟨0, _⟩ => show win0_4.index t (0 : Fin 2) * 1024 + 1 * (j 0).val = 1024 * t.val + (j 0).val; rw [e0]; omega
    | ⟨1, _⟩ => show win0_4.index t (1 : Fin 2) * 12 + 1 * (j 1).val = (j 1).val; rw [e1]; omega
  rw [hj]
  rfl

include h0 h3 h4 in
/-- THE LOGITS: after call 0 the logits array holds the specification's logits of the launch arrays. -/
theorem logits_arr : V2 (F := Ideal) m c main_v2_0 = Cert.Spec.arr2 (Cert.Spec.logit X Wt B) := by
  refine (W2_arr m c 4).trans ?_
  refine (dat0 (V1 (F := Ideal) m) c).arrAt_eq_of_cover 4 (Cert.Spec.arr2 (Cert.Spec.logit X Wt B))
    (fun t _ => logit_flushed m c X Wt B h0 h3 h4 t) fun i => ?_
  have hi0 : (i 0).val < 8192 := (i 0).isLt
  have hi1 : (i 1).val < 12 := (i 1).isLt
  refine ⟨⟨(i 0).val / 1024, by rw [show cfg0.N = 8 from N_0]; omega⟩, flush0_4 _, ?_⟩
  rw [mem_logit_blk]
  intro a
  obtain ⟨-, -, -, -, -, -, -, -, e0, e1, -⟩ := blk0_at ⟨(i 0).val / 1024, by rw [show cfg0.N = 8 from N_0]; omega⟩
  match a with
  | ⟨0, _⟩ =>
    show win0_4.index _ (0 : Fin 2) * 1024 ≤ (i 0).val ∧ (i 0).val < win0_4.index _ (0 : Fin 2) * 1024 + 1024
    rw [e0]; show (i 0).val / 1024 * 1024 ≤ (i 0).val ∧ (i 0).val < (i 0).val / 1024 * 1024 + 1024; omega
  | ⟨1, _⟩ =>
    show win0_4.index _ (1 : Fin 2) * 12 ≤ (i 1).val ∧ (i 1).val < win0_4.index _ (1 : Fin 2) * 12 + 12
    rw [e1]; omega

end Results

section Partial

variable (m : (ℓ : Loc nD τ sig) → Buf (Elt Ideal) ℓ) (c : Dev nD)
variable (X : Fin 8192 → Fin 768 → ℝ) (Wt : Fin 12 → Fin 768 → ℝ) (B : Fin 12 → ℝ)
variable (h0 : m ((c : Thread nD τ).loc main_arg0) = Cert.Spec.arr2 X)
variable (h3 : m ((c : Thread nD τ).loc main_arg3) = Cert.Spec.arr2 Wt)
variable (h4 : m ((c : Thread nD τ).loc main_arg4) = Cert.Spec.arr1 B)

/-! ## The partial-sum array -/

/-- The label of row `r`, as launched. -/
abbrev labOf : Fin 8192 → BitVec 32 := fun r => (m ((c : Thread nD τ).loc main_arg2) : S8192.Idx → BitVec 32) (ix1 r)

/-- Row `p` of the block of 1024 rows whose partial sum fills row `a` of the [64, 128] array: eight rows per block. -/
def rowOf0 (a : Fin 64) (p : Fin 1024) : Fin 8192 := ⟨1024 * (a.val / 8) + p.val, by have := a.isLt; have := p.isLt; omega⟩

/-- An index of the partial-sum array is in point `t`'s block iff its row is among the point's 8 rows. -/
theorem mem_part_blk (t : Fin cfg0.N) (i : S64x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v2_1).slice (win0_5.rect t)).set ↔ _
  rw [View.set_slice_whole, Rect.mem_set_unit]
  exact Iff.rfl

/-- What the partial-sum array holds after call 0: every entry of rows [8 t, 8 t + 8) is minus the sum, over the 1024
    rows of block `t`, of the log-softmax of the row's logits at the row's label. -/
def partArr : S64x128.Idx → EReal := fun idx =>
  ((-(∑ p : Fin 1024, Cert.Spec.logp (Cert.Spec.logit X Wt B (rowOf0 (idx 0) p)) (Cert.Spec.cls (labOf m c (rowOf0 (idx 0) p)))) : ℝ) : EReal)

variable (hlab : ∀ r : Fin 8192, (labOf m c r).toNat < 12)

include h0 h3 h4 hlab in
/-- What point `t` writes back into the partial-sum array is its block of `partArr`. -/
theorem part_flushed (t : Fin cfg0.N) :
    (dat0 (V1 (F := Ideal) m) c).flushed 5 t = ((cfg0.win 5).blk t).view.read (Elt Ideal) (partArr m c X Wt B) := by
  show (cfg0.win 5).cut (grid0.coords t) ((dat0 (V1 (F := Ideal) m) c).after 5 t) = _
  rw [after0_5, feat_real m c X h0 t, wgt_real m c Wt h3 t, bias_real m c B h4 t]
  refine (partBlk_real (fun p k => X (rowAt0 t p) k) Wt B (xblk (V1 (F := Ideal) m) c 3 t)
    (fun p => by rw [lab_blk]; exact hlab _)).trans ?_
  funext j
  rw [View.read_apply]
  have hj0 : ((((cfg0.win 5).blk t).view.emb j) 0).val = 8 * t.val + (j 0).val := by
    obtain ⟨-, -, -, -, -, -, -, -, -, -, e0, e1⟩ := blk0_at t
    show win0_5.index t (0 : Fin 2) * 8 + 1 * (j 0).val = 8 * t.val + (j 0).val
    rw [e0]; omega
  have hrow : ∀ p : Fin 1024, rowOf0 ((((cfg0.win 5).blk t).view.emb j) 0) p = rowAt0 t p := fun p => Fin.ext (by
    have hj : (j 0).val < 8 := (j 0).isLt
    show 1024 * (((((cfg0.win 5).blk t).view.emb j) 0).val / 8) + p.val = 1024 * t.val + p.val
    rw [hj0]; omega)
  unfold partArr
  refine congrArg (fun r : ℝ => ((-r : ℝ) : EReal)) (Finset.sum_congr rfl fun p _ => ?_)
  rw [hrow p]
  exact congrArg (fun w => Cert.Spec.logp (Cert.Spec.logit X Wt B (rowAt0 t p)) (Cert.Spec.cls w)) (lab_blk m c t (ix2 p 0))

include h0 h3 h4 hlab in
/-- THE PARTIAL SUMS: after call 0 the [64, 128] array holds `partArr`. -/
theorem part_arr : V2 (F := Ideal) m c main_v2_1 = fun idx : S64x128.Idx =>
    ((-(∑ p : Fin 1024, Cert.Spec.logp (Cert.Spec.logit X Wt B (rowOf0 (idx 0) p)) (Cert.Spec.cls (labOf m c (rowOf0 (idx 0) p)))) : ℝ) : EReal) := by
  refine (W2_arr m c 5).trans ?_
  refine (dat0 (V1 (F := Ideal) m) c).arrAt_eq_of_cover 5 (partArr m c X Wt B)
    (fun t _ => part_flushed m c X Wt B h0 h3 h4 hlab t) fun i => ?_
  have hi0 : (i 0).val < 64 := (i 0).isLt
  have hi1 : (i 1).val < 128 := (i 1).isLt
  refine ⟨⟨(i 0).val / 8, by rw [show cfg0.N = 8 from N_0]; omega⟩, flush0_5 _, ?_⟩
  rw [mem_part_blk]
  intro a
  obtain ⟨-, -, -, -, -, -, -, -, -, -, e0, e1⟩ := blk0_at ⟨(i 0).val / 8, by rw [show cfg0.N = 8 from N_0]; omega⟩
  match a with
  | ⟨0, _⟩ =>
    show win0_5.index _ (0 : Fin 2) * 8 ≤ (i 0).val ∧ (i 0).val < win0_5.index _ (0 : Fin 2) * 8 + 8
    rw [e0]; show (i 0).val / 8 * 8 ≤ (i 0).val ∧ (i 0).val < (i 0).val / 8 * 8 + 8; omega
  | ⟨1, _⟩ =>
    show win0_5.index _ (1 : Fin 2) * 128 ≤ (i 1).val ∧ (i 1).val < win0_5.index _ (1 : Fin 2) * 128 + 128
    rw [e1]; omega

end Partial

end Cert.KernelIdeal.Val

end
-- ==== Proof.KVal1.lean ====
/-
  What call 1, the prepass, leaves in its two result arrays. Its input is the second feature matrix, which reaches
  the call as launched. At each of its eight points the call reads 1024 rows of that matrix, stores the rows
  re-encoded in the narrower float format, and stores each row's sum of squares over its 768 lanes. Over the extended
  reals a re-encoding is the identity, so the first result array is the matrix itself; the second is the column of
  the rows' squared norms. The blocks written back at the eight points tile both arrays.
-/
import proofs.«427818_j27788438405734_3_alg».proof.Proof.KFold
import proofs.«427818_j27788438405734_3_alg».proof.Proof.Body01
import proofs.«427818_j27788438405734_3_alg».proof.Proof.Spec
import Idealize.ShloMosaic.Lib.Pipeline.Value
import Idealize.ShloMosaic.Lib.ValueIdx
import Idealize.ShloMosaic.PureOps.Ideal.Laws
import Mathlib.Data.EReal.Basic
import Mathlib.Algebra.BigOperators.Group.Finset.Basic

set_option maxRecDepth 16384

noncomputable section

open scoped BigOperators

namespace Cert.KernelIdeal.Val

open Cert.KernelIdeal Cert.KernelIdeal.Gen Cert.KernelIdeal.Hand
open Idealize.ShloMosaic Idealize.ShloMosaic.ValueIdx Idealize.ShloMosaic.TcCoe
open Idealize.SL Idealize.SL.Sem
open Idealize.ShloMosaic.Pipeline (Dat Cfg Window)

variable (m : (ℓ : Loc nD τ sig) → Buf (Elt Ideal) ℓ) (c : Dev nD)

/-- The second feature matrix reaches call 1 as launched: neither host stretch before it writes that buffer, and it
    is no array of call 0. -/
theorem V3_arg1 : V3 (F := Ideal) m c main_arg1 = m ((c : Thread nD τ).loc main_arg1) :=
  calc W3 (F := Ideal) m c (Proc.devRef .tc main_arg1)
    _ = W2 (F := Ideal) m c (Proc.devRef .tc main_arg1) := StableHlo.after_of_forall_not_mem (b := Proc.devRef .tc main_arg1) _ _ (List.forall_iff_forall_mem.mp (by
          simp only [hostOps1, List.Forall, StableHlo.nullary_writes, StableHlo.binary_writes, StableHlo.reshape_writes, Finset.mem_singleton]
          repeat' apply And.intro
          all_goals exact StableHlo.devRef_ne_of_ne (by decide)))
    _ = W1 (F := Ideal) m c (Proc.devRef .tc main_arg1) := W2_of_ne m c main_arg1 (by decide)
    _ = W0 (F := Ideal) m c (Proc.devRef .tc main_arg1) := StableHlo.after_of_forall_not_mem (b := Proc.devRef .tc main_arg1) _ _ (List.forall_iff_forall_mem.mp (by
          simp only [hostOps0, List.Forall, StableHlo.nullary_writes, StableHlo.binary_writes, StableHlo.reshape_writes, Finset.mem_singleton]
          repeat' apply And.intro
          all_goals exact StableHlo.devRef_ne_of_ne (by decide)))
    _ = m ((c : Thread nD τ).loc main_arg1) := rfl

/-! ## The body's two stored values, on a block of real entries -/

/-- The coercion of a finite sum of reals is the sum of the coercions. -/
theorem coe_sum1 {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Re-encoding to the narrower format changes no extended real: the re-encoded block is the block, entry by entry. -/
theorem castBlk_apply1 (x0 : FVec Ideal S1024x768 .f32) (i : S1024x768.Idx) :
    castBlk (F := Ideal) x0 i = x0 i := by
  unfold castBlk k1_pay1
  exact truncf_apply _ _ i

/-- On a block of real entries the re-encoded block is the same block of real entries. -/
theorem castBlk_real (X0 : Fin 1024 → Fin 768 → ℝ) :
    castBlk (F := Ideal) (Cert.Spec.arr2 X0) = Cert.Spec.arr2 X0 :=
  funext fun i => castBlk_apply1 (Cert.Spec.arr2 X0) i

/-- The source index of the lane sum over row `r` at lane `k` is entry `(r, k)`. -/
theorem lift_row1 (r : Fin 1024) (k : Fin 768) :
    reduces_S1024x768_S1024.lift (ix1 r) k = ix2 r k := by
  funext a; apply Fin.ext
  match a with
  | ⟨0, _⟩ => rfl
  | ⟨1, _⟩ => rfl

/-- The squared-norm block at entry `(r, 0)`: the sum over the 768 lanes of the squares of row `r` of the loaded block. -/
theorem sqBlk_apply1 (x0 : FVec Ideal S1024x768 .f32) (r : Fin 1024) (q : Fin 1) :
    sqBlk (F := Ideal) x0 (ix2 r q) = ∑ k : Fin 768, x0 (ix2 r k) * x0 (ix2 r k) := by
  unfold sqBlk k1_pay2
  refine (shapeCast_apply _ shapeCasts_S1024_S1024x1 (ix2 r q) (ix1 r) ?_).trans ?_
  · rw [Shape.rowMajor_val_one, Shape.rowMajor_val_two]
    show r.val = r.val * 1 + q.val
    have := q.isLt; omega
  refine (Ideal.multiReduction_add_single (mulf x0 x0) 0x00000000#32
    reduces_S1024x768_S1024 (.inl rfl) rfl (ix1 r)).trans ?_
  show (∑ k : Fin 768, mulf x0 x0 (reduces_S1024x768_S1024.lift (ix1 r) k)) = ∑ k : Fin 768, x0 (ix2 r k) * x0 (ix2 r k)
  exact Finset.sum_congr rfl fun k _ => congrArg (fun i => x0 i * x0 i) (lift_row1 r k)

/-- On a block of real entries: entry `(r, 0)` of the squared-norm block is the real sum of squares of row `r`. -/
theorem sqBlk_real (X0 : Fin 1024 → Fin 768 → ℝ) :
    sqBlk (F := Ideal) (Cert.Spec.arr2 X0) = fun y => ((∑ k : Fin 768, X0 (y 0) k * X0 (y 0) k : ℝ) : EReal) := by
  funext y
  obtain ⟨r, q, rfl⟩ : ∃ (r : Fin 1024) (q : Fin 1), y = ix2 r q := ⟨y 0, y 1, eq_ix2 y⟩
  rw [sqBlk_apply1, coe_sum1]
  refine Finset.sum_congr rfl fun k _ => ?_
  rw [EReal.coe_mul]
  rfl

/-! ## From the blocks to the arrays

Call 1 runs over eight points; at point `t` each of its three windows is at block `(t, 0)`: the input window holds rows
`[1024 t, 1024 t + 1024)` of the second feature matrix, and the two result windows are written back, at every point, to
the same rows of the re-encoded matrix and of the column of squared norms. -/

/-- The grid of call 1 has eight points. -/
theorem point_lt1 (t : Fin cfg1.N) : t.val < 8 := lt_of_lt_of_eq t.isLt N_1

/-- The three windows' index maps, decided over the grid: block `(t, 0)` at point `t`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `p` of the block at point `t` is row `1024 t + p` of the array. -/
def rowOf1 (t : Fin cfg1.N) (p : Fin 1024) : Fin 8192 :=
  ⟨1024 * t.val + p.val, by have := point_lt1 t; have := p.isLt; omega⟩

/-- A real matrix read at two indices with the same coordinates gives the same entry. -/
theorem arr2_congr1 {n0 n1 : Nat} (X : Fin n0 → Fin n1 → ℝ) (i j : (⟨2, ![n0, n1]⟩ : Shape).Idx)
    (h0 : (i 0).val = (j 0).val) (h1 : (i 1).val = (j 1).val) : Cert.Spec.arr2 X i = Cert.Spec.arr2 X j :=
  congrArg (Cert.Spec.arr2 X) (Shape.idx_ext₂ h0 h1)

section Blocks

variable (V : Ent (F := Ideal)) (T : Fin 8192 → Fin 768 → ℝ)

/-- The rows of the real matrix `T` that the block at point `t` holds. -/
def rowsAt1 (t : Fin cfg1.N) : Fin 1024 → Fin 768 → ℝ := fun p k => T (rowOf1 t p) k

/-- The input block at point `t`, when the array is the real matrix `T`: rows `1024 t + p` of `T`. -/
theorem pblk_real1 (hV : V c main_arg1 = Cert.Spec.arr2 T) (t : Fin cfg1.N) :
    (pblk V c 0 t : Vec Ideal S1024x768 .f32) = Cert.Spec.arr2 (rowsAt1 T t) := by
  obtain ⟨e0, e1, -⟩ := idx_facts1 t
  funext y
  show V c main_arg1 (((cfg1.win 0).blk t).view.emb y) = _
  rw [hV]
  refine arr2_congr1 T _ (ix2 (rowOf1 t (y 0)) (y 1)) ?_ ?_
  · show win1_0.index t (0 : Fin 2) * 1024 + 1 * (y 0).val = 1024 * t.val + (y 0).val
    rw [e0]; omega
  · show win1_0.index t (1 : Fin 2) * 768 + 1 * (y 1).val = (y 1).val
    rw [e1]; omega

/-- What point `t` writes back through window 1 is block `t` of `T` itself: re-encoding changes nothing. -/
theorem flushed_cast1 (hV : V c main_arg1 = Cert.Spec.arr2 T) (t : Fin cfg1.N) :
    (dat1 V c).flushed 1 t = ((cfg1.win 1).blk t).view.read (Elt Ideal) (Cert.Spec.arr2 T) := by
  obtain ⟨-, -, e0, e1, -⟩ := idx_facts1 t
  show (cfg1.win 1).cut (grid1.coords t) ((dat1 V c).after 1 t) = _
  rw [after1_1, pblk_real1 c V T hV t, castBlk_real]
  funext y
  show Cert.Spec.arr2 T (ix2 (rowOf1 t ⟨(y 0).val, _⟩) ⟨(y 1).val, _⟩) = Cert.Spec.arr2 T (((cfg1.win 1).blk t).view.emb y)
  refine arr2_congr1 T _ _ ?_ ?_
  · show 1024 * t.val + (y 0).val = win1_1.index t (0 : Fin 2) * 1024 + 1 * (y 0).val
    rw [e0]; omega
  · show (y 1).val = win1_1.index t (1 : Fin 2) * 768 + 1 * (y 1).val
    rw [e1]; omega

/-- The column of squared norms of `T`, as an array of extended reals. -/
def sqCol1 : S8192x1.Idx → EReal := fun y => ((Cert.Spec.sq T (y 0) : ℝ) : EReal)

/-- What point `t` writes back through window 2 is block `t` of the column of squared norms. -/
theorem flushed_sq1 (hV : V c main_arg1 = Cert.Spec.arr2 T) (t : Fin cfg1.N) :
    (dat1 V c).flushed 2 t = ((cfg1.win 2).blk t).view.read (Elt Ideal) (sqCol1 T) := by
  obtain ⟨-, -, -, -, e0, e1⟩ := idx_facts1 t
  show (cfg1.win 2).cut (grid1.coords t) ((dat1 V c).after 2 t) = _
  rw [after1_2, pblk_real1 c V T hV t, sqBlk_real]
  funext y
  show ((∑ k : Fin 768, rowsAt1 T t ⟨(y 0).val, _⟩ k * rowsAt1 T t ⟨(y 0).val, _⟩ k : ℝ) : EReal)
    = ((Cert.Spec.sq T ((((cfg1.win 2).blk t).view.emb y) 0) : ℝ) : EReal)
  have er : rowOf1 t ⟨(y 0).val, (y 0).isLt⟩ = (((cfg1.win 2).blk t).view.emb y) 0 := Fin.ext (by
    show 1024 * t.val + (y 0).val = win1_2.index t (0 : Fin 2) * 1024 + 1 * (y 0).val
    rw [e0]; omega)
  exact congrArg (fun r : Fin 8192 => ((Cert.Spec.sq T r : ℝ) : EReal)) er

end Blocks

/-- Every entry of the 8192 x 768 array is in the block of the point `row / 1024`. -/
theorem cover_cast1 (i : S8192x768.Idx) :
    ∃ t : Fin cfg1.N, (cfg1.win 1).flush t = true ∧ i ∈ ((cfg1.win 1).blk t).view.set := by
  have hi0 : (i 0).val < 8192 := idx2_lt0 i
  have hi1 : (i 1).val < 768 := idx2_lt1 i
  let t : Fin cfg1.N := ⟨(i 0).val / 1024, by rw [show cfg1.N = 8 from N_1]; omega⟩
  obtain ⟨-, -, e0, e1, -⟩ := idx_facts1 t
  refine ⟨t, flush1_1 t, ?_⟩
  show i ∈ ((View.whole main_v6_0).slice (win1_1.rect t)).set
  rw [View.set_slice_whole, Rect.mem_set_unit]
  intro a
  match a with
  | ⟨0, _⟩ =>
    show win1_1.index t (0 : Fin 2) * 1024 ≤ (i 0).val ∧ (i 0).val < win1_1.index t (0 : Fin 2) * 1024 + 1024
    rw [e0]; show (i 0).val / 1024 * 1024 ≤ (i 0).val ∧ (i 0).val < (i 0).val / 1024 * 1024 + 1024; omega
  | ⟨1, _⟩ =>
    show win1_1.index t (1 : Fin 2) * 768 ≤ (i 1).val ∧ (i 1).val < win1_1.index t (1 : Fin 2) * 768 + 768
    rw [e1]; omega

/-- Every entry of the 8192 x 1 column is in the block of the point `row / 1024`. -/
theorem cover_sq1 (i : S8192x1.Idx) :
    ∃ t : Fin cfg1.N, (cfg1.win 2).flush t = true ∧ i ∈ ((cfg1.win 2).blk t).view.set := by
  have hi0 : (i 0).val < 8192 := idx2_lt0 i
  have hi1 : (i 1).val < 1 := idx2_lt1 i
  let t : Fin cfg1.N := ⟨(i 0).val / 1024, by rw [show cfg1.N = 8 from N_1]; omega⟩
  obtain ⟨-, -, -, -, e0, e1⟩ := idx_facts1 t
  refine ⟨t, flush1_2 t, ?_⟩
  show i ∈ ((View.whole main_v6_1).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e0]; show (i 0).val / 1024 * 1024 ≤ (i 0).val ∧ (i 0).val < (i 0).val / 1024 * 1024 + 1024; omega
  | ⟨1, _⟩ =>
    show win1_2.index t (1 : Fin 2) * 1 ≤ (i 1).val ∧ (i 1).val < win1_2.index t (1 : Fin 2) * 1 + 1
    rw [e1]; omega

/-! ## What call 1 leaves -/

/-- After call 1 its first result array is the second feature matrix itself, entry by entry. -/
theorem cast_arr (T : Fin 8192 → Fin 768 → ℝ) (h1 : m ((c : Thread nD τ).loc main_arg1) = Cert.Spec.arr2 T) :
    V4 (F := Ideal) m c main_v6_0 = Cert.Spec.arr2 T :=
  have hV : V3 (F := Ideal) m c main_arg1 = Cert.Spec.arr2 T := (V3_arg1 m c).trans h1
  (W4_arr m c 1).trans ((dat1 (V3 m) c).arrAt_eq_of_cover 1 (Cert.Spec.arr2 T)
    (fun t _ => flushed_cast1 c (V3 m) T hV t) cover_cast1)

/-- After call 1 its second result array is the column of the rows' squared norms. -/
theorem sq_arr (T : Fin 8192 → Fin 768 → ℝ) (h1 : m ((c : Thread nD τ).loc main_arg1) = Cert.Spec.arr2 T) :
    V4 (F := Ideal) m c main_v6_1 = fun y => ((Cert.Spec.sq T (y 0) : ℝ) : EReal) :=
  have hV : V3 (F := Ideal) m c main_arg1 = Cert.Spec.arr2 T := (V3_arg1 m c).trans h1
  (W4_arr m c 2).trans ((dat1 (V3 m) c).arrAt_eq_of_cover 2 (sqCol1 T)
    (fun t _ => flushed_sq1 c (V3 m) T hV t) cover_sq1)

end Cert.KernelIdeal.Val

end
-- ==== Proof.KMath2.lean ====
/-
  The third call's tile and accumulator steps, read as functions of real matrices.
  At a grid point (i, j) the body forms a 1024 × 1024 tile: entry (p, q) is the pair term of row p of the i-th row
  block and row 1024 j + q of the whole table, computed from the two squared norms and the inner product as
  sqrt (max (a + b − 2 g) 0) when the two labels agree and as the hinge max 0 (1 − that root) when they differ.
  A one-element accumulator is cleared to zero, receives the sum of all entries of the tile (with the tile's own
  diagonal left out when i = j), and is written out unchanged into every entry of an 8 × 128 block.
  Every quantity is the coercion of a real number: sums, products, differences and maxima of coerced reals are
  coerced reals, and the root is taken of a maximum with zero, hence of a nonnegative real.
-/
import proofs.«427818_j27788438405734_3_alg».proof.Proof.KDefs
import proofs.«427818_j27788438405734_3_alg».proof.Proof.Spec
import proofs.«427818_j27788438405734_3_alg».proof.Proof.Consts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.ValueIdx

/-! ## The offset of the table rows, the cleared accumulator, the block written out -/

/-- The body loads the table from row `1024 j`, `j` the point's second coordinate. -/
theorem off1_eq (i : grid2.Coords) : k2_off1 i = ![1024 * (i 1).val, 0] := Gen.k2_off1_eq i

/-- The cleared accumulator holds zero. -/
theorem pay4_real : (k2_pay4 (F := Ideal)) = fun _ => ((0 : ℝ) : EReal) := by
  funext j
  unfold k2_pay4
  rw [shapeCast_self]
  show Ideal.ofBits .f32 0x00000000#32 = _
  rw [Cert.Consts.ofBits_zero, EReal.coe_zero]

/-- The block written out holds the accumulator's value at every entry. -/
theorem outBlk_real (a : ℝ) : outBlk (F := Ideal) (fun _ => ((a : ℝ) : EReal)) = fun _ => ((a : ℝ) : EReal) := by
  funext j
  unfold outBlk k2_pay3
  rw [shapeCast_self]
  rfl

/-! ## Real numbers inside the extended reals -/

/-- The coercion of a finite sum of reals is the sum of the coercions. -/
private theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## One-bit conditions -/

/-- A select on an equality test of two words is the `if` on their equality. -/
private theorem select_cmpi_eq {α : Type} {w : Nat} (a b : BitVec w) (A B : α) :
    Scalar.select (IntOp.cmpi .eq a b) A B = if a = b then A else B := by
  by_cases h : a = b
  · subst h
    rw [if_pos rfl, show IntOp.cmpi .eq a a = 1#1 from by simp [IntOp.cmpi]]
    exact select_one A B
  · have hb : (a == b) = false := beq_eq_false_iff_ne.mpr h
    rw [if_neg h, show IntOp.cmpi .eq a b = 0#1 from by show BitVec.ofBool (a == b) = 0#1; rw [hb]; rfl]
    exact select_zero A B

/-- Two positions inside a tile have the same 32-bit word exactly when they are the same position. -/
private theorem ofNat_pos_eq_iff (p q : Fin 1024) : BitVec.ofNat 32 p.val = BitVec.ofNat 32 q.val ↔ p = q := by
  constructor
  · intro h
    have h' := congrArg BitVec.toNat h
    simp only [BitVec.toNat_ofNat] at h'
    have hp := p.isLt
    have hq := q.isLt
    exact Fin.ext (by omega)
  · intro h; rw [h]
/-! ## Layout steps of the accumulator update -/

/-- A vector of length `a` cast to an `a × 1` column reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a 1024 × 1024 tile along its rows, then down the column of row sums, is the sum of all its entries. -/
private theorem total_sum (x : FVec Ideal S1024x1024 .f32) (j : S1x1.Idx) :
    shapeCast S1x1 (multiReduction .add [0] S1 (shapeCast S1024x1 (multiReduction .add [1] S1024 x 0x00000000#32 reduces_S1024x1024_S1024 (.inl rfl) rfl) shapeCasts_S1024_S1024x1) 0x00000000#32 reduces_S1024x1_S1 (.inl rfl) rfl) shapeCasts_S1_S1x1 j
      = ∑ p : Fin 1024, ∑ q : Fin 1024, x (ix2 p q) := by
  obtain ⟨u, v, rfl⟩ : ∃ (u : Fin 1) (v : Fin 1), j = ix2 u v := ⟨j 0, j 1, eq_ix2 j⟩
  refine (shapeCast_a_1a_apply _ shapeCasts_S1_S1x1 u v).trans ?_
  refine (Ideal.multiReduction_add_single _ _ reduces_S1024x1_S1 _ _ (ix1 v)).trans ?_
  show ∑ p : Fin 1024, _ = _
  refine Finset.sum_congr rfl fun p _ => ?_
  have e0 : reduces_S1024x1_S1.lift (ix1 v) p = ix2 p v :=
    funext fun a => Fin.ext (by match a with | ⟨0, _⟩ => rfl | ⟨1, _⟩ => rfl)
  rw [e0]
  refine (shapeCast_a_a1_apply _ shapeCasts_S1024_S1024x1 p v).trans ?_
  refine (Ideal.multiReduction_add_single _ _ reduces_S1024x1024_S1024 _ _ (ix1 p)).trans ?_
  show ∑ q : Fin 1024, _ = _
  refine Finset.sum_congr rfl fun q _ => ?_
  have e1 : reduces_S1024x1024_S1024.lift (ix1 p) q = ix2 p q :=
    funext fun a => Fin.ext (by match a with | ⟨0, _⟩ => rfl | ⟨1, _⟩ => rfl)
  rw [e1]

/-- Off the diagonal (`i ≠ j`) the accumulator receives the sum of the whole tile. -/
theorem pay2_real (M : Fin 1024 → Fin 1024 → ℝ) (a : ℝ) :
    k2_pay2 (F := Ideal) (Cert.Spec.arr2 M) (fun _ => ((a : ℝ) : EReal))
      = fun _ => ((a + ∑ p : Fin 1024, ∑ q : Fin 1024, M p q : ℝ) : EReal) := by
  funext j
  unfold k2_pay2
  rw [shapeCast_self]
  show ((a : ℝ) : EReal) + _ = _
  rw [total_sum, EReal.coe_add, coe_sum]
  refine congrArg _ (Finset.sum_congr rfl fun p _ => ?_)
  rw [coe_sum]
  rfl

/-- On the diagonal (`i = j`) the tile's own diagonal is left out of the sum. -/
theorem pay1_real (M : Fin 1024 → Fin 1024 → ℝ) (a : ℝ) :
    k2_pay1 (F := Ideal) (Cert.Spec.arr2 M) (fun _ => ((a : ℝ) : EReal))
      = fun _ => ((a + ∑ p : Fin 1024, ∑ q : Fin 1024, (if p = q then 0 else M p q) : ℝ) : EReal) := by
  funext j
  unfold k2_pay1
  rw [shapeCast_self]
  show ((a : ℝ) : EReal) + _ = _
  rw [total_sum, EReal.coe_add, coe_sum]
  refine congrArg _ (Finset.sum_congr rfl fun p _ => ?_)
  rw [coe_sum]
  refine Finset.sum_congr rfl fun q _ => ?_
  show Scalar.select (IntOp.cmpi .eq (iota .tc S1024x1024 32 [0] iota_S1024x1024_d0_w32 (ix2 p q))
      (iota .tc S1024x1024 32 [1] iota_S1024x1024_d1_w32 (ix2 p q))) (Ideal.ofBits .f32 0x00000000#32) ((M p q : ℝ) : EReal) = _
  rw [iota_single_apply, iota_single_apply, select_cmpi_eq, Cert.Consts.ofBits_zero]
  show (if BitVec.ofNat 32 p.val = BitVec.ofNat 32 q.val then (0 : EReal) else _) = _
  rw [apply_ite (fun x : ℝ => (x : EReal)), EReal.coe_zero]
  exact if_congr (ofNat_pos_eq_iff p q) rfl rfl

/-! ## The matrix product of a row block with a block of the table's rows -/

private theorem lhs_mm_0 (i : S1024x1024.Idx) (q : dot_S1024x768_S1024x768_S1024x1024_1_1_0_0_n_n.contr.Idx) :
    (dot_S1024x768_S1024x768_S1024x1024_1_1_0_0_n_n.lhsIdx i q 0).val = (i 0).val := by
  unfold DotDims.lhsIdx
  rw [dif_neg (show ¬(0 : Fin S1024x768.rank) ∈ dot_S1024x768_S1024x768_S1024x1024_1_1_0_0_n_n.lhsBatch by decide), dif_pos (show (0 : Fin S1024x768.rank) ∈ dot_S1024x768_S1024x768_S1024x1024_1_1_0_0_n_n.lhsNonContracting by decide)]
  rfl
private theorem lhs_mm_1 (i : S1024x1024.Idx) (q : dot_S1024x768_S1024x768_S1024x1024_1_1_0_0_n_n.contr.Idx) :
    (dot_S1024x768_S1024x768_S1024x1024_1_1_0_0_n_n.lhsIdx i q 1).val = (q ⟨0, by decide⟩).val :=
  dot_S1024x768_S1024x768_S1024x1024_1_1_0_0_n_n.lhsIdx_val_of_single rfl i q
private theorem rhs_mm_0 (i : S1024x1024.Idx) (q : dot_S1024x768_S1024x768_S1024x1024_1_1_0_0_n_n.contr.Idx) :
    (dot_S1024x768_S1024x768_S1024x1024_1_1_0_0_n_n.rhsIdx i q 0).val = (i 1).val := by
  unfold DotDims.rhsIdx
  rw [dif_neg (show ¬(0 : Fin S1024x768.rank) ∈ dot_S1024x768_S1024x768_S1024x1024_1_1_0_0_n_n.rhsBatch by decide), dif_pos (show (0 : Fin S1024x768.rank) ∈ dot_S1024x768_S1024x768_S1024x1024_1_1_0_0_n_n.rhsNonContracting by decide)]
  rfl
private theorem rhs_mm_1 (i : S1024x1024.Idx) (q : dot_S1024x768_S1024x768_S1024x1024_1_1_0_0_n_n.contr.Idx) :
    (dot_S1024x768_S1024x768_S1024x1024_1_1_0_0_n_n.rhsIdx i q 1).val = (q ⟨0, by decide⟩).val :=
  dot_S1024x768_S1024x768_S1024x1024_1_1_0_0_n_n.rhsIdx_val_of_single rfl i q

/-- The product into a zero accumulator, contracting the second axis of both operands, holds at `(p, q)` the inner
    product of row `p` of the first operand with row `q` of the second. -/
private theorem mm_apply (l r : FVec Ideal S1024x768 .bf16) (p q : Fin 1024) :
    matmul dot_S1024x768_S1024x768_S1024x1024_1_1_0_0_n_n none l r (constant S1024x1024 .f32 0x00000000#32) (ix2 p q)
      = ∑ k : Fin 768, l (ix2 p k) * r (ix2 q k) := by
  simp only [matmul]
  rw [Ideal.matmul_constant_zero_apply, ← Equiv.sum_comp (contrEquiv1 dot_S1024x768_S1024x768_S1024x1024_1_1_0_0_n_n 768 rfl rfl).symm]
  refine Finset.sum_congr rfl fun k _ => ?_
  have hk := contrEquiv1_symm_val dot_S1024x768_S1024x768_S1024x1024_1_1_0_0_n_n 768 rfl rfl k
  have el : dot_S1024x768_S1024x768_S1024x1024_1_1_0_0_n_n.lhsIdx (ix2 p q) ((contrEquiv1 dot_S1024x768_S1024x768_S1024x1024_1_1_0_0_n_n 768 rfl rfl).symm k) = ix2 p k := funext fun a => Fin.ext (by
    match a with
    | ⟨0, _⟩ => exact lhs_mm_0 _ _
    | ⟨1, _⟩ => exact (lhs_mm_1 _ _).trans hk)
  have er : dot_S1024x768_S1024x768_S1024x1024_1_1_0_0_n_n.rhsIdx (ix2 p q) ((contrEquiv1 dot_S1024x768_S1024x768_S1024x1024_1_1_0_0_n_n 768 rfl rfl).symm k) = ix2 q k := funext fun a => Fin.ext (by
    match a with
    | ⟨0, _⟩ => exact rhs_mm_0 _ _
    | ⟨1, _⟩ => exact (rhs_mm_1 _ _).trans hk)
  rw [el, er]

/-! ## The tile of pair terms -/

/-- A column broadcast over many columns: an `a × 1` array broadcast to `a × b` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem bcast_col {α : Type} (v : S1024x1.Idx → α) (p q : Fin 1024) :
    broadcastTo S1024x1024 v broadcasts_S1024x1_S1024x1024 (ix2 p q) = v (ix2 p (0 : Fin 1)) :=
  broadcastTo_a1_ab_apply v broadcasts_S1024x1_S1024x1024 p q

private theorem bcast_row {α : Type} (v : S1x1024.Idx → α) (p q : Fin 1024) :
    broadcastTo S1024x1024 v broadcasts_S1x1024_S1024x1024 (ix2 p q) = v (ix2 (0 : Fin 1) q) :=
  broadcastTo_1b_ab_apply v broadcasts_S1x1024_S1024x1024 p q

private theorem sqrt_apply {s : Shape} {φ : FTy} (x : FVec Ideal s φ) (i : s.Idx) : sqrt x i = Ideal.sqrt (x i) := rfl

private theorem cmpi_apply {s : Shape} {w : Nat} (c : CmpIPredicate) (x y : IVec s w) (i : s.Idx) :
    cmpi c x y i = IntOp.cmpi c (x i) (y i) := rfl

/-- The body's tile at `(p, q)`, over its six loaded blocks: the distance of row `p` of the first block and row `q` of
    the second when the two labels agree, its hinge when they differ. -/
private theorem pay5_apply (v3 v8 : FVec Ideal S1024x768 .bf16) (v11 : FVec Ideal S1024x1 .f32) (v13 : FVec Ideal S1x1024 .f32)
    (v24 : IVec S1024x1 32) (v26 : IVec S1x1024 32) (p q : Fin 1024) :
    k2_pay5 (F := Ideal) v3 v8 v11 v13 v24 v26 (ix2 p q)
      = if v24 (ix2 p (0 : Fin 1)) = v26 (ix2 (0 : Fin 1) q) then
          Ideal.sqrt (max (v11 (ix2 p (0 : Fin 1)) + v13 (ix2 (0 : Fin 1) q)
            - Ideal.ofBits .f32 0x40000000#32 * ∑ k : Fin 768, v3 (ix2 p k) * v8 (ix2 q k)) (Ideal.ofBits .f32 0x00000000#32))
        else max (Ideal.ofBits .f32 0x00000000#32) (Ideal.ofBits .f32 0x3F800000#32
          - Ideal.sqrt (max (v11 (ix2 p (0 : Fin 1)) + v13 (ix2 (0 : Fin 1) q)
            - Ideal.ofBits .f32 0x40000000#32 * ∑ k : Fin 768, v3 (ix2 p k) * v8 (ix2 q k)) (Ideal.ofBits .f32 0x00000000#32))) := by
  unfold k2_pay5
  simp only [shapeCast_self]
  simp only [select_apply, cmpi_apply, sqrt_apply, maximumf_apply, subf_apply, addf_apply, mulf_apply, broadcast_apply,
    bcast_col, bcast_row, mm_apply, select_cmpi_eq]
  rfl

/-- The coercion commutes with the maximum of two reals. -/
private theorem coe_max (x y : ℝ) : ((max x y : ℝ) : EReal) = max (x : EReal) (y : EReal) :=
  EReal.coe_strictMono.monotone.map_max

/-- The extended square root of a nonnegative real is the real square root. -/
private theorem sqrt_coe_of_nonneg {x : ℝ} (hx : 0 ≤ x) : Ideal.sqrt (x : EReal) = ((Real.sqrt x : ℝ) : EReal) := by
  rw [Ideal.sqrt_coe, if_neg (not_lt.mpr hx)]

/-- The pair term of two rows from their squared norms `a`, `b` and their inner product `g`, all real: the root of
    the clamped squared distance, or its hinge, is again a real. -/
private theorem pair_scalar (c : Prop) [Decidable c] (a b g : ℝ) :
    (if c then Ideal.sqrt (max ((a : EReal) + (b : EReal) - ((2 : ℝ) : EReal) * (g : EReal)) 0)
      else max 0 (((1 : ℝ) : EReal) - Ideal.sqrt (max ((a : EReal) + (b : EReal) - ((2 : ℝ) : EReal) * (g : EReal)) 0)))
      = ((if c then Real.sqrt (max (a + b - 2 * g) 0) else max 0 (1 - Real.sqrt (max (a + b - 2 * g) 0)) : ℝ) : EReal) := by
  have hd : Ideal.sqrt (max ((a : EReal) + (b : EReal) - ((2 : ℝ) : EReal) * (g : EReal)) 0)
      = ((Real.sqrt (max (a + b - 2 * g) 0) : ℝ) : EReal) := by
    rw [← EReal.coe_add, ← EReal.coe_mul, ← EReal.coe_sub, ← EReal.coe_zero, ← coe_max,
      sqrt_coe_of_nonneg (le_max_right _ _)]
  rw [hd, ← EReal.coe_sub, ← EReal.coe_zero, ← coe_max]
  exact (apply_ite (fun x : ℝ => (x : EReal)) _ _ _).symm

/-- Row `q` of the block of 1024 rows of the table that the point's second coordinate selects. -/
def rowOf (i : grid2.Coords) (q : Fin 1024) : Fin 8192 :=
  ⟨1024 * (i 1).val + q.val, by have h : (i 1).val < 8 := (i 1).isLt; have := q.isLt; omega⟩

/-- Its number: `1024 j + q`. -/
theorem rowOf_val (i : grid2.Coords) (q : Fin 1024) : (rowOf i q).val = 1024 * (i 1).val + q.val := rfl

/-- The rows the body loads from the whole table at point `i` are rows `1024 j + q`, `j` the second coordinate. -/
private theorem tab_apply (i : grid2.Coords) (Tall : Fin 8192 → Fin 768 → ℝ) (q : Fin 1024) (k : Fin 768) :
    View.ld (Val := Elt Ideal) (e' := .bf16) (Cert.Spec.arr2 Tall) (rTab i) (ix2 q k) = ((Tall (rowOf i q) k : ℝ) : EReal) := by
  have e0 : (rTab i).toLoadRect.idx (ix2 q k) 0 = rowOf i q := Fin.ext (by
    show k2_off1 i 0 + 1 * q.val = 1024 * (i 1).val + q.val
    rw [off1_eq]
    show 1024 * (i 1).val + 1 * q.val = _
    omega)
  have e1 : (rTab i).toLoadRect.idx (ix2 q k) 1 = k := Fin.ext (by
    show k2_off1 i 1 + 1 * k.val = k.val
    rw [off1_eq]
    show 0 + 1 * k.val = _
    omega)
  show ((Tall ((rTab i).toLoadRect.idx (ix2 q k) 0) ((rTab i).toLoadRect.idx (ix2 q k) 1) : ℝ) : EReal) = _
  rw [e0, e1]

/-- The tile at point `i = (·, j)`, over real blocks: entry `(p, q)` is the pair term of row `p` of the row block and
    row `1024 j + q` of the table. -/
theorem tile_real (i : grid2.Coords) (Ti : Fin 1024 → Fin 768 → ℝ) (Tall : Fin 8192 → Fin 768 → ℝ) (si sj : Fin 1024 → ℝ)
    (li : S1024x1.Idx → BitVec 32) (lj : S1x1024.Idx → BitVec 32) :
    tileAt (F := Ideal) i (Cert.Spec.arr2 Ti) (Cert.Spec.arr2 Tall) (fun y => ((si (y 0) : ℝ) : EReal))
        (fun y => ((sj (y 1) : ℝ) : EReal)) li lj
      = Cert.Spec.arr2 (fun p q =>
          if li (ix2 p (0 : Fin 1)) = lj (ix2 (0 : Fin 1) q) then
            Real.sqrt (max (si p + sj q - 2 * ∑ k : Fin 768, Ti p k * Tall (rowOf i q) k) 0)
          else max 0 (1 - Real.sqrt (max (si p + sj q - 2 * ∑ k : Fin 768, Ti p k * Tall (rowOf i q) k) 0))) := by
  funext y
  obtain ⟨p, q, rfl⟩ : ∃ (p : Fin 1024) (q : Fin 1024), y = ix2 p q := ⟨y 0, y 1, eq_ix2 y⟩
  unfold tileAt
  rw [pay5_apply]
  have hs : ∑ k : Fin 768, Cert.Spec.arr2 Ti (ix2 p k) * View.ld (Val := Elt Ideal) (e' := .bf16) (Cert.Spec.arr2 Tall) (rTab i) (ix2 q k)
      = ((∑ k : Fin 768, Ti p k * Tall (rowOf i q) k : ℝ) : EReal) := by
    rw [coe_sum]
    refine Finset.sum_congr rfl fun k _ => ?_
    rw [tab_apply]
    exact (EReal.coe_mul _ _).symm
  rw [hs, Cert.Consts.ofBits_two, Cert.Consts.ofBits_zero, Cert.Consts.ofBits_one]
  exact pair_scalar _ _ _ _

end Cert.KernelIdeal.Val

end
-- ==== Proof.KVal2.lean ====
/-
  What the tiled contrastive sum (the program's third call, an 8 x 8 grid of points t = (t / 8, t % 8)) leaves in its
  result array, from the contents it is entered with: the table T of 8192 rows, its rows' squared norms as a
  column and as a row, the labels as a column and as a row.
  At point (i, j) the body reads rows [1024 i, 1024 i + 1024) of the table, of the column of norms and of the column
  of labels, columns [1024 j, 1024 j + 1024) of the row of norms and of the row of labels, and the whole table, from
  which it takes rows [1024 j, 1024 j + 1024) itself. Its 1024 x 1024 tile holds, at (p, q), the pair term of row
  1024 i + p and row 1024 j + q. A one-element accumulator is cleared at j = 0 and receives the tile's sum, the
  tile's own diagonal left out when i = j: after point (i, j) it holds the pair terms of row block i against row
  blocks 0 … j, a row against itself left out (on a diagonal tile the positions p = q are exactly the equal rows; off
  the diagonal rows of different blocks differ). At j = 7 it is written, at every entry, to rows [8 i, 8 i + 8) of the
  64 x 128 result array; those blocks cover the array. So row a of the result holds, at every column, the sum over
  the rows r of row block a / 8 and all rows s of the table of the pair term of (r, s), r = s left out.
-/
import proofs.«427818_j27788438405734_3_alg».proof.Proof.KFold
import proofs.«427818_j27788438405734_3_alg».proof.Proof.KMath2
import proofs.«427818_j27788438405734_3_alg».proof.Proof.Spec
import Idealize.ShloMosaic.Lib.ValueIdx
import Idealize.ShloMosaic.Lib.Pipeline.Value
import Mathlib.Algebra.BigOperators.Fin
import Mathlib.Algebra.BigOperators.Group.Finset.Basic
import Mathlib.Data.Fintype.BigOperators

set_option maxRecDepth 16384

noncomputable section

open scoped BigOperators

namespace Cert.KernelIdeal.Val

open Cert.KernelIdeal Cert.KernelIdeal.Gen Cert.KernelIdeal.Hand
open Idealize.ShloMosaic Idealize.ShloMosaic.ValueIdx

/-! ## The grid and the index maps in closed form -/

/-- The printed index maps and the grid's coordinates in closed form: point t is (t / 8, t % 8). -/
theorem idx_facts2 : ∀ t : Fin cfg2.N,
    win2_0.index t (0 : Fin 2) = t.val / 8 ∧ win2_0.index t (1 : Fin 2) = 0
    ∧ win2_1.index t (0 : Fin 2) = 0 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = t.val / 8 ∧ win2_4.index t (1 : Fin 2) = 0
    ∧ win2_5.index t (0 : Fin 2) = 0 ∧ win2_5.index t (1 : Fin 2) = t.val % 8
    ∧ win2_6.index t (0 : Fin 2) = t.val / 8 ∧ win2_6.index t (1 : Fin 2) = 0
    ∧ (grid2.coords t 0).val = t.val / 8 ∧ (grid2.coords t 1).val = t.val % 8 :=
  (by decide +kernel : ∀ t : Fin grid2.N, _)

/-- The body's three branch conditions at point t = (t / 8, t % 8). -/
theorem cond_facts2 : ∀ t : Fin cfg2.N,
    (condReset (grid2.coords t) ↔ t.val % 8 = 0)
    ∧ (condDiag (grid2.coords t) ↔ t.val / 8 = t.val % 8)
    ∧ (condOff (grid2.coords t) ↔ ¬ t.val / 8 = t.val % 8) :=
  (by decide +kernel : ∀ t : Fin grid2.N, _)

theorem lt64_2 (t : Fin cfg2.N) : t.val < 64 := Nat.lt_of_lt_of_eq t.isLt (N_2 : cfg2.N = 64)

/-- Row p of row block b of the table (b below 8). -/
def rowAt (b : ℕ) (p : Fin 1024) : Fin 8192 := ⟨(1024 * b + p.val) % 8192, Nat.mod_lt _ (by decide)⟩

theorem rowAt_val (b : ℕ) (hb : b < 8) (p : Fin 1024) : (rowAt b p).val = 1024 * b + p.val := by
  have hp := p.isLt
  show (1024 * b + p.val) % 8192 = _
  omega

/-- Rows of two blocks coincide only for the same block and the same position in it. -/
theorem rowAt_eq_iff (b b' : ℕ) (hb : b < 8) (hb' : b' < 8) (p q : Fin 1024) : rowAt b p = rowAt b' q ↔ b = b' ∧ p = q := by
  have hp := p.isLt
  have hq := q.isLt
  constructor
  · intro h
    have h' := congrArg Fin.val h
    rw [rowAt_val b hb, rowAt_val b' hb'] at h'
    exact ⟨by omega, Fin.ext (by omega)⟩
  · rintro ⟨rfl, rfl⟩; rfl

/-! ## The six input blocks of a point, read off the arrays -/

section Blocks

variable {F : FTy → Type} [FloatOps F]
variable (V : Ent (F := F))

/-- Window 0: rows [1024 (t / 8), + 1024) of the table. -/
theorem cblk0_apply (c : Dev nD) (t : Fin cfg2.N) (y : S1024x768.Idx) (k : S8192x768.Idx)
    (hk0 : (k 0).val = 1024 * (t.val / 8) + (y 0).val) (hk1 : (k 1).val = (y 1).val) :
    (cblk V c 0 t : Vec F S1024x768 .bf16) y = (V c main_v6_0 : S8192x768.Idx → Elt F .bf16) k := by
  obtain ⟨e0, e1, -⟩ := idx_facts2 t
  unfold cblk
  rw [View.read_apply]
  show V c main_v6_0 _ = V c main_v6_0 _
  congr 1
  funext a
  apply Fin.ext
  match a with
  | ⟨0, _⟩ => show win2_0.index t 0 * 1024 + 1 * (y 0).val = (k 0).val; rw [e0, hk0]; omega
  | ⟨1, _⟩ => show win2_0.index t 1 * 768 + 1 * (y 1).val = (k 1).val; rw [e1, hk1]; omega

/-- Window 1: the whole table, at every point. -/
theorem cblk1_eq (c : Dev nD) (t : Fin cfg2.N) :
    (cblk V c 1 t : Vec F S8192x768 .bf16) = (V c main_v6_0 : S8192x768.Idx → Elt F .bf16) := by
  obtain ⟨-, -, e0, e1, -⟩ := idx_facts2 t
  funext y
  unfold cblk
  rw [View.read_apply]
  show V c main_v6_0 _ = V c main_v6_0 _
  congr 1
  funext a
  apply Fin.ext
  match a with
  | ⟨0, _⟩ => show win2_1.index t 0 * 8192 + 1 * (y 0).val = (y 0).val; rw [e0]; omega
  | ⟨1, _⟩ => show win2_1.index t 1 * 768 + 1 * (y 1).val = (y 1).val; rw [e1]; omega

/-- Window 2: rows [1024 (t / 8), + 1024) of the column of squared norms. -/
theorem cblk2_apply (c : Dev nD) (t : Fin cfg2.N) (y : S1024x1.Idx) (k : S8192x1.Idx)
    (hk0 : (k 0).val = 1024 * (t.val / 8) + (y 0).val) (hk1 : (k 1).val = (y 1).val) :
    (cblk V c 2 t : Vec F S1024x1 .f32) y = (V c main_v6_1 : S8192x1.Idx → Elt F .f32) k := by
  obtain ⟨-, -, -, -, e0, e1, -⟩ := idx_facts2 t
  unfold cblk
  rw [View.read_apply]
  show V c main_v6_1 _ = V c main_v6_1 _
  congr 1
  funext a
  apply Fin.ext
  match a with
  | ⟨0, _⟩ => show win2_2.index t 0 * 1024 + 1 * (y 0).val = (k 0).val; rw [e0, hk0]; omega
  | ⟨1, _⟩ => show win2_2.index t 1 * 1 + 1 * (y 1).val = (k 1).val; rw [e1, hk1]; omega

/-- Window 3: columns [1024 (t % 8), + 1024) of the row of squared norms. -/
theorem cblk3_apply (c : Dev nD) (t : Fin cfg2.N) (y : S1x1024.Idx) (k : S1x8192.Idx)
    (hk0 : (k 0).val = (y 0).val) (hk1 : (k 1).val = 1024 * (t.val % 8) + (y 1).val) :
    (cblk V c 3 t : Vec F S1x1024 .f32) y = (V c main_v7 : S1x8192.Idx → Elt F .f32) k := by
  obtain ⟨-, -, -, -, -, -, e0, e1, -⟩ := idx_facts2 t
  unfold cblk
  rw [View.read_apply]
  show V c main_v7 _ = V c main_v7 _
  congr 1
  funext a
  apply Fin.ext
  match a with
  | ⟨0, _⟩ => show win2_3.index t 0 * 1 + 1 * (y 0).val = (k 0).val; rw [e0, hk0]; omega
  | ⟨1, _⟩ => show win2_3.index t 1 * 1024 + 1 * (y 1).val = (k 1).val; rw [e1, hk1]; omega

/-- Window 4: rows [1024 (t / 8), + 1024) of the column of labels. -/
theorem cblk4_apply (c : Dev nD) (t : Fin cfg2.N) (y : S1024x1.Idx) (k : S8192x1.Idx)
    (hk0 : (k 0).val = 1024 * (t.val / 8) + (y 0).val) (hk1 : (k 1).val = (y 1).val) :
    (cblk V c 4 t : Vec F S1024x1 .i32) y = (V c main_v8 : S8192x1.Idx → Elt F .i32) k := by
  obtain ⟨-, -, -, -, -, -, -, -, e0, e1, -⟩ := idx_facts2 t
  unfold cblk
  rw [View.read_apply]
  show V c main_v8 _ = V c main_v8 _
  congr 1
  funext a
  apply Fin.ext
  match a with
  | ⟨0, _⟩ => show win2_4.index t 0 * 1024 + 1 * (y 0).val = (k 0).val; rw [e0, hk0]; omega
  | ⟨1, _⟩ => show win2_4.index t 1 * 1 + 1 * (y 1).val = (k 1).val; rw [e1, hk1]; omega

/-- Window 5: columns [1024 (t % 8), + 1024) of the row of labels. -/
theorem cblk5_apply (c : Dev nD) (t : Fin cfg2.N) (y : S1x1024.Idx) (k : S1x8192.Idx)
    (hk0 : (k 0).val = (y 0).val) (hk1 : (k 1).val = 1024 * (t.val % 8) + (y 1).val) :
    (cblk V c 5 t : Vec F S1x1024 .i32) y = (V c main_v9 : S1x8192.Idx → Elt F .i32) k := by
  obtain ⟨-, -, -, -, -, -, -, -, -, -, e0, e1, -⟩ := idx_facts2 t
  unfold cblk
  rw [View.read_apply]
  show V c main_v9 _ = V c main_v9 _
  congr 1
  funext a
  apply Fin.ext
  match a with
  | ⟨0, _⟩ => show win2_5.index t 0 * 1 + 1 * (y 0).val = (k 0).val; rw [e0, hk0]; omega
  | ⟨1, _⟩ => show win2_5.index t 1 * 1024 + 1 * (y 1).val = (k 1).val; rw [e1, hk1]; omega

end Blocks

/-! ## The blocks at the entry contents of the specification -/

section Real

variable (V : Ent (F := Ideal)) (c : Dev nD)
variable (T : Fin 8192 → Fin 768 → ℝ) (lab : Fin 8192 → BitVec 32)

theorem cblk0_real (hT : V c main_v6_0 = Cert.Spec.arr2 T) (t : Fin cfg2.N) :
    (cblk V c 0 t : Vec Ideal S1024x768 .bf16) = Cert.Spec.arr2 (fun p k => T (rowAt (t.val / 8) p) k) := by
  have ht := lt64_2 t
  funext y
  obtain ⟨p, q, rfl⟩ : ∃ (p : Fin 1024) (q : Fin 768), y = ix2 p q := ⟨y 0, y 1, eq_ix2 y⟩
  rw [cblk0_apply V c t (ix2 p q) (ix2 (rowAt (t.val / 8) p) q) (rowAt_val _ (by omega) p) rfl, hT]
  rfl

theorem cblk1_real (hT : V c main_v6_0 = Cert.Spec.arr2 T) (t : Fin cfg2.N) :
    (cblk V c 1 t : Vec Ideal S8192x768 .bf16) = Cert.Spec.arr2 T := by
  rw [cblk1_eq V c t, hT]

theorem cblk2_real (hs : V c main_v6_1 = fun y => ((Cert.Spec.sq T (y 0) : ℝ) : EReal)) (t : Fin cfg2.N) :
    (cblk V c 2 t : Vec Ideal S1024x1 .f32) = fun y => ((Cert.Spec.sq T (rowAt (t.val / 8) (y 0)) : ℝ) : EReal) := by
  have ht := lt64_2 t
  funext y
  obtain ⟨p, q, rfl⟩ : ∃ (p : Fin 1024) (q : Fin 1), y = ix2 p q := ⟨y 0, y 1, eq_ix2 y⟩
  rw [cblk2_apply V c t (ix2 p q) (ix2 (rowAt (t.val / 8) p) q) (rowAt_val _ (by omega) p) rfl, hs]
  rfl

theorem cblk3_real (hs7 : V c main_v7 = fun y => ((Cert.Spec.sq T (y 1) : ℝ) : EReal)) (t : Fin cfg2.N) :
    (cblk V c 3 t : Vec Ideal S1x1024 .f32) = fun y => ((Cert.Spec.sq T (rowAt (t.val % 8) (y 1)) : ℝ) : EReal) := by
  have ht := lt64_2 t
  funext y
  obtain ⟨p, q, rfl⟩ : ∃ (p : Fin 1) (q : Fin 1024), y = ix2 p q := ⟨y 0, y 1, eq_ix2 y⟩
  rw [cblk3_apply V c t (ix2 p q) (ix2 p (rowAt (t.val % 8) q)) rfl (rowAt_val _ (by omega) q), hs7]
  rfl

theorem cblk4_real (hl8 : V c main_v8 = fun y => lab (y 0)) (t : Fin cfg2.N) :
    (cblk V c 4 t : Vec Ideal S1024x1 .i32) = fun y => lab (rowAt (t.val / 8) (y 0)) := by
  have ht := lt64_2 t
  funext y
  obtain ⟨p, q, rfl⟩ : ∃ (p : Fin 1024) (q : Fin 1), y = ix2 p q := ⟨y 0, y 1, eq_ix2 y⟩
  rw [cblk4_apply V c t (ix2 p q) (ix2 (rowAt (t.val / 8) p) q) (rowAt_val _ (by omega) p) rfl, hl8]
  rfl

theorem cblk5_real (hl9 : V c main_v9 = fun y => lab (y 1)) (t : Fin cfg2.N) :
    (cblk V c 5 t : Vec Ideal S1x1024 .i32) = fun y => lab (rowAt (t.val % 8) (y 1)) := by
  have ht := lt64_2 t
  funext y
  obtain ⟨p, q, rfl⟩ : ∃ (p : Fin 1) (q : Fin 1024), y = ix2 p q := ⟨y 0, y 1, eq_ix2 y⟩
  rw [cblk5_apply V c t (ix2 p q) (ix2 p (rowAt (t.val % 8) q)) rfl (rowAt_val _ (by omega) q), hl9]
  rfl

end Real

/-! ## The accumulator after each point -/

section Acc

variable (V : Ent (F := Ideal)) (c : Dev nD)
variable (T : Fin 8192 → Fin 768 → ℝ) (lab : Fin 8192 → BitVec 32)

/-- The pair terms of row block i against row block j, summed, a row against itself left out. -/
def tileSum2 (i j : ℕ) : ℝ :=
  ∑ p : Fin 1024, ∑ q : Fin 1024,
    if rowAt i p = rowAt j q then 0 else Cert.Spec.pair T lab (rowAt i p) (rowAt j q)

/-- What the accumulator holds after point n = (n / 8, n % 8): row block n / 8 against the row blocks 0 … n % 8. -/
def accVal2 (n : ℕ) : ℝ := ∑ j' ∈ Finset.range (n % 8 + 1), tileSum2 T lab (n / 8) j'

/-- The tile over the rows of block bi against the rows of block bj (the second coordinate of the point) is their pair terms. -/
theorem tile_blocks2 (i : grid2.Coords) (bi bj : ℕ) (hbj : bj < 8) (hj : (i 1).val = bj) :
    tileAt (F := Ideal) i (Cert.Spec.arr2 (fun p k => T (rowAt bi p) k)) (Cert.Spec.arr2 T)
        (fun y => ((Cert.Spec.sq T (rowAt bi (y 0)) : ℝ) : EReal)) (fun y => ((Cert.Spec.sq T (rowAt bj (y 1)) : ℝ) : EReal))
        (fun y => lab (rowAt bi (y 0))) (fun y => lab (rowAt bj (y 1)))
      = Cert.Spec.arr2 (fun p q => Cert.Spec.pair T lab (rowAt bi p) (rowAt bj q)) := by
  refine (tile_real i (fun p k => T (rowAt bi p) k) T (fun p => Cert.Spec.sq T (rowAt bi p)) (fun q => Cert.Spec.sq T (rowAt bj q))
    (fun y => lab (rowAt bi (y 0))) (fun y => lab (rowAt bj (y 1)))).trans ?_
  refine congrArg Cert.Spec.arr2 (funext fun p => funext fun q => ?_)
  have key : ∀ r : Fin 8192, r = rowAt bj q →
      (if lab (rowAt bi p) = lab (rowAt bj q)
        then Real.sqrt (max (Cert.Spec.sq T (rowAt bi p) + Cert.Spec.sq T (rowAt bj q)
          - 2 * ∑ k : Fin 768, T (rowAt bi p) k * T r k) 0)
        else max 0 (1 - Real.sqrt (max (Cert.Spec.sq T (rowAt bi p) + Cert.Spec.sq T (rowAt bj q)
          - 2 * ∑ k : Fin 768, T (rowAt bi p) k * T r k) 0)))
        = Cert.Spec.pair T lab (rowAt bi p) (rowAt bj q) := by
    rintro r rfl; rfl
  exact key _ (Fin.ext (by rw [rowOf_val, rowAt_val _ hbj q, hj]))

/-- The tile of point t is the pair terms of row block t / 8 against row block t % 8. -/
theorem tile_eq2 (hT : V c main_v6_0 = Cert.Spec.arr2 T)
    (hs : V c main_v6_1 = fun y => ((Cert.Spec.sq T (y 0) : ℝ) : EReal))
    (hs7 : V c main_v7 = fun y => ((Cert.Spec.sq T (y 1) : ℝ) : EReal))
    (hl8 : V c main_v8 = fun y => lab (y 0)) (hl9 : V c main_v9 = fun y => lab (y 1)) (t : Fin cfg2.N) :
    tileAt (F := Ideal) (grid2.coords t) (cblk V c 0 t) (cblk V c 1 t) (cblk V c 2 t) (cblk V c 3 t) (cblk V c 4 t) (cblk V c 5 t)
      = Cert.Spec.arr2 (fun p q => Cert.Spec.pair T lab (rowAt (t.val / 8) p) (rowAt (t.val % 8) q)) := by
  have ht := lt64_2 t
  obtain ⟨-, -, -, -, -, -, -, -, -, -, -, -, -, -, g0, g1⟩ := idx_facts2 t
  rw [cblk0_real V c T hT t, cblk1_real V c T hT t, cblk2_real V c T hs t, cblk3_real V c T hs7 t,
    cblk4_real V c lab hl8 t, cblk5_real V c lab hl9 t]
  exact tile_blocks2 T lab (grid2.coords t) (t.val / 8) (t.val % 8) (by omega) g1

/-- One step of the accumulator at point t: cleared at t % 8 = 0, then the tile's sum added. -/
theorem accNext_real2 (hT : V c main_v6_0 = Cert.Spec.arr2 T)
    (hs : V c main_v6_1 = fun y => ((Cert.Spec.sq T (y 0) : ℝ) : EReal))
    (hs7 : V c main_v7 = fun y => ((Cert.Spec.sq T (y 1) : ℝ) : EReal))
    (hl8 : V c main_v8 = fun y => lab (y 0)) (hl9 : V c main_v9 = fun y => lab (y 1)) (t : Fin cfg2.N)
    (a : ℝ) (xs : Vec Ideal S1x1 .f32) (hxs : ¬ t.val % 8 = 0 → xs = fun _ => ((a : ℝ) : EReal)) :
    accNext (F := Ideal) (grid2.coords t) (cblk V c 0 t) (cblk V c 1 t) (cblk V c 2 t) (cblk V c 3 t) (cblk V c 4 t) (cblk V c 5 t) xs
      = fun _ => (((if t.val % 8 = 0 then 0 else a) + tileSum2 T lab (t.val / 8) (t.val % 8) : ℝ) : EReal) := by
  have ht := lt64_2 t
  obtain ⟨hR, hD, hO⟩ := cond_facts2 t
  have hst : accStart (F := Ideal) (grid2.coords t) xs = fun _ => (((if t.val % 8 = 0 then 0 else a : ℝ)) : EReal) := by
    unfold accStart
    by_cases h0 : t.val % 8 = 0
    · rw [if_pos (hR.mpr h0), if_pos h0, pay4_real]
    · rw [if_neg (fun h => h0 (hR.mp h)), if_neg h0, hxs h0]
  unfold accNext
  rw [hst, tile_eq2 V c T lab hT hs hs7 hl8 hl9 t]
  by_cases hd : t.val / 8 = t.val % 8
  · rw [if_pos (hD.mpr hd), pay1_real]
    funext _
    refine congrArg (fun x : ℝ => (((if t.val % 8 = 0 then 0 else a) + x : ℝ) : EReal)) ?_
    unfold tileSum2
    refine Finset.sum_congr rfl fun p _ => Finset.sum_congr rfl fun q _ => ?_
    rw [← hd]
    refine if_congr ?_ rfl rfl
    rw [rowAt_eq_iff _ _ (by omega) (by omega)]
    exact ⟨fun h => ⟨rfl, h⟩, fun h => h.2⟩
  · rw [if_neg (fun h => hd (hD.mp h)), if_pos (hO.mpr hd), pay2_real]
    funext _
    refine congrArg (fun x : ℝ => (((if t.val % 8 = 0 then 0 else a) + x : ℝ) : EReal)) ?_
    unfold tileSum2
    refine Finset.sum_congr rfl fun p _ => Finset.sum_congr rfl fun q _ => ?_
    rw [if_neg]
    rw [rowAt_eq_iff _ _ (by omega) (by omega)]
    exact fun h => hd h.1

/-- The accumulated value steps as the accumulator does. -/
theorem accVal2_step (n : ℕ) :
    (if n % 8 = 0 then 0 else accVal2 T lab (n - 1)) + tileSum2 T lab (n / 8) (n % 8) = accVal2 T lab n := by
  unfold accVal2
  by_cases h0 : n % 8 = 0
  · rw [if_pos h0, h0, zero_add, Finset.sum_range_one]
  · rw [if_neg h0, show (n - 1) / 8 = n / 8 by omega, show (n - 1) % 8 + 1 = n % 8 by omega, Finset.sum_range_succ]

/-- The accumulator after point n holds the accumulated value. -/
theorem accAt_val2 (hT : V c main_v6_0 = Cert.Spec.arr2 T)
    (hs : V c main_v6_1 = fun y => ((Cert.Spec.sq T (y 0) : ℝ) : EReal))
    (hs7 : V c main_v7 = fun y => ((Cert.Spec.sq T (y 1) : ℝ) : EReal))
    (hl8 : V c main_v8 = fun y => lab (y 0)) (hl9 : V c main_v9 = fun y => lab (y 1)) :
    ∀ (n : ℕ) (hn : n < cfg2.N), accAt V c n hn = fun _ => ((accVal2 T lab n : ℝ) : EReal)
  | 0, hn => by
    show accNext (grid2.coords ⟨0, hn⟩) (cblk V c 0 ⟨0, hn⟩) (cblk V c 1 ⟨0, hn⟩) (cblk V c 2 ⟨0, hn⟩) (cblk V c 3 ⟨0, hn⟩)
      (cblk V c 4 ⟨0, hn⟩) (cblk V c 5 ⟨0, hn⟩) (k2_pay4 (F := Ideal)) = _
    rw [accNext_real2 V c T lab hT hs hs7 hl8 hl9 ⟨0, hn⟩ (accVal2 T lab (0 - 1)) (k2_pay4 (F := Ideal)) (fun h => absurd rfl h)]
    funext _
    exact congrArg (fun x : ℝ => (x : EReal)) (accVal2_step T lab 0)
  | n + 1, hn => by
    have ih := accAt_val2 hT hs hs7 hl8 hl9 n (Nat.lt_of_succ_lt hn)
    show accNext (grid2.coords ⟨n + 1, hn⟩) (cblk V c 0 ⟨n + 1, hn⟩) (cblk V c 1 ⟨n + 1, hn⟩) (cblk V c 2 ⟨n + 1, hn⟩)
      (cblk V c 3 ⟨n + 1, hn⟩) (cblk V c 4 ⟨n + 1, hn⟩) (cblk V c 5 ⟨n + 1, hn⟩) (accAt V c n (Nat.lt_of_succ_lt hn)) = _
    rw [accNext_real2 V c T lab hT hs hs7 hl8 hl9 ⟨n + 1, hn⟩ (accVal2 T lab (n + 1 - 1)) (accAt V c n (Nat.lt_of_succ_lt hn))
      (fun _ => ih)]
    funext _
    exact congrArg (fun x : ℝ => (x : EReal)) (accVal2_step T lab (n + 1))

/-! ## The result array -/

/-- Row block i against the whole table: the eight tiles of its row of tiles. -/
def rowSum2 (i : ℕ) : ℝ := ∑ j' ∈ Finset.range 8, tileSum2 T lab i j'

/-- What the result window's buffer holds after point t: the accumulator, everywhere. -/
theorem dat2_after6 (t : Fin cfg2.N) : (dat2 V c).after 6 t = outBlk (accAt V c t.val t.isLt) := by dsimp only [dat2]

/-- What a point with t % 8 = 7 writes back is its block of the array that holds, in rows [8 i, 8 i + 8), the sum of row block i
    against the whole table. -/
theorem flushed2_eq (hT : V c main_v6_0 = Cert.Spec.arr2 T)
    (hs : V c main_v6_1 = fun y => ((Cert.Spec.sq T (y 0) : ℝ) : EReal))
    (hs7 : V c main_v7 = fun y => ((Cert.Spec.sq T (y 1) : ℝ) : EReal))
    (hl8 : V c main_v8 = fun y => lab (y 0)) (hl9 : V c main_v9 = fun y => lab (y 1))
    (t : Fin cfg2.N) (hf : (cfg2.win 6).flush t = true) :
    (dat2 V c).flushed 6 t = ((cfg2.win 6).blk t).view.read (Elt Ideal)
      (fun idx : S64x128.Idx => ((rowSum2 T lab ((idx 0).val / 8) : ℝ) : EReal)) := by
  have h7 : t.val % 8 = 7 := (flush2_6 t).mp hf
  obtain ⟨-, -, -, -, -, -, -, -, -, -, -, -, e0, e1, -, -⟩ := idx_facts2 t
  show (cfg2.win 6).cut (grid2.coords t) ((dat2 V c).after 6 t) = _
  rw [dat2_after6, accAt_val2 V c T lab hT hs hs7 hl8 hl9 t.val t.isLt, outBlk_real]
  funext y
  rw [View.read_apply]
  show ((accVal2 T lab t.val : ℝ) : EReal) = ((rowSum2 T lab ((((cfg2.win 6).blk t).view.emb y 0).val / 8) : ℝ) : EReal)
  have hrow : ((((cfg2.win 6).blk t).view.emb y) 0).val = win2_6.index t 0 * 8 + 1 * (y 0).val := rfl
  have hy : (y 0).val < 8 := (y 0).isLt
  rw [hrow, e0]
  unfold accVal2 rowSum2
  rw [h7, show (t.val / 8 * 8 + 1 * (y 0).val) / 8 = t.val / 8 by omega]

/-- Row a of the result array lies in the block of point 8 (a / 8) + 7. -/
theorem cover2 (i : S64x128.Idx) :
    ∃ t : Fin cfg2.N, (cfg2.win 6).flush t = true ∧ i ∈ ((cfg2.win 6).blk t).view.set := by
  have hi0 : (i 0).val < 64 := (i 0).isLt
  have hi1 : (i 1).val < 128 := (i 1).isLt
  have hlt : 8 * ((i 0).val / 8) + 7 < cfg2.N := by rw [show cfg2.N = 64 from N_2]; omega
  obtain ⟨t, ht⟩ : ∃ t : Fin cfg2.N, t.val = 8 * ((i 0).val / 8) + 7 := ⟨⟨_, hlt⟩, rfl⟩
  obtain ⟨-, -, -, -, -, -, -, -, -, -, -, -, e0, e1, -, -⟩ := idx_facts2 t
  refine ⟨t, (flush2_6 t).mpr (by omega), ?_⟩
  show i ∈ ((View.whole main_v10).slice (win2_6.rect t)).set
  rw [View.set_slice_whole, Rect.mem_set_unit]
  intro a
  match a with
  | ⟨0, _⟩ => show win2_6.index t 0 * 8 ≤ (i 0).val ∧ (i 0).val < win2_6.index t 0 * 8 + 8; rw [e0]; omega
  | ⟨1, _⟩ => show win2_6.index t 1 * 128 ≤ (i 1).val ∧ (i 1).val < win2_6.index t 1 * 128 + 128; rw [e1]; omega

/-- The result array after the call: in row a, everywhere, the sum of row block a / 8 against the whole table. -/
theorem out_arr2 (hT : V c main_v6_0 = Cert.Spec.arr2 T)
    (hs : V c main_v6_1 = fun y => ((Cert.Spec.sq T (y 0) : ℝ) : EReal))
    (hs7 : V c main_v7 = fun y => ((Cert.Spec.sq T (y 1) : ℝ) : EReal))
    (hl8 : V c main_v8 = fun y => lab (y 0)) (hl9 : V c main_v9 = fun y => lab (y 1)) :
    (dat2 V c).arrAt 6 cfg2.N = fun idx : S64x128.Idx => ((rowSum2 T lab ((idx 0).val / 8) : ℝ) : EReal) :=
  (dat2 V c).arrAt_eq_of_cover 6 _ (fun t hf => flushed2_eq V c T lab hT hs hs7 hl8 hl9 t hf) cover2

/-- The rows of the table, as (row block, position in the block). -/
def rowEquiv2 : Fin 8 × Fin 1024 ≃ Fin 8192 where
  toFun x := rowAt x.1.val x.2
  invFun s := (⟨s.val / 1024, by have := s.isLt; omega⟩, ⟨s.val % 1024, Nat.mod_lt _ (by decide)⟩)
  left_inv x := by
    have h1 := x.1.isLt
    have h2 := x.2.isLt
    have hv := rowAt_val x.1.val h1 x.2
    refine Prod.ext (Fin.ext ?_) (Fin.ext ?_)
    · show (rowAt x.1.val x.2).val / 1024 = x.1.val; omega
    · show (rowAt x.1.val x.2).val % 1024 = x.2.val; omega
  right_inv s := by
    have hs := s.isLt
    refine Fin.ext ?_
    show (rowAt (s.val / 1024) ⟨s.val % 1024, _⟩).val = s.val
    rw [rowAt_val _ (by omega)]
    show 1024 * (s.val / 1024) + s.val % 1024 = s.val
    omega

/-- The eight tiles of a row of tiles, re-indexed by the rows of the table. -/
theorem rowSum2_eq (i : ℕ) :
    rowSum2 T lab i = ∑ s : Fin 8192, ∑ p : Fin 1024,
      if rowAt i p = s then 0 else Cert.Spec.pair T lab (rowAt i p) s := by
  unfold rowSum2 tileSum2
  rw [Finset.sum_range (fun j' => ∑ p : Fin 1024, ∑ q : Fin 1024,
    if rowAt i p = rowAt j' q then 0 else Cert.Spec.pair T lab (rowAt i p) (rowAt j' q))]
  rw [← rowEquiv2.sum_comp (fun s => ∑ p : Fin 1024, if rowAt i p = s then 0 else Cert.Spec.pair T lab (rowAt i p) s),
    Fintype.sum_prod_type]
  refine Finset.sum_congr rfl fun j' _ => ?_
  rw [Finset.sum_comm]
  rfl

end Acc

/-! ## At the program's own boundary contents -/

section Final

variable (m : (ℓ : Loc nD τ sig) → Buf (Elt Ideal) ℓ) (c : Dev nD)
variable (T : Fin 8192 → Fin 768 → ℝ) (lab : Fin 8192 → BitVec 32)

/-- The accumulator after point t = (t / 8, t % 8) of call 2: the pair terms of row block t / 8 against the row blocks
    0 … t % 8, a row against itself left out. -/
theorem accAt_real (hT : V5 (F := Ideal) m c main_v6_0 = Cert.Spec.arr2 T)
    (hs : V5 (F := Ideal) m c main_v6_1 = fun y => ((Cert.Spec.sq T (y 0) : ℝ) : EReal))
    (hs7 : V5 (F := Ideal) m c main_v7 = fun y => ((Cert.Spec.sq T (y 1) : ℝ) : EReal))
    (hl8 : V5 (F := Ideal) m c main_v8 = fun y => lab (y 0)) (hl9 : V5 (F := Ideal) m c main_v9 = fun y => lab (y 1))
    (t : Fin cfg2.N) :
    accAt (F := Ideal) (V5 m) c t.val t.isLt
      = fun _ => ((∑ j' ∈ Finset.range (t.val % 8 + 1), ∑ p : Fin 1024, ∑ q : Fin 1024,
          (if rowAt (t.val / 8) p = rowAt j' q then 0
            else Cert.Spec.pair T lab (rowAt (t.val / 8) p) (rowAt j' q)) : ℝ) : EReal) :=
  accAt_val2 (V5 m) c T lab hT hs hs7 hl8 hl9 t.val t.isLt

/-- What call 2 leaves in its result array: in row a, at every column, the sum over all rows s of the table and all rows
    of row block a / 8 of their pair term, a row against itself left out. -/
theorem contr_arr (hT : V5 (F := Ideal) m c main_v6_0 = Cert.Spec.arr2 T)
    (hs : V5 (F := Ideal) m c main_v6_1 = fun y => ((Cert.Spec.sq T (y 0) : ℝ) : EReal))
    (hs7 : V5 (F := Ideal) m c main_v7 = fun y => ((Cert.Spec.sq T (y 1) : ℝ) : EReal))
    (hl8 : V5 (F := Ideal) m c main_v8 = fun y => lab (y 0)) (hl9 : V5 (F := Ideal) m c main_v9 = fun y => lab (y 1)) :
    V6 (F := Ideal) m c main_v10
      = fun idx : S64x128.Idx => ((∑ s : Fin 8192, ∑ p : Fin 1024,
          (if rowAt ((idx 0).val / 8) p = s then 0
            else Cert.Spec.pair T lab (rowAt ((idx 0).val / 8) p) s) : ℝ) : EReal) := by
  show W6 m c (Proc.devRef .tc main_v10) = _
  rw [W6_out, out_arr2 (V5 m) c T lab hT hs hs7 hl8 hl9]
  funext idx
  rw [rowSum2_eq]

end Final

end Cert.KernelIdeal.Val

end
-- ==== Proof.KValue.lean ====
/-
  The kernel program's two results at the last boundary as the specification's functions of the argument arrays.
  The first call leaves the logits and, per block of 1024 rows, minus the sum of the log-softmax at the labels over
  the block's rows; minus the mean over all 8192 rows is the sum of the eight blocks' values over 8192, since the
  8192 rows are the eight blocks. The second call leaves the second matrix and its rows' squared norms, which the
  third call finds as a column and, re-laid, as a row, beside the labels as a column and as a row. The third call
  leaves, per block, the sum of the pair terms of the block's rows against all rows, the diagonal left out; the
  eight blocks' sums are the sum over all ordered pairs of distinct rows. The loss is the two float weights times
  the two, added.
-/
import proofs.«427818_j27788438405734_3_alg».proof.Proof.KFold
import proofs.«427818_j27788438405734_3_alg».proof.Proof.KHost
import proofs.«427818_j27788438405734_3_alg».proof.Proof.Spec
import proofs.«427818_j27788438405734_3_alg».proof.Proof.KVal0
import proofs.«427818_j27788438405734_3_alg».proof.Proof.KVal1
import proofs.«427818_j27788438405734_3_alg».proof.Proof.KVal2
import Idealize.ShloMosaic.Lib.ValueIdx
import Mathlib.Algebra.BigOperators.Fin
import Mathlib.Algebra.BigOperators.Intervals
import Mathlib.Algebra.BigOperators.Ring.Finset
import Mathlib.Data.EReal.Basic
import Mathlib.Data.EReal.Operations

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem

section Halves

variable (m : (ℓ : Loc nD τ sig) → Buf (Elt Ideal) ℓ) (c : Dev nD)

/-- Row `p` of the block of 1024 rows numbered `b`, the number reduced so that no bound is asked. -/
abbrev rowModV (b : ℕ) (p : Fin 1024) : Fin 8192 := ⟨(1024 * b + p.val) % 8192, Nat.mod_lt _ (by decide)⟩

/-- For a block number below eight nothing is reduced. -/
theorem rowModV_val {b : ℕ} (hb : b < 8) (p : Fin 1024) : (rowModV b p).val = 1024 * b + p.val := by
  have := p.isLt
  show (1024 * b + p.val) % 8192 = 1024 * b + p.val
  omega

/-- The first scalar from the blocks' partial sums: each block holds minus the sum of a row function over its
    1024 rows, and the scalar is minus the mean of the row function over all rows. -/
theorem v5_mean_V (f : Fin 8192 → ℝ)
    (hpart : Hand.V2 m c main_v2_1
      = fun idx : S64x128.Idx => ((-(∑ p : Fin 1024, f (rowModV ((idx 0).val / 8) p)) : ℝ) : EReal)) :
    W3 m c (Proc.devRef .tc main_v5) = fun _ => ((-((∑ r : Fin 8192, f r) / 8192) : ℝ) : EReal) := by
  rw [v5_of_part m c (fun i => -(∑ p : Fin 1024, f (rowModV i p))) hpart]
  funext _
  rw [Finset.sum_neg_distrib, sum_blocks f, neg_div]

/-- The returned scalar from the first scalar and the blocks' pair sums: each block holds the sum of a function of
    two rows over its 1024 rows and all rows, and the second term is the function's sum over all ordered pairs. -/
theorem v15_pairs_V (a : ℝ) (g : Fin 8192 → Fin 8192 → ℝ)
    (h5 : W3 m c (Proc.devRef .tc main_v5) = fun _ => ((a : ℝ) : EReal))
    (hQ : Hand.V6 m c main_v10
      = fun idx : S64x128.Idx => ((∑ s : Fin 8192, ∑ p : Fin 1024, g (rowModV ((idx 0).val / 8) p) s : ℝ) : EReal)) :
    W7 m c (Proc.devRef .tc main_v15)
      = fun _ => Ideal.ofBits .f32 0x3F666666#32 * ((a : ℝ) : EReal)
          + Ideal.ofBits .f32 0x3DCCCCCD#32 * (((∑ r : Fin 8192, ∑ s : Fin 8192, g r s) : ℝ) : EReal) := by
  rw [v15_of_parts m c a (fun i => ∑ s : Fin 8192, ∑ p : Fin 1024, g (rowModV i p) s) h5 hQ]
  funext _
  have e : ∑ i ∈ Finset.range 8, ∑ s : Fin 8192, ∑ p : Fin 1024, g (rowModV i p) s
      = ∑ r : Fin 8192, ∑ s : Fin 8192, g r s := by
    rw [← sum_blocks (fun r => ∑ s : Fin 8192, g r s)]
    exact Finset.sum_congr rfl fun i _ => Finset.sum_comm
  rw [e]

end Halves

section Entry2

variable (m : (ℓ : Loc nD τ sig) → Buf (Elt Ideal) ℓ) (c : Dev nD)
variable (T : Fin 8192 → Fin 768 → ℝ) (h1 : m ((c : Thread nD τ).loc main_arg1) = Cert.Spec.arr2 T)
include h1

/-- What the third call finds in its windows' arrays: the second matrix, its rows' squared norms as a column and as
    a row, and (below) the labels as a column and as a row. -/
theorem entry2_T_V : Hand.V5 m c main_v6_0 = Cert.Spec.arr2 T := (V5_main_v6_0 m c).trans (cast_arr m c T h1)

theorem entry2_sqcol_V : Hand.V5 m c main_v6_1 = fun y => ((Cert.Spec.sq T (y 0) : ℝ) : EReal) :=
  (V5_main_v6_1 m c).trans (sq_arr m c T h1)

theorem entry2_sqrow_V : Hand.V5 m c main_v7 = fun y => ((Cert.Spec.sq T (y 1) : ℝ) : EReal) := by
  rw [V5_main_v7 m c, sq_arr m c T h1]
  rfl

omit h1 in
theorem entry2_labcol_V :
    Hand.V5 m c main_v8 = fun y => (fun r : Fin 8192 => (m ((c : Thread nD τ).loc main_arg2)) (ix1 r)) (y 0) :=
  V5_main_v8 m c

omit h1 in
theorem entry2_labrow_V :
    Hand.V5 m c main_v9 = fun y => (fun r : Fin 8192 => (m ((c : Thread nD τ).loc main_arg2)) (ix1 r)) (y 1) :=
  V5_main_v9 m c

end Entry2

section Assembly

variable (m : (ℓ : Loc nD τ sig) → Buf (Elt Ideal) ℓ) (c : Dev nD)
variable (X T : Fin 8192 → Fin 768 → ℝ) (Wt : Fin 12 → Fin 768 → ℝ) (B : Fin 12 → ℝ)

/-- The two results from what the three calls leave: the logits array; the blocks' partial sums of minus the
    log-softmax at the labels over each block's rows; and the blocks' sums of the pair terms of each block's rows
    against all rows. -/
theorem kernel_value_of_V (lab : Fin 8192 → BitVec 32)
    (row0 : Fin 64 → Fin 1024 → Fin 8192) (hrow0 : ∀ a p, (row0 a p).val = 1024 * (a.val / 8) + p.val)
    (rowX : ℕ → Fin 1024 → Fin 8192) (hrowX : ∀ b, b < 8 → ∀ p, (rowX b p).val = 1024 * b + p.val)
    (hlog : Hand.V2 m c main_v2_0 = Cert.Spec.arr2 (Cert.Spec.logit X Wt B))
    (hpart : Hand.V2 m c main_v2_1 = fun idx : S64x128.Idx =>
      ((-(∑ p : Fin 1024, Cert.Spec.logp (Cert.Spec.logit X Wt B (row0 (idx 0) p)) (Cert.Spec.cls (lab (row0 (idx 0) p)))) : ℝ) : EReal))
    (hcontr : Hand.V6 m c main_v10 = fun idx : S64x128.Idx =>
      ((∑ s : Fin 8192, ∑ p : Fin 1024,
        (if rowX ((idx 0).val / 8) p = s then 0 else Cert.Spec.pair T lab (rowX ((idx 0).val / 8) p) s) : ℝ) : EReal)) :
    W7 m c (Proc.devRef .tc main_v15) = (fun _ => Cert.Spec.loss X Wt B T lab)
      ∧ W7 m c (Proc.devRef .tc main_v2_0) = Cert.Spec.arr2 (Cert.Spec.logit X Wt B) := by
  refine ⟨?_, (W7_main_v2_0 m c).trans hlog⟩
  have h5 := v5_mean_V m c (fun r => Cert.Spec.logp (Cert.Spec.logit X Wt B r) (Cert.Spec.cls (lab r))) (hpart.trans (by
    funext idx
    have hb : (idx 0).val / 8 < 8 := by have := idx2_lt0 idx; omega
    have e : ∀ p : Fin 1024, row0 (idx 0) p = rowModV ((idx 0).val / 8) p := fun p =>
      Fin.ext ((hrow0 (idx 0) p).trans (rowModV_val hb p).symm)
    simp only [e]))
  have h15 := v15_pairs_V m c _ (fun r s => if r = s then 0 else Cert.Spec.pair T lab r s) h5 (hcontr.trans (by
    funext idx
    have hb : (idx 0).val / 8 < 8 := by have := idx2_lt0 idx; omega
    have e : ∀ p : Fin 1024, rowX ((idx 0).val / 8) p = rowModV ((idx 0).val / 8) p := fun p =>
      Fin.ext ((hrowX _ hb p).trans (rowModV_val hb p).symm)
    simp only [e]))
  rw [h15]
  rfl

end Assembly

section Result

variable (m : (ℓ : Loc nD τ sig) → Buf (Elt Ideal) ℓ) (c : Dev nD)
variable (X T : Fin 8192 → Fin 768 → ℝ) (Wt : Fin 12 → Fin 768 → ℝ) (B : Fin 12 → ℝ)

/-- The kernel program's two results at the last boundary are the specification's loss and logits of the argument
    arrays read as real matrices, for labels below twelve. -/
theorem kernel_value
    (h0 : m ((c : Thread nD τ).loc main_arg0) = Cert.Spec.arr2 X)
    (h1 : m ((c : Thread nD τ).loc main_arg1) = Cert.Spec.arr2 T)
    (h3 : m ((c : Thread nD τ).loc main_arg3) = Cert.Spec.arr2 Wt)
    (h4 : m ((c : Thread nD τ).loc main_arg4) = Cert.Spec.arr1 B)
    (hlab : ∀ r : Fin 8192, ((m ((c : Thread nD τ).loc main_arg2)) (ix1 r)).toNat < 12) :
    W7 (F := Ideal) m c (Proc.devRef .tc main_v15)
        = (fun _ => Cert.Spec.loss X Wt B T (fun r => (m ((c : Thread nD τ).loc main_arg2)) (ix1 r)))
      ∧ W7 (F := Ideal) m c (Proc.devRef .tc main_v2_0) = Cert.Spec.arr2 (Cert.Spec.logit X Wt B) :=
  kernel_value_of_V m c X T Wt B (labOf m c) rowOf0 (fun _ _ => rfl) rowAt (fun b hb p => rowAt_val b hb p)
    (logits_arr m c X Wt B h0 h3 h4) (part_arr m c X Wt B h0 h3 h4 hlab)
    (contr_arr m c T (labOf m c) (entry2_T_V m c T h1) (entry2_sqcol_V m c T h1) (entry2_sqrow_V m c T h1)
      (entry2_labcol_V m c) (entry2_labrow_V m c))

end Result

end Cert.KernelIdeal.Val

end
-- ==== Proof.lean ====
/-
  The certificate. Three pallas_calls (the classifier with its cross-entropy partial sums; a prepass of row
  norms; the tiled contrastive sum with an accumulator carried along each row of tiles) among four stretches of
  host operations, against the plain reference. Both frames of the kernel program come from one run over the
  contents of every unscoped buffer at each boundary of the program; at the extended reals that run also names
  the two results, and both programs' results are the specification's functions (Proof/Spec.lean) of the inputs
  read as real matrices, which the precondition (finite floats, labels in [0, 12)) lets us do.
-/
import proofs.«427818_j27788438405734_3_alg».proof.Defs
import proofs.«427818_j27788438405734_3_alg».proof.Proof.Gen.Kernel
import proofs.«427818_j27788438405734_3_alg».proof.Proof.Gen.KernelIdeal
import proofs.«427818_j27788438405734_3_alg».proof.Proof.Gen.ReferenceIdeal
import proofs.«427818_j27788438405734_3_alg».proof.Proof.Gen.Pre_finite_inputs
import proofs.«427818_j27788438405734_3_alg».proof.Proof.KRun
import proofs.«427818_j27788438405734_3_alg».proof.Proof.KArgs
import proofs.«427818_j27788438405734_3_alg».proof.Proof.Body01
import proofs.«427818_j27788438405734_3_alg».proof.Proof.Body2
import proofs.«427818_j27788438405734_3_alg».proof.Proof.Shares2
import proofs.«427818_j27788438405734_3_alg».proof.Proof.BRun
import proofs.«427818_j27788438405734_3_alg».proof.Proof.BArgs
import proofs.«427818_j27788438405734_3_alg».proof.Proof.BBody01
import proofs.«427818_j27788438405734_3_alg».proof.Proof.BBody2
import proofs.«427818_j27788438405734_3_alg».proof.Proof.BShares2
import proofs.«427818_j27788438405734_3_alg».proof.Proof.RefValue
import proofs.«427818_j27788438405734_3_alg».proof.Proof.PreFacts
import proofs.«427818_j27788438405734_3_alg».proof.Proof.KValue
import Idealize.ShloMosaic.Adequacy
import Idealize.ShloMosaic.Init

noncomputable section

namespace Cert.Proof

open Idealize.ShloMosaic Idealize.ShloMosaic.TcCoe Idealize.SL.Sem

/-- What the three calls of the word-level program owe its run. -/
theorem owed_Kernel : Cert.Kernel.Hand.Owed (F := Bits) where
  body0 V c := Cert.Kernel.Hand.body_obligation0 V c
  body1 V c := Cert.Kernel.Hand.body_obligation1 V c
  body2 V c := Cert.Kernel.Hand.body_obligation2 V c
  out2 V c := Cert.Kernel.Hand.hout2 V c
  split2 V c U hA := Cert.Kernel.Hand.arrays2_split V c U hA
  join2 V c U U' G hG hrest := Cert.Kernel.Hand.arrays2_join V c U U' G hG hrest

/-- What the three calls of the idealized program owe its run. -/
theorem owed_KernelIdeal : Cert.KernelIdeal.Hand.Owed (F := Ideal) where
  body0 V c := Cert.KernelIdeal.Hand.body_obligation0 V c
  body1 V c := Cert.KernelIdeal.Hand.body_obligation1 V c
  body2 V c := Cert.KernelIdeal.Hand.body_obligation2 V c
  out2 V c := Cert.KernelIdeal.Hand.hout2 V c
  split2 V c U hA := Cert.KernelIdeal.Hand.arrays2_split V c U hA
  join2 V c U U' G hG hrest := Cert.KernelIdeal.Hand.arrays2_join V c U U' G hG hrest

/-- The word-level program runs to the end from any memory, nothing faulting, and its five argument arrays end as launched:
    the run over the boundary contents, read at the arguments. -/
theorem frame_Kernel : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W7_main_arg0 m c),
     (h c _ (Cert.Kernel.Hand.mem_uc Cert.Kernel.main_arg1 (by decide))).trans (Cert.Kernel.Hand.W7_main_arg1 m c),
     (h c _ (Cert.Kernel.Hand.mem_uc Cert.Kernel.main_arg2 (by decide))).trans (Cert.Kernel.Hand.W7_main_arg2 m c),
     (h c _ (Cert.Kernel.Hand.mem_uc Cert.Kernel.main_arg3 (by decide))).trans (Cert.Kernel.Hand.W7_main_arg3 m c),
     (h c _ (Cert.Kernel.Hand.mem_uc Cert.Kernel.main_arg4 (by decide))).trans (Cert.Kernel.Hand.W7_main_arg4 m c)⟩)
    (Cert.Kernel.Hand.run_all m ρ owed_Kernel)

/-- The idealized program runs to the end from any memory, nothing faulting, and its five argument arrays end as launched:
    the run over the boundary contents, read at the arguments. -/
theorem frame_KernelIdeal : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W7_main_arg0 m c),
     (h c _ (Cert.KernelIdeal.Hand.mem_uc Cert.KernelIdeal.main_arg1 (by decide))).trans (Cert.KernelIdeal.Hand.W7_main_arg1 m c),
     (h c _ (Cert.KernelIdeal.Hand.mem_uc Cert.KernelIdeal.main_arg2 (by decide))).trans (Cert.KernelIdeal.Hand.W7_main_arg2 m c),
     (h c _ (Cert.KernelIdeal.Hand.mem_uc Cert.KernelIdeal.main_arg3 (by decide))).trans (Cert.KernelIdeal.Hand.W7_main_arg3 m c),
     (h c _ (Cert.KernelIdeal.Hand.mem_uc Cert.KernelIdeal.main_arg4 (by decide))).trans (Cert.KernelIdeal.Hand.W7_main_arg4 m c)⟩)
    (Cert.KernelIdeal.Hand.run_all m ρ owed_KernelIdeal)

/-- The reference runs to the end with its arguments unchanged: its run with the results dropped. -/
theorem frame_ReferenceIdeal : Cert.frame_ReferenceIdeal := fun m ρ _ =>
  (θ_run (Cert.ReferenceIdeal.defs (F := Ideal)) _ _).mono (fun _ h c => (h c).2.2) (Cert.ReferenceIdeal.ValueP.run (F := Ideal) m ρ)

/-- The kernel program's two results are preserved by its idealization trivially: the ideal pass rewrote nothing. -/
theorem preserves : Cert.preserves_Kernel_KernelIdeal := trivial

/-- At the extended reals the two programs, run from memories that agree on the arguments, end with the same two
    results: the precondition makes every float input a matrix of reals and every label a class index; the kernel
    program's results at the last boundary and the reference's composed terms are then both the specification's loss
    and logits of those matrices. -/
theorem algebraic : Cert.algebraic_KernelIdeal_ReferenceIdeal := by
  intro m ρ m' ρ' hpre hagree
  have hd := fun c => Cert.PreFacts.decode _ _ _ _ _ (hpre c)
  choose X hX using fun c => (hd c).1
  choose T hT using fun c => (hd c).2.1
  choose Wt hWt using fun c => (hd c).2.2.1
  choose B hB using fun c => (hd c).2.2.2.1
  have hlab := fun c => (hd c).2.2.2.2
  refine ⟨fun c => Cert.KernelIdeal.Hand.W7 m c (Proc.devRef .tc Cert.KernelIdeal.main_v15),
    fun c => Cert.KernelIdeal.Hand.W7 m c (Proc.devRef .tc Cert.KernelIdeal.main_v2_0), ?_, ?_⟩
  · exact (θ_run (Cert.KernelIdeal.defs (F := Ideal)) _ _).mono (fun r h c =>
      ⟨h c _ (Cert.KernelIdeal.Hand.mem_uc Cert.KernelIdeal.main_v15 (by decide)),
       h c _ (Cert.KernelIdeal.Hand.mem_uc Cert.KernelIdeal.main_v2_0 (by decide)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c),
       (h c _ (Cert.KernelIdeal.Hand.mem_uc Cert.KernelIdeal.main_arg4 (by decide))).trans (Cert.KernelIdeal.Hand.W7_main_arg4 m c)⟩)
      (Cert.KernelIdeal.Hand.run_all m ρ owed_KernelIdeal)
  · refine (θ_run (Cert.ReferenceIdeal.defs (F := Ideal)) _ _).mono (fun r h c => ?_) (Cert.ReferenceIdeal.ValueP.run (F := Ideal) m' ρ')
    obtain ⟨hv46, hv4, hargs⟩ := h c
    obtain ⟨a0, a1, a2, a3, a4⟩ := hagree c
    have kv := Cert.KernelIdeal.Val.kernel_value m c (X c) (T c) (Wt c) (B c) (hX c) (hT c) (hWt c) (hB c) (hlab c)
    have hl' : ∀ r : Fin 8192, ((m' ((c.tc : Thread Cert.ReferenceIdeal.nD Cert.ReferenceIdeal.τ).loc Cert.ReferenceIdeal.main_arg2)) (ValueIdx.ix1 r)).toNat < 12 := by
      intro r; rw [a2]; exact hlab c r
    refine ⟨hv46.trans ?_, hv4.trans ?_, hargs⟩
    · rw [Cert.ReferenceIdeal.RefValue.loss_eq m' c (X c) (T c) (Wt c) (B c) (a0.trans (hX c)) (a1.trans (hT c)) (a3.trans (hWt c)) (a4.trans (hB c)) hl', a2]
      exact kv.1.symm
    · exact (Cert.ReferenceIdeal.RefValue.logits_run_eq m' c (X c) (Wt c) (B c) (a0.trans (hX c)) (a3.trans (hWt c)) (a4.trans (hB c))).trans kv.2.symm

/-- The claim: the programs' stated facts by the generated instances, then the three frames, the empty ledger, and the
    equality of the results over the extended reals. -/
theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
